-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S131072x64 : Shape := ⟨2, ![131072, 64]⟩
abbrev S131072 : Shape := ⟨1, ![131072]⟩
abbrev S131072x2 : Shape := ⟨2, ![131072, 2]⟩
abbrev S256 : Shape := ⟨1, ![256]⟩
abbrev S256x100 : Shape := ⟨2, ![256, 100]⟩
abbrev S100 : Shape := ⟨1, ![100]⟩
abbrev S64x50 : Shape := ⟨2, ![64, 50]⟩
abbrev S50 : Shape := ⟨1, ![50]⟩
abbrev S150x128 : Shape := ⟨2, ![150, 128]⟩
abbrev S128 : Shape := ⟨1, ![128]⟩
abbrev S512x50 : Shape := ⟨2, ![512, 50]⟩
abbrev S100x64 : Shape := ⟨2, ![100, 64]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S256x100 : S_.BroadcastsInDim S256x100 (![] : Fin 0 → Fin S256x100.rank)
  reducesTo_S256x100_S_d0_1 : S256x100.ReducesTo [0, 1] S_
  bcast_S_S100 : S_.BroadcastsInDim S100 (![] : Fin 0 → Fin S100.rank)
  reducesTo_S100_S_d0 : S100.ReducesTo [0] S_
  bcast_S_S64x50 : S_.BroadcastsInDim S64x50 (![] : Fin 0 → Fin S64x50.rank)
  reducesTo_S64x50_S_d0_1 : S64x50.ReducesTo [0, 1] S_
  bcast_S_S50 : S_.BroadcastsInDim S50 (![] : Fin 0 → Fin S50.rank)
  reducesTo_S50_S_d0 : S50.ReducesTo [0] S_
  bcast_S_S150x128 : S_.BroadcastsInDim S150x128 (![] : Fin 0 → Fin S150x128.rank)
  reducesTo_S150x128_S_d0_1 : S150x128.ReducesTo [0, 1] S_
  bcast_S_S128 : S_.BroadcastsInDim S128 (![] : Fin 0 → Fin S128.rank)
  reducesTo_S128_S_d0 : S128.ReducesTo [0] S_
  bcast_S_S512x50 : S_.BroadcastsInDim S512x50 (![] : Fin 0 → Fin S512x50.rank)
  reducesTo_S512x50_S_d0_1 : S512x50.ReducesTo [0, 1] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S131072x2 : S_.BroadcastsInDim S131072x2 (![] : Fin 0 → Fin S131072x2.rank)
  reducesTo_S131072x2_S_d0_1 : S131072x2.ReducesTo [0, 1] S_

variable [Facts]

def fn_part4 {F : FTy → Type} [FloatOps F] (main_arg3 : IVec S131072x2 32) (main_v63 : IVec S_ 1) (main_v67 : IVec S_ 1) : IVec S_ 1 :=
  let main_v68 : IVec S_ 1 := andi main_v63 main_v67
  let main_c_26 : IVec S_ 32 := constantI S_ 32 4294950912#32
  let main_v69 : IVec S131072x2 32 := broadcastInDim S131072x2 ![] bcast_S_S131072x2 main_c_26
  let main_v70 : IVec S131072x2 1 := cmpi .sge main_arg3 main_v69
  let main_c_27 : IVec S_ 32 := constantI S_ 32 16384#32
  let main_v71 : IVec S131072x2 32 := broadcastInDim S131072x2 ![] bcast_S_S131072x2 main_c_27
  let main_v72 : IVec S131072x2 1 := cmpi .slt main_arg3 main_v71
  let main_v73 : IVec S131072x2 1 := andi main_v70 main_v72
  let main_c_28 : IVec S_ 1 := constantI S_ 1 1#1
  let main_v74 : IVec S_ 1 := (fun x v => Host.reduce IntOp.andi x v reducesTo_S131072x2_S_d0_1 h_S_) main_v73 main_c_28
  let main_v75 : IVec S_ 1 := andi main_v68 main_v74
  main_v75

def fn_part3 {F : FTy → Type} [FloatOps F] (main_arg3 : IVec S131072x2 32) (main_arg14 : FVec F S50 .f32) (main_arg15 : FVec F S100x64 .f32) (main_arg16 : FVec F S64 .f32) (main_v48 : IVec S_ 1) (main_v49 : FVec F S64x50 .f32) (main_v50 : FVec F S64x50 .f32) : IVec S_ 1 :=
  let main_v51 : IVec S64x50 1 := cmpf .olt main_v49 main_v50
  let main_c_19 : IVec S_ 1 := constantI S_ 1 1#1
  let main_v52 : IVec S_ 1 := (fun x v => Host.reduce IntOp.andi x v reducesTo_S64x50_S_d0_1 h_S_) main_v51 main_c_19
  let main_v53 : IVec S_ 1 := andi main_v48 main_v52
  let main_v54 : FVec F S50 .f32 := Host.absf main_arg14
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S100x64 .f32 := Host.absf main_arg15
  let main_cst_22 : FVec F S_ .f32 := constant S_ .f32 0x7F800000#32
  let main_v60 : FVec F S100x64 .f32 := broadcastInDim S100x64 ![] bcast_S_S100x64 main_cst_22
  let main_v61 : IVec S100x64 1 := cmpf .olt main_v59 main_v60
  let main_c_23 : IVec S_ 1 := constantI S_ 1 1#1
  let main_v62 : IVec S_ 1 := (fun x v => Host.reduce IntOp.andi x v reducesTo_S100x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg3 main_v63 main_v67

def fn_part2 {F : FTy → Type} [FloatOps F] (main_arg3 : IVec S131072x2 32) (main_arg10 : FVec F S128 .f32) (main_arg11 : FVec F S512x50 .f32) (main_arg12 : FVec F S50 .f32) (main_arg13 : FVec F S64x50 .f32) (main_arg14 : FVec F S50 .f32) (main_arg15 : FVec F S100x64 .f32) (main_arg16 : FVec F S64 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x50 .f32 := Host.absf main_arg11
  let main_cst_14 : FVec F S_ .f32 := constant S_ .f32 0x7F800000#32
  let main_v40 : FVec F S512x50 .f32 := broadcastInDim S512x50 ![] bcast_S_S512x50 main_cst_14
  let main_v41 : IVec S512x50 1 := cmpf .olt main_v39 main_v40
  let main_c_15 : IVec S_ 1 := constantI S_ 1 1#1
  let main_v42 : IVec S_ 1 := (fun x v => Host.reduce IntOp.andi x v reducesTo_S512x50_S_d0_1 h_S_) main_v41 main_c_15
  let main_v43 : IVec S_ 1 := andi main_v38 main_v42
  let main_v44 : FVec F S50 .f32 := Host.absf main_arg12
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S64x50 .f32 := Host.absf main_arg13
  let main_cst_18 : FVec F S_ .f32 := constant S_ .f32 0x7F800000#32
  let main_v50 : FVec F S64x50 .f32 := broadcastInDim S64x50 ![] bcast_S_S64x50 main_cst_18
  fn_part3 (F := F) main_arg3 main_arg14 main_arg15 main_arg16 main_v48 main_v49 main_v50

def fn_part1 {F : FTy → Type} [FloatOps F] (main_arg3 : IVec S131072x2 32) (main_arg7 : FVec F S64x50 .f32) (main_arg8 : FVec F S50 .f32) (main_arg9 : FVec F S150x128 .f32) (main_arg10 : FVec F S128 .f32) (main_arg11 : FVec F S512x50 .f32) (main_arg12 : FVec F S50 .f32) (main_arg13 : FVec F S64x50 .f32) (main_arg14 : FVec F S50 .f32) (main_arg15 : FVec F S100x64 .f32) (main_arg16 : FVec F S64 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S64x50 .f32 := Host.absf main_arg7
  let main_cst_6 : FVec F S_ .f32 := constant S_ .f32 0x7F800000#32
  let main_v20 : FVec F S64x50 .f32 := broadcastInDim S64x50 ![] bcast_S_S64x50 main_cst_6
  let main_v21 : IVec S64x50 1 := cmpf .olt main_v19 main_v20
  let main_c_7 : IVec S_ 1 := constantI S_ 1 1#1
  let main_v22 : IVec S_ 1 := (fun x v => Host.reduce IntOp.andi x v reducesTo_S64x50_S_d0_1 h_S_) main_v21 main_c_7
  let main_v23 : IVec S_ 1 := andi main_v18 main_v22
  let main_v24 : FVec F S50 .f32 := Host.absf main_arg8
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S150x128 .f32 := Host.absf main_arg9
  let main_cst_10 : FVec F S_ .f32 := constant S_ .f32 0x7F800000#32
  let main_v30 : FVec F S150x128 .f32 := broadcastInDim S150x128 ![] bcast_S_S150x128 main_cst_10
  let main_v31 : IVec S150x128 1 := cmpf .olt main_v29 main_v30
  let main_c_11 : IVec S_ 1 := constantI S_ 1 1#1
  let main_v32 : IVec S_ 1 := (fun x v => Host.reduce IntOp.andi x v reducesTo_S150x128_S_d0_1 h_S_) main_v31 main_c_11
  let main_v33 : IVec S_ 1 := andi main_v28 main_v32
  fn_part2 (F := F) main_arg3 main_arg10 main_arg11 main_arg12 main_arg13 main_arg14 main_arg15 main_arg16 main_v33

def fn {F : FTy → Type} [FloatOps F] (main_arg0 : FVec F S16384x256 .f32) (main_arg1 : FVec F S131072x64 .f32) (main_arg2 : IVec S131072 32) (main_arg3 : IVec S131072x2 32) (main_arg4 : IVec S256 32) (main_arg5 : FVec F S256x100 .f32) (main_arg6 : FVec F S100 .f32) (main_arg7 : FVec F S64x50 .f32) (main_arg8 : FVec F S50 .f32) (main_arg9 : FVec F S150x128 .f32) (main_arg10 : FVec F S128 .f32) (main_arg11 : FVec F S512x50 .f32) (main_arg12 : FVec F S50 .f32) (main_arg13 : FVec F S64x50 .f32) (main_arg14 : FVec F S50 .f32) (main_arg15 : FVec F S100x64 .f32) (main_arg16 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S256x100 .f32 := Host.absf main_arg5
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  let main_v14 : FVec F S100 .f32 := Host.absf main_arg6
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg3 main_arg7 main_arg8 main_arg9 main_arg10 main_arg11 main_arg12 main_arg13 main_arg14 main_arg15 main_arg16 main_v13 main_v16
-- ==== Kernel.lean ====
abbrev S16384x256 : Shape := ⟨2, ![16384, 256]⟩
abbrev S131072x64 : Shape := ⟨2, ![131072, 64]⟩
abbrev S131072 : Shape := ⟨1, ![131072]⟩
abbrev S131072x2 : Shape := ⟨2, ![131072, 2]⟩
abbrev S256 : Shape := ⟨1, ![256]⟩
abbrev S256x100 : Shape := ⟨2, ![256, 100]⟩
abbrev S100 : Shape := ⟨1, ![100]⟩
abbrev S64x50 : Shape := ⟨2, ![64, 50]⟩
abbrev S50 : Shape := ⟨1, ![50]⟩
abbrev S150x128 : Shape := ⟨2, ![150, 128]⟩
abbrev S128 : Shape := ⟨1, ![128]⟩
abbrev S512x50 : Shape := ⟨2, ![512, 50]⟩
abbrev S100x64 : Shape := ⟨2, ![100, 64]⟩
abbrev S64 : Shape := ⟨1, ![64]⟩
abbrev S131072x1 : Shape := ⟨2, ![131072, 1]⟩
abbrev S_ : Shape := ⟨0, ![]⟩
abbrev S1 : Shape := ⟨1, ![1]⟩
abbrev S1x1 : Shape := ⟨2, ![1, 1]⟩
abbrev S131072x256 : Shape := ⟨2, ![131072, 256]⟩
abbrev S131072x50 : Shape := ⟨2, ![131072, 50]⟩
abbrev S2048x256 : Shape := ⟨2, ![2048, 256]⟩
abbrev S2048x64 : Shape := ⟨2, ![2048, 64]⟩
abbrev S2048x50 : Shape := ⟨2, ![2048, 50]⟩
abbrev S256x50 : Shape := ⟨2, ![256, 50]⟩
abbrev S1x50 : Shape := ⟨2, ![1, 50]⟩
abbrev S2048x100 : Shape := ⟨2, ![2048, 100]⟩
abbrev S1x64 : Shape := ⟨2, ![1, 64]⟩
abbrev S16384x50 : Shape := ⟨2, ![16384, 50]⟩
abbrev S256x64x256 : Shape := ⟨3, ![256, 64, 256]⟩
abbrev S256x64x50 : Shape := ⟨3, ![256, 64, 50]⟩
abbrev S256x128x256 : Shape := ⟨3, ![256, 128, 256]⟩
abbrev S32x64x256 : Shape := ⟨3, ![32, 64, 256]⟩
abbrev S32x64x50 : Shape := ⟨3, ![32, 64, 50]⟩
abbrev S32x128x256 : Shape := ⟨3, ![32, 128, 256]⟩
abbrev S1x100 : Shape := ⟨2, ![1, 100]⟩
abbrev S32x64x100 : Shape := ⟨3, ![32, 64, 100]⟩
abbrev S32x64x150 : Shape := ⟨3, ![32, 64, 150]⟩
abbrev S2048x150 : Shape := ⟨2, ![2048, 150]⟩
abbrev S2048x128 : Shape := ⟨2, ![2048, 128]⟩
abbrev S1x128 : Shape := ⟨2, ![1, 128]⟩
abbrev S32x64x128 : Shape := ⟨3, ![32, 64, 128]⟩
abbrev S32x64 : Shape := ⟨2, ![32, 64]⟩
abbrev S32x64x1 : Shape := ⟨3, ![32, 64, 1]⟩

abbrev nBuf : Space → Nat
  | .hbm => 76
  | .vmem => 28
  | .smem => 0
  | _ => 0

abbrev bufTy : (tb : Table) → Fin (tcTables nBuf tb) → BufTy
  | .hbm, ⟨0, _⟩ => ⟨S16384x256, .f32⟩
  | .hbm, ⟨1, _⟩ => ⟨S131072x64, .f32⟩
  | .hbm, ⟨2, _⟩ => ⟨S131072, .i32⟩
  | .hbm, ⟨3, _⟩ => ⟨S131072x2, .i32⟩
  | .hbm, ⟨4, _⟩ => ⟨S256, .i32⟩
  | .hbm, ⟨5, _⟩ => ⟨S256x100, .f32⟩
  | .hbm, ⟨6, _⟩ => ⟨S100, .f32⟩
  | .hbm, ⟨7, _⟩ => ⟨S64x50, .f32⟩
  | .hbm, ⟨8, _⟩ => ⟨S50, .f32⟩
  | .hbm, ⟨9, _⟩ => ⟨S150x128, .f32⟩
  | .hbm, ⟨10, _⟩ => ⟨S128, .f32⟩
  | .hbm, ⟨11, _⟩ => ⟨S512x50, .f32⟩
  | .hbm, ⟨12, _⟩ => ⟨S50, .f32⟩
  | .hbm, ⟨13, _⟩ => ⟨S64x50, .f32⟩
  | .hbm, ⟨14, _⟩ => ⟨S50, .f32⟩
  | .hbm, ⟨15, _⟩ => ⟨S100x64, .f32⟩
  | .hbm, ⟨16, _⟩ => ⟨S64, .f32⟩
  | .hbm, ⟨17, _⟩ => ⟨S131072x1, .i32⟩
  | .hbm, ⟨18, _⟩ => ⟨S131072, .i32⟩
  | .hbm, ⟨19, _⟩ => ⟨S131072x1, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S1, .i32⟩
  | .hbm, ⟨30, _⟩ => ⟨S_, .i32⟩
  | .hbm, ⟨31, _⟩ => ⟨S131072x1, .i32⟩
  | .hbm, ⟨32, _⟩ => ⟨S131072x1, .i1⟩
  | .hbm, ⟨33, _⟩ => ⟨S1x1, .i32⟩
  | .hbm, ⟨34, _⟩ => ⟨S131072x1, .i32⟩
  | .hbm, ⟨35, _⟩ => ⟨S131072x1, .i1⟩
  | .hbm, ⟨36, _⟩ => ⟨S131072x1, .i1⟩
  | .hbm, ⟨37, _⟩ => ⟨S_, .i1⟩
  | .hbm, ⟨38, _⟩ => ⟨S131072, .i1⟩
  | .hbm, ⟨39, _⟩ => ⟨S131072x256, .f32⟩
  | .hbm, ⟨40, _⟩ => ⟨S131072x256, .i1⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S1, .i32⟩
  | .hbm, ⟨53, _⟩ => ⟨S_, .i32⟩
  | .hbm, ⟨54, _⟩ => ⟨S131072x1, .i32⟩
  | .hbm, ⟨55, _⟩ => ⟨S131072x1, .i1⟩
  | .hbm, ⟨56, _⟩ => ⟨S1x1, .i32⟩
  | .hbm, ⟨57, _⟩ => ⟨S131072x1, .i32⟩
  | .hbm, ⟨58, _⟩ => ⟨S131072x1, .i1⟩
  | .hbm, ⟨59, _⟩ => ⟨S131072x1, .i1⟩
  | .hbm, ⟨60, _⟩ => ⟨S_, .i1⟩
  | .hbm, ⟨61, _⟩ => ⟨S131072, .i1⟩
  | .hbm, ⟨62, _⟩ => ⟨S131072x256, .f32⟩
  | .hbm, ⟨63, _⟩ => ⟨S131072x256, .i1⟩
  | .hbm, ⟨64, _⟩ => ⟨S_, .f32⟩
  | .hbm, ⟨65, _⟩ => ⟨S131072x256, .f32⟩
  | .hbm, ⟨66, _⟩ => ⟨S131072x256, .f32⟩
  | .hbm, ⟨67, _⟩ => ⟨S131072x64, .f32⟩
  | .hbm, ⟨68, _⟩ => ⟨S131072x50, .f32⟩
  | .hbm, ⟨69, _⟩ => ⟨S_, .f32⟩
  | .hbm, ⟨70, _⟩ => ⟨S16384x50, .f32⟩
  | .hbm, ⟨71, _⟩ => ⟨S131072x1, .i32⟩
  | .hbm, ⟨72, _⟩ => ⟨S16384x50, .f32⟩
  | .hbm, ⟨73, _⟩ => ⟨S256x64x256, .f32⟩
  | .hbm, ⟨74, _⟩ => ⟨S256x64x50, .f32⟩
  | .hbm, ⟨75, _⟩ => ⟨S256x128x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x64, .f32⟩
  | .local _ .vmem, ⟨5, _⟩ => ⟨S2048x64, .f32⟩
  | .local _ .vmem, ⟨6, _⟩ => ⟨S512x50, .f32⟩
  | .local _ .vmem, ⟨7, _⟩ => ⟨S50, .f32⟩
  | .local _ .vmem, ⟨8, _⟩ => ⟨S64x50, .f32⟩
  | .local _ .vmem, ⟨9, _⟩ => ⟨S50, .f32⟩
  | .local _ .vmem, ⟨10, _⟩ => ⟨S100x64, .f32⟩
  | .local _ .vmem, ⟨11, _⟩ => ⟨S64, .f32⟩
  | .local _ .vmem, ⟨12, _⟩ => ⟨S64x50, .f32⟩
  | .local _ .vmem, ⟨13, _⟩ => ⟨S50, .f32⟩
  | .local _ .vmem, ⟨14, _⟩ => ⟨S2048x64, .f32⟩
  | .local _ .vmem, ⟨15, _⟩ => ⟨S2048x64, .f32⟩
  | .local _ .vmem, ⟨16, _⟩ => ⟨S2048x50, .f32⟩
  | .local _ .vmem, ⟨17, _⟩ => ⟨S2048x50, .f32⟩
  | .local _ .vmem, ⟨18, _⟩ => ⟨S32x64x256, .f32⟩
  | .local _ .vmem, ⟨19, _⟩ => ⟨S32x64x256, .f32⟩
  | .local _ .vmem, ⟨20, _⟩ => ⟨S32x64x50, .f32⟩
  | .local _ .vmem, ⟨21, _⟩ => ⟨S32x64x50, .f32⟩
  | .local _ .vmem, ⟨22, _⟩ => ⟨S256x100, .f32⟩
  | .local _ .vmem, ⟨23, _⟩ => ⟨S100, .f32⟩
  | .local _ .vmem, ⟨24, _⟩ => ⟨S150x128, .f32⟩
  | .local _ .vmem, ⟨25, _⟩ => ⟨S128, .f32⟩
  | .local _ .vmem, ⟨26, _⟩ => ⟨S32x128x256, .f32⟩
  | .local _ .vmem, ⟨27, _⟩ => ⟨S32x128x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6_0 : Ref sig .tc := ⟨.hbm, 67, rfl⟩
abbrev main_v6_1 : Ref sig .tc := ⟨.hbm, 68, rfl⟩
abbrev main_cst : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x64x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S150x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x256_0 : S131072.BroadcastsInDim S131072x256 (![0] : Fin 1 → Fin S131072x256.rank)
  bcast_S_S131072x256 : S_.BroadcastsInDim S131072x256 (![] : Fin 0 → Fin S131072x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S512x50_S512x50_0_0 : ∀ a, (![0, 0] : Fin 2 → Nat) a + S512x50.size a ≤ S512x50.size a
  h_S512x50 : 0 < S512x50.numel
  slices_S512x50_o0_0_S256x50 : S512x50.Slices ![0, 0] S256x50
  slices_S512x50_o256_0_S256x50 : S512x50.Slices ![256, 0] S256x50
  inb_S50_S50_0 : ∀ a, (![0] : Fin 1 → Nat) a + S50.size a ≤ S50.size a
  h_S50 : 0 < S50.numel
  shapeCasts_S50_S1x50 : S50.ShapeCasts S1x50
  broadcasts_S1x50_S2048x50 : S1x50.Broadcasts S2048x50
  inb_S64x50_S64x50_0_0 : ∀ a, (![0, 0] : Fin 2 → Nat) a + S64x50.size a ≤ S64x50.size a
  h_S64x50 : 0 < S64x50.numel
  concatenates_S2048x50_S2048x50_S2048x100_d1 : Shape.Concatenates [S2048x50, S2048x50] S2048x100 1
  inb_S100x64_S100x64_0_0 : ∀ a, (![0, 0] : Fin 2 → Nat) a + S100x64.size a ≤ S100x64.size a
  h_S100x64 : 0 < S100x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x50_S2048x50_0_0 : ∀ a, (![0, 0] : Fin 2 → Nat) a + S2048x50.size a ≤ S2048x50.size a
  h_S2048x50 : 0 < S2048x50.numel
  bcast_S_S16384x50 : S_.BroadcastsInDim S16384x50 (![] : Fin 0 → Fin S16384x50.rank)
  shapeCasts_S16384x256_S256x64x256 : S16384x256.ShapeCasts S256x64x256
  shapeCasts_S16384x50_S256x64x50 : S16384x50.ShapeCasts S256x64x50
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  shapeCasts_S32x64x256_S2048x256 : S32x64x256.ShapeCasts S2048x256
  inb_S256x100_S256x100_0_0 : ∀ a, (![0, 0] : Fin 2 → Nat) a + S256x100.size a ≤ S256x100.size a
  h_S256x100 : 0 < S256x100.numel
  inb_S100_S100_0 : ∀ a, (![0] : Fin 1 → Nat) a + S100.size a ≤ S100.size a
  h_S100 : 0 < S100.numel
  shapeCasts_S100_S1x100 : S100.ShapeCasts S1x100
  broadcasts_S1x100_S2048x100 : S1x100.Broadcasts S2048x100
  shapeCasts_S2048x100_S32x64x100 : S2048x100.ShapeCasts S32x64x100
  inb_S32x64x50_S32x64x50_0_0_0 : ∀ a, (![0, 0, 0] : Fin 3 → Nat) a + S32x64x50.size a ≤ S32x64x50.size a
  h_S32x64x50 : 0 < S32x64x50.numel
  shapeCasts_S32x64x50_S32x64x50 : S32x64x50.ShapeCasts S32x64x50
  concatenates_S32x64x100_S32x64x50_S32x64x150_d2 : Shape.Concatenates [S32x64x100, S32x64x50] S32x64x150 2
  shapeCasts_S32x64x150_S2048x150 : S32x64x150.ShapeCasts S2048x150
  inb_S150x128_S150x128_0_0 : ∀ a, (![0, 0] : Fin 2 → Nat) a + S150x128.size a ≤ S150x128.size a
  h_S150x128 : 0 < S150x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  shapeCasts_S2048x128_S32x64x128 : S2048x128.ShapeCasts S32x64x128
  reduces_S32x64x128_S32x64 : S32x64x128.Reduces [2] S32x64
  shapeCasts_S32x64_S32x64x1 : S32x64.ShapeCasts S32x64x1
  broadcasts_S32x64x1_S32x64x128 : S32x64x1.Broadcasts S32x64x128
  inb_S32x128x256_S32x128x256_0_0_0 : ∀ a, (![0, 0, 0] : Fin 3 → Nat) a + S32x128x256.size a ≤ S32x128x256.size a
  h_S32x128x256 : 0 < S32x128x256.numel
  gather_S16384x256_S131072x1_S131072x256_1_0_n_n_0_1_1256_wf : GatherDims.WF S16384x256 S131072x1 S131072x256 [1] [0] [] [0] [] 1 ![1, 256]
  dot_S2048x256_S256x50_S2048x50_1_0_0_1_n_n_wf : DotDims.WF S2048x256 S256x50 S2048x50 [1] [0] [0] [1] [] []
  dot_S2048x64_S64x50_S2048x50_1_0_0_1_n_n_wf : DotDims.WF S2048x64 S64x50 S2048x50 [1] [0] [0] [1] [] []
  dot_S2048x100_S100x64_S2048x64_1_0_0_1_n_n_wf : DotDims.WF S2048x100 S100x64 S2048x64 [1] [0] [0] [1] [] []
  scatter_S16384x50_S131072x1_S131072x50_1_0_0_1_wf : ScatterDims.WF S16384x50 S131072x1 S131072x50 [1] [0] [0] 1
  dot_S2048x256_S256x100_S2048x100_1_0_0_1_n_n_wf : DotDims.WF S2048x256 S256x100 S2048x100 [1] [0] [0] [1] [] []
  dot_S2048x150_S150x128_S2048x128_1_0_0_1_n_n_wf : DotDims.WF S2048x150 S150x128 S2048x128 [1] [0] [0] [1] [] []
  dot_S32x64x128_S32x64x256_S32x128x256_1_1_2_2_0_0_wf : DotDims.WF S32x64x128 S32x64x256 S32x128x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S131072x64.size a
  hwx0_2 : ∀ i : grid0.Coords, EltTy.bits .f32 = 32 ∨ (Rect.block (s := S131072x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x50.size a ≤ S512x50.size a
  hwx0_3 : ∀ i : grid0.Coords, EltTy.bits .f32 = 32 ∨ (Rect.block (s := S512x50) S512x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x50.size a ≤ S64x50.size a
  hwx0_5 : ∀ i : grid0.Coords, EltTy.bits .f32 = 32 ∨ (Rect.block (s := S64x50) S64x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50.size a ≤ S50.size a
  hwx0_6 : ∀ i : grid0.Coords, EltTy.bits .f32 = 32 ∨ (Rect.block (s := S50) S50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x64.size a ≤ S100x64.size a
  hwx0_7 : ∀ i : grid0.Coords, EltTy.bits .f32 = 32 ∨ (Rect.block (s := S100x64) S100x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x50.size a ≤ S64x50.size a
  hwx0_9 : ∀ i : grid0.Coords, EltTy.bits .f32 = 32 ∨ (Rect.block (s := S64x50) S64x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50.size a ≤ S50.size a
  hwx0_10 : ∀ i : grid0.Coords, EltTy.bits .f32 = 32 ∨ (Rect.block (s := S50) S50.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x64.size a ≤ S131072x64.size a
  hwx0_11 : ∀ i : grid0.Coords, EltTy.bits .f32 = 32 ∨ (Rect.block (s := S131072x64) S2048x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x50.size a ≤ S131072x50.size a
  hwx0_12 : ∀ i : grid0.Coords, EltTy.bits .f32 = 32 ∨ (Rect.block (s := S131072x50) S2048x50.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x256.size a ≤ S256x64x256.size a
  hwx1_0 : ∀ i : grid1.Coords, EltTy.bits .f32 = 32 ∨ (Rect.block (s := S256x64x256) S32x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x50.size a ≤ S256x64x50.size a
  hwx1_1 : ∀ i : grid1.Coords, EltTy.bits .f32 = 32 ∨ (Rect.block (s := S256x64x50) S32x64x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x100.size a ≤ S256x100.size a
  hwx1_2 : ∀ i : grid1.Coords, EltTy.bits .f32 = 32 ∨ (Rect.block (s := S256x100) S256x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100.size a ≤ S100.size a
  hwx1_3 : ∀ i : grid1.Coords, EltTy.bits .f32 = 32 ∨ (Rect.block (s := S100) S100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S150x128.size a ≤ S150x128.size a
  hwx1_4 : ∀ i : grid1.Coords, EltTy.bits .f32 = 32 ∨ (Rect.block (s := S150x128) S150x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x128x256.size a ≤ S256x128x256.size a
  hwx1_6 : ∀ i : grid1.Coords, EltTy.bits .f32 = 32 ∨ (Rect.block (s := S256x128x256) S32x128x256.size (cc1_transform_6 i) (hinb1_6 i)).WholeWords (EltTy.packing .f32)

variable [Facts₀]

def gather_S16384x256_S131072x1_S131072x256_1_0_n_n_0_1_1256 : GatherDims S16384x256 S131072x1 S131072x256 where
  offsetDims := [1]
  collapsedSliceDims := [0]
  operandBatchingDims := []
  startIndicesBatchingDims := []
  startIndexMap := [0]
  indexVectorDim := 1
  sliceSizes := ![1, 256]
  wf := gather_S16384x256_S131072x1_S131072x256_1_0_n_n_0_1_1256_wf
def dot_S2048x256_S256x50_S2048x50_1_0_0_1_n_n : DotDims S2048x256 S256x50 S2048x50 where
  lhsContracting := [1]
  rhsContracting := [0]
  lhsNonContracting := [0]
  rhsNonContracting := [1]
  lhsBatch := []
  rhsBatch := []
  wf := dot_S2048x256_S256x50_S2048x50_1_0_0_1_n_n_wf
def dot_S2048x64_S64x50_S2048x50_1_0_0_1_n_n : DotDims S2048x64 S64x50 S2048x50 where
  lhsContracting := [1]
  rhsContracting := [0]
  lhsNonContracting := [0]
  rhsNonContracting := [1]
  lhsBatch := []
  rhsBatch := []
  wf := dot_S2048x64_S64x50_S2048x50_1_0_0_1_n_n_wf
def dot_S2048x100_S100x64_S2048x64_1_0_0_1_n_n : DotDims S2048x100 S100x64 S2048x64 where
  lhsContracting := [1]
  rhsContracting := [0]
  lhsNonContracting := [0]
  rhsNonContracting := [1]
  lhsBatch := []
  rhsBatch := []
  wf := dot_S2048x100_S100x64_S2048x64_1_0_0_1_n_n_wf
def scatter_S16384x50_S131072x1_S131072x50_1_0_0_1 : ScatterDims S16384x50 S131072x1 S131072x50 where
  updateWindowDims := [1]
  insertedWindowDims := [0]
  scatterDimsToOperandDims := [0]
  indexVectorDim := 1
  wf := scatter_S16384x50_S131072x1_S131072x50_1_0_0_1_wf
def dot_S2048x256_S256x100_S2048x100_1_0_0_1_n_n : DotDims S2048x256 S256x100 S2048x100 where
  lhsContracting := [1]
  rhsContracting := [0]
  lhsNonContracting := [0]
  rhsNonContracting := [1]
  lhsBatch := []
  rhsBatch := []
  wf := dot_S2048x256_S256x100_S2048x100_1_0_0_1_n_n_wf
def dot_S2048x150_S150x128_S2048x128_1_0_0_1_n_n : DotDims S2048x150 S150x128 S2048x128 where
  lhsContracting := [1]
  rhsContracting := [0]
  lhsNonContracting := [0]
  rhsNonContracting := [1]
  lhsBatch := []
  rhsBatch := []
  wf := dot_S2048x150_S150x128_S2048x128_1_0_0_1_n_n_wf
def dot_S32x64x128_S32x64x256_S32x128x256_1_1_2_2_0_0 : DotDims S32x64x128 S32x64x256 S32x128x256 where
  lhsContracting := [1]
  rhsContracting := [1]
  lhsNonContracting := [2]
  rhsNonContracting := [2]
  lhsBatch := [0]
  rhsBatch := [0]
  wf := dot_S32x64x128_S32x64x256_S32x128x256_1_1_2_2_0_0_wf

abbrev win0_0 : Pipeline.Window sig grid0 :=
  Pipeline.Window.ofSpec (Memref.whole main_v4) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S512x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S64x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S100x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S2048x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S2048x50.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v10) S32x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S32x64x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S150x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S32x128x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x256 : Shape := ⟨2, ![16384, 256]⟩
abbrev S131072x64 : Shape := ⟨2, ![131072, 64]⟩
abbrev S131072 : Shape := ⟨1, ![131072]⟩
abbrev S131072x2 : Shape := ⟨2, ![131072, 2]⟩
abbrev S256 : Shape := ⟨1, ![256]⟩
abbrev S256x100 : Shape := ⟨2, ![256, 100]⟩
abbrev S100 : Shape := ⟨1, ![100]⟩
abbrev S64x50 : Shape := ⟨2, ![64, 50]⟩
abbrev S50 : Shape := ⟨1, ![50]⟩
abbrev S150x128 : Shape := ⟨2, ![150, 128]⟩
abbrev S128 : Shape := ⟨1, ![128]⟩
abbrev S512x50 : Shape := ⟨2, ![512, 50]⟩
abbrev S100x64 : Shape := ⟨2, ![100, 64]⟩
abbrev S64 : Shape := ⟨1, ![64]⟩
abbrev S16384x100 : Shape := ⟨2, ![16384, 100]⟩
abbrev S1x100 : Shape := ⟨2, ![1, 100]⟩
abbrev S_ : Shape := ⟨0, ![]⟩
abbrev S131072x50 : Shape := ⟨2, ![131072, 50]⟩
abbrev S1x50 : Shape := ⟨2, ![1, 50]⟩
abbrev S16384x50 : Shape := ⟨2, ![16384, 50]⟩
abbrev S131072x1 : Shape := ⟨2, ![131072, 1]⟩
abbrev S16384x150 : Shape := ⟨2, ![16384, 150]⟩
abbrev S16384x128 : Shape := ⟨2, ![16384, 128]⟩
abbrev S1x128 : Shape := ⟨2, ![1, 128]⟩
abbrev S131072x2x1 : Shape := ⟨3, ![131072, 2, 1]⟩
abbrev S131072x2x256 : Shape := ⟨3, ![131072, 2, 256]⟩
abbrev S131072x512 : Shape := ⟨2, ![131072, 512]⟩
abbrev S131072x100 : Shape := ⟨2, ![131072, 100]⟩
abbrev S1x64 : Shape := ⟨2, ![1, 64]⟩
abbrev S16384 : Shape := ⟨1, ![16384]⟩
abbrev S16384x1 : Shape := ⟨2, ![16384, 1]⟩
abbrev S256x64x128 : Shape := ⟨3, ![256, 64, 128]⟩
abbrev S256x64x256 : Shape := ⟨3, ![256, 64, 256]⟩
abbrev S256x128x256 : Shape := ⟨3, ![256, 128, 256]⟩

abbrev nBuf : Space → Nat
  | .hbm => 111
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S131072x64, .f32⟩
  | .hbm, ⟨2, _⟩ => ⟨S131072, .i32⟩
  | .hbm, ⟨3, _⟩ => ⟨S131072x2, .i32⟩
  | .hbm, ⟨4, _⟩ => ⟨S256, .i32⟩
  | .hbm, ⟨5, _⟩ => ⟨S256x100, .f32⟩
  | .hbm, ⟨6, _⟩ => ⟨S100, .f32⟩
  | .hbm, ⟨7, _⟩ => ⟨S64x50, .f32⟩
  | .hbm, ⟨8, _⟩ => ⟨S50, .f32⟩
  | .hbm, ⟨9, _⟩ => ⟨S150x128, .f32⟩
  | .hbm, ⟨10, _⟩ => ⟨S128, .f32⟩
  | .hbm, ⟨11, _⟩ => ⟨S512x50, .f32⟩
  | .hbm, ⟨12, _⟩ => ⟨S50, .f32⟩
  | .hbm, ⟨13, _⟩ => ⟨S64x50, .f32⟩
  | .hbm, ⟨14, _⟩ => ⟨S50, .f32⟩
  | .hbm, ⟨15, _⟩ => ⟨S100x64, .f32⟩
  | .hbm, ⟨16, _⟩ => ⟨S64, .f32⟩
  | .hbm, ⟨17, _⟩ => ⟨S16384x100, .f32⟩
  | .hbm, ⟨18, _⟩ => ⟨S1x100, .f32⟩
  | .hbm, ⟨19, _⟩ => ⟨S16384x100, .f32⟩
  | .hbm, ⟨20, _⟩ => ⟨S16384x100, .f32⟩
  | .hbm, ⟨21, _⟩ => ⟨S_, .f32⟩
  | .hbm, ⟨22, _⟩ => ⟨S16384x100, .f32⟩
  | .hbm, ⟨23, _⟩ => ⟨S16384x100, .f32⟩
  | .hbm, ⟨24, _⟩ => ⟨S131072x50, .f32⟩
  | .hbm, ⟨25, _⟩ => ⟨S1x50, .f32⟩
  | .hbm, ⟨26, _⟩ => ⟨S131072x50, .f32⟩
  | .hbm, ⟨27, _⟩ => ⟨S131072x50, .f32⟩
  | .hbm, ⟨28, _⟩ => ⟨S_, .f32⟩
  | .hbm, ⟨29, _⟩ => ⟨S131072x50, .f32⟩
  | .hbm, ⟨30, _⟩ => ⟨S131072x50, .f32⟩
  | .hbm, ⟨31, _⟩ => ⟨S_, .f32⟩
  | .hbm, ⟨32, _⟩ => ⟨S16384x50, .f32⟩
  | .hbm, ⟨33, _⟩ => ⟨S131072x1, .i32⟩
  | .hbm, ⟨34, _⟩ => ⟨S16384x50, .f32⟩
  | .hbm, ⟨35, _⟩ => ⟨S16384x150, .f32⟩
  | .hbm, ⟨36, _⟩ => ⟨S16384x128, .f32⟩
  | .hbm, ⟨37, _⟩ => ⟨S1x128, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S_, .i32⟩
  | .hbm, ⟨44, _⟩ => ⟨S131072x2, .i32⟩
  | .hbm, ⟨45, _⟩ => ⟨S131072x2, .i1⟩
  | .hbm, ⟨46, _⟩ => ⟨S_, .i32⟩
  | .hbm, ⟨47, _⟩ => ⟨S131072x2, .i32⟩
  | .hbm, ⟨48, _⟩ => ⟨S131072x2, .i32⟩
  | .hbm, ⟨49, _⟩ => ⟨S131072x2, .i32⟩
  | .hbm, ⟨50, _⟩ => ⟨S131072x2x1, .i32⟩
  | .hbm, ⟨51, _⟩ => ⟨S131072x2x256, .f32⟩
  | .hbm, ⟨52, _⟩ => ⟨S131072x512, .f32⟩
  | .hbm, ⟨53, _⟩ => ⟨S131072x2, .i32⟩
  | .hbm, ⟨54, _⟩ => ⟨S_, .i32⟩
  | .hbm, ⟨55, _⟩ => ⟨S131072x2, .i32⟩
  | .hbm, ⟨56, _⟩ => ⟨S131072x2, .i1⟩
  | .hbm, ⟨57, _⟩ => ⟨S_, .i32⟩
  | .hbm, ⟨58, _⟩ => ⟨S131072x2, .i32⟩
  | .hbm, ⟨59, _⟩ => ⟨S131072x2, .i32⟩
  | .hbm, ⟨60, _⟩ => ⟨S131072x2, .i32⟩
  | .hbm, ⟨61, _⟩ => ⟨S131072x2x1, .i32⟩
  | .hbm, ⟨62, _⟩ => ⟨S131072x2x256, .f32⟩
  | .hbm, ⟨63, _⟩ => ⟨S131072x512, .f32⟩
  | .hbm, ⟨64, _⟩ => ⟨S131072x50, .f32⟩
  | .hbm, ⟨65, _⟩ => ⟨S1x50, .f32⟩
  | .hbm, ⟨66, _⟩ => ⟨S131072x50, .f32⟩
  | .hbm, ⟨67, _⟩ => ⟨S131072x50, .f32⟩
  | .hbm, ⟨68, _⟩ => ⟨S_, .f32⟩
  | .hbm, ⟨69, _⟩ => ⟨S131072x50, .f32⟩
  | .hbm, ⟨70, _⟩ => ⟨S131072x50, .f32⟩
  | .hbm, ⟨71, _⟩ => ⟨S131072x50, .f32⟩
  | .hbm, ⟨72, _⟩ => ⟨S1x50, .f32⟩
  | .hbm, ⟨73, _⟩ => ⟨S131072x50, .f32⟩
  | .hbm, ⟨74, _⟩ => ⟨S131072x50, .f32⟩
  | .hbm, ⟨75, _⟩ => ⟨S_, .f32⟩
  | .hbm, ⟨76, _⟩ => ⟨S131072x50, .f32⟩
  | .hbm, ⟨77, _⟩ => ⟨S131072x50, .f32⟩
  | .hbm, ⟨78, _⟩ => ⟨S131072x50, .f32⟩
  | .hbm, ⟨79, _⟩ => ⟨S131072x50, .f32⟩
  | .hbm, ⟨80, _⟩ => ⟨S1x50, .f32⟩
  | .hbm, ⟨81, _⟩ => ⟨S131072x50, .f32⟩
  | .hbm, ⟨82, _⟩ => ⟨S131072x50, .f32⟩
  | .hbm, ⟨83, _⟩ => ⟨S_, .f32⟩
  | .hbm, ⟨84, _⟩ => ⟨S131072x50, .f32⟩
  | .hbm, ⟨85, _⟩ => ⟨S131072x50, .f32⟩
  | .hbm, ⟨86, _⟩ => ⟨S131072x100, .f32⟩
  | .hbm, ⟨87, _⟩ => ⟨S131072x64, .f32⟩
  | .hbm, ⟨88, _⟩ => ⟨S1x64, .f32⟩
  | .hbm, ⟨89, _⟩ => ⟨S131072x64, .f32⟩
  | .hbm, ⟨90, _⟩ => ⟨S131072x64, .f32⟩
  | .hbm, ⟨91, _⟩ => ⟨S_, .f32⟩
  | .hbm, ⟨92, _⟩ => ⟨S131072x64, .f32⟩
  | .hbm, ⟨93, _⟩ => ⟨S131072x64, .f32⟩
  | .hbm, ⟨94, _⟩ => ⟨S_, .f32⟩
  | .hbm, ⟨95, _⟩ => ⟨S16384, .f32⟩
  | .hbm, ⟨96, _⟩ => ⟨S_, .f32⟩
  | .hbm, ⟨97, _⟩ => ⟨S16384, .f32⟩
  | .hbm, ⟨98, _⟩ => ⟨S16384, .f32⟩
  | .hbm, ⟨99, _⟩ => ⟨S16384x1, .f32⟩
  | .hbm, ⟨100, _⟩ => ⟨S16384x128, .f32⟩
  | .hbm, ⟨101, _⟩ => ⟨S16384x128, .f32⟩
  | .hbm, ⟨102, _⟩ => ⟨S16384x128, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S16384x128, .f32⟩
  | .hbm, ⟨107, _⟩ => ⟨S16384x128, .f32⟩
  | .hbm, ⟨108, _⟩ => ⟨S256x64x128, .f32⟩
  | .hbm, ⟨109, _⟩ => ⟨S256x64x256, .f32⟩
  | .hbm, ⟨110, _⟩ => ⟨S256x128x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_1 : Ref sig .tc := ⟨.hbm, 54, rfl⟩
abbrev main_v28 : Ref sig .tc := ⟨.hbm, 55, rfl⟩
abbrev main_v29 : Ref sig .tc := ⟨.hbm, 56, rfl⟩
abbrev main_c_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call3_cst : Ref sig .tc := ⟨.hbm, 68, rfl⟩
abbrev main_call3_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call4_cst : Ref sig .tc := ⟨.hbm, 75, rfl⟩
abbrev main_call4_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call5_cst : Ref sig .tc := ⟨.hbm, 83, rfl⟩
abbrev main_call5_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call6_cst : Ref sig .tc := ⟨.hbm, 91, rfl⟩
abbrev main_call6_v0 : Ref sig .tc := ⟨.hbm, 92, rfl⟩
abbrev main_v57 : Ref sig .tc := ⟨.hbm, 93, rfl⟩
abbrev main_cst_3 : Ref sig .tc := ⟨.hbm, 94, rfl⟩
abbrev main_v58 : Ref sig .tc := ⟨.hbm, 95, rfl⟩
abbrev main_cst_4 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_5 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  bcast_S_S16384x100 : S_.BroadcastsInDim S16384x100 (![] : Fin 0 → Fin S16384x100.rank)
  bcast_S50_S1x50_1 : S50.BroadcastsInDim S1x50 (![1] : Fin 1 → Fin S1x50.rank)
  bcast_S1x50_S131072x50_0_1 : S1x50.BroadcastsInDim S131072x50 (![0, 1] : Fin 2 → Fin S131072x50.rank)
  bcast_S_S131072x50 : S_.BroadcastsInDim S131072x50 (![] : Fin 0 → Fin S131072x50.rank)
  bcast_S_S16384x50 : S_.BroadcastsInDim S16384x50 (![] : Fin 0 → Fin S16384x50.rank)
  bcast_S131072_S131072x1_0 : S131072.BroadcastsInDim S131072x1 (![0] : Fin 1 → Fin S131072x1.rank)
  concatenates_S16384x100_S16384x50_S16384x150_d1 : Shape.Concatenates [S16384x100, S16384x50] S16384x150 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  shapeCasts_S131072x2x256_S131072x512 : S131072x2x256.ShapeCasts S131072x512
  concatenates_S131072x50_S131072x50_S131072x100_d1 : Shape.Concatenates [S131072x50, S131072x50] S131072x100 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S16384x128_S16384_d1 : S16384x128.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  shapeCasts_S16384x128_S256x64x128 : S16384x128.ShapeCasts S256x64x128
  shapeCasts_S16384x256_S256x64x256 : S16384x256.ShapeCasts S256x64x256
  dot_S16384x256_S256x100_S16384x100_1_0_0_1_n_n_wf : DotDims.WF S16384x256 S256x100 S16384x100 [1] [0] [0] [1] [] []
  dot_S131072x64_S64x50_S131072x50_1_0_0_1_n_n_wf : DotDims.WF S131072x64 S64x50 S131072x50 [1] [0] [0] [1] [] []
  scatter_S16384x50_S131072x1_S131072x50_1_0_0_1_wf : ScatterDims.WF S16384x50 S131072x1 S131072x50 [1] [0] [0] 1
  dot_S16384x150_S150x128_S16384x128_1_0_0_1_n_n_wf : DotDims.WF S16384x150 S150x128 S16384x128 [1] [0] [0] [1] [] []
  gather_S16384x256_S131072x2x1_S131072x2x256_2_0_n_n_0_2_1256_wf : GatherDims.WF S16384x256 S131072x2x1 S131072x2x256 [2] [0] [] [0] [] 2 ![1, 256]
  dot_S131072x512_S512x50_S131072x50_1_0_0_1_n_n_wf : DotDims.WF S131072x512 S512x50 S131072x50 [1] [0] [0] [1] [] []
  dot_S131072x100_S100x64_S131072x64_1_0_0_1_n_n_wf : DotDims.WF S131072x100 S100x64 S131072x64 [1] [0] [0] [1] [] []
  dot_S256x64x128_S256x64x256_S256x128x256_1_1_2_2_0_0_wf : DotDims.WF S256x64x128 S256x64x256 S256x128x256 [1] [1] [2] [2] [0] [0]

variable [Facts₀]

def dot_S16384x256_S256x100_S16384x100_1_0_0_1_n_n : DotDims S16384x256 S256x100 S16384x100 where
  lhsContracting := [1]
  rhsContracting := [0]
  lhsNonContracting := [0]
  rhsNonContracting := [1]
  lhsBatch := []
  rhsBatch := []
  wf := dot_S16384x256_S256x100_S16384x100_1_0_0_1_n_n_wf
def dot_S131072x64_S64x50_S131072x50_1_0_0_1_n_n : DotDims S131072x64 S64x50 S131072x50 where
  lhsContracting := [1]
  rhsContracting := [0]
  lhsNonContracting := [0]
  rhsNonContracting := [1]
  lhsBatch := []
  rhsBatch := []
  wf := dot_S131072x64_S64x50_S131072x50_1_0_0_1_n_n_wf
def scatter_S16384x50_S131072x1_S131072x50_1_0_0_1 : ScatterDims S16384x50 S131072x1 S131072x50 where
  updateWindowDims := [1]
  insertedWindowDims := [0]
  scatterDimsToOperandDims := [0]
  indexVectorDim := 1
  wf := scatter_S16384x50_S131072x1_S131072x50_1_0_0_1_wf
def dot_S16384x150_S150x128_S16384x128_1_0_0_1_n_n : DotDims S16384x150 S150x128 S16384x128 where
  lhsContracting := [1]
  rhsContracting := [0]
  lhsNonContracting := [0]
  rhsNonContracting := [1]
  lhsBatch := []
  rhsBatch := []
  wf := dot_S16384x150_S150x128_S16384x128_1_0_0_1_n_n_wf
def gather_S16384x256_S131072x2x1_S131072x2x256_2_0_n_n_0_2_1256 : GatherDims S16384x256 S131072x2x1 S131072x2x256 where
  offsetDims := [2]
  collapsedSliceDims := [0]
  operandBatchingDims := []
  startIndicesBatchingDims := []
  startIndexMap := [0]
  indexVectorDim := 2
  sliceSizes := ![1, 256]
  wf := gather_S16384x256_S131072x2x1_S131072x2x256_2_0_n_n_0_2_1256_wf
def dot_S131072x512_S512x50_S131072x50_1_0_0_1_n_n : DotDims S131072x512 S512x50 S131072x50 where
  lhsContracting := [1]
  rhsContracting := [0]
  lhsNonContracting := [0]
  rhsNonContracting := [1]
  lhsBatch := []
  rhsBatch := []
  wf := dot_S131072x512_S512x50_S131072x50_1_0_0_1_n_n_wf
def dot_S131072x100_S100x64_S131072x64_1_0_0_1_n_n : DotDims S131072x100 S100x64 S131072x64 where
  lhsContracting := [1]
  rhsContracting := [0]
  lhsNonContracting := [0]
  rhsNonContracting := [1]
  lhsBatch := []
  rhsBatch := []
  wf := dot_S131072x100_S100x64_S131072x64_1_0_0_1_n_n_wf
def dot_S256x64x128_S256x64x256_S256x128x256_1_1_2_2_0_0 : DotDims S256x64x128 S256x64x256 S256x128x256 where
  lhsContracting := [1]
  rhsContracting := [1]
  lhsNonContracting := [2]
  rhsNonContracting := [2]
  lhsBatch := [0]
  rhsBatch := [0]
  wf := dot_S256x64x128_S256x64x256_S256x128x256_1_1_2_2_0_0_wf

class Facts : Prop extends Facts₀ where

variable [Facts]
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.Spec.lean ====
/-
  The mathematics both programs compute, stated once over the extended reals.

  A dense layer at one output place is `relu (∑ k, u k * W[k, h] + b[h])`. The pair path of the weave layer takes,
  for pair `r`, the feature rows `u`, `v` of its two atoms (selected by the pair's two atom numbers) and the pair's own
  feature row `p`: `AP = dense (u ++ v) + dense (v ++ u)` over the 512-wide weight, `PP = dense p`, and the pair output is
  `dense (AP ++ PP)`. The atom path takes `AA = dense x`, the per-atom sum `PA` of the pairs' `dense p` rows, the logits
  `dense (AA ++ PA)`, a softmax over the 128 clusters, and pools each molecule's 64 atoms:
  `pooled[b, c, d] = ∑ n, softmax(logits[b·64+n])[c] * x[b·64+n, d]`.
  The per-atom sum enters here as a given array: both programs form it by the same scatter-add of the same rows.
-/
import Idealize.ShloMosaic.PureOps.Ideal
import Idealize.ShloMosaic.Lib.ValueIdx
import proofs.«412404_j85959475462402_1_alg».proof.Proof.LibGatherScatter
import Mathlib.Algebra.BigOperators.Group.Finset.Basic
import Mathlib.Algebra.BigOperators.Fin

noncomputable section

open scoped BigOperators
open Idealize.ShloMosaic Idealize.ShloMosaic.ValueIdx

namespace Cert.Spec

/-- An array of extended reals over a shape. -/
abbrev Arr (s : Shape) := s.Idx → EReal

/-- `max x 0`. -/
def relu (x : EReal) : EReal := max x 0

/-- A dense layer at output place `h`: `relu (∑ k, u k * W[k, h] + b[h])`. -/
def dense {K H : Nat} (u : Fin K → EReal) (W : Arr ⟨2, ![K, H]⟩) (b : Arr ⟨1, ![H]⟩) (h : Fin H) : EReal :=
  relu (∑ k : Fin K, u k * W (ix2 k h) + b (ix1 h))

/-- Two vectors laid end to end: place `k` is `u k` below `A` and `v (k - A)` from `A` on. -/
def cat {A B N : Nat} (hN : N = A + B) (u : Fin A → EReal) (v : Fin B → EReal) (k : Fin N) : EReal :=
  if h : k.val < A then u ⟨k.val, h⟩ else v ⟨k.val - A, by omega⟩

/-- A weighted sum over two vectors laid end to end is the sum over the first plus the sum over the second, the
    weights taken at the shifted places. Addition of extended reals is commutative and associative, so no finiteness
    is needed. -/
theorem sum_cat {A B N : Nat} (hN : N = A + B) (u : Fin A → EReal) (v : Fin B → EReal) (g : Fin N → EReal) :
    ∑ k : Fin N, cat hN u v k * g k
      = ∑ k : Fin A, u k * g ⟨k.val, by omega⟩ + ∑ k : Fin B, v k * g ⟨A + k.val, by omega⟩ := by
  subst hN
  rw [Fin.sum_univ_add]
  congr 1
  · refine Finset.sum_congr rfl fun k _ => ?_
    have hk : (Fin.castAdd B k).val < A := k.isLt
    simp only [cat, dif_pos hk]
    rfl
  · refine Finset.sum_congr rfl fun k _ => ?_
    have hk : ¬ (Fin.natAdd A k).val < A := by simp [Fin.natAdd]
    simp only [cat, dif_neg hk]
    congr 2
    exact Fin.ext (by simp [Fin.natAdd])

/-! ## The pair path -/

/-- The pair output of one pair at place `j`, from its two atoms' rows `u`, `v` and its own row `p`. -/
def pairRow (u v : Fin 256 → EReal) (p : Fin 64 → EReal) (Wap : Arr ⟨2, ![512, 50]⟩) (bap : Arr ⟨1, ![50]⟩)
    (Wpp : Arr ⟨2, ![64, 50]⟩) (bpp : Arr ⟨1, ![50]⟩) (Wpo : Arr ⟨2, ![100, 64]⟩) (bpo : Arr ⟨1, ![64]⟩) (j : Fin 64) : EReal :=
  dense (cat (A := 50) (B := 50) (N := 100) rfl
      (fun h : Fin 50 => dense (cat (A := 256) (B := 256) (N := 512) rfl u v) Wap bap h
        + dense (cat (A := 256) (B := 256) (N := 512) rfl v u) Wap bap h)
      (fun h : Fin 50 => dense p Wpp bpp h)) Wpo bpo j

/-- The pair output as an array, from the two gathered atom-row arrays. -/
def pairOutOf (A0 A1 : Arr ⟨2, ![131072, 256]⟩) (pf : Arr ⟨2, ![131072, 64]⟩) (Wap : Arr ⟨2, ![512, 50]⟩) (bap : Arr ⟨1, ![50]⟩)
    (Wpp : Arr ⟨2, ![64, 50]⟩) (bpp : Arr ⟨1, ![50]⟩) (Wpo : Arr ⟨2, ![100, 64]⟩) (bpo : Arr ⟨1, ![64]⟩) : Arr ⟨2, ![131072, 64]⟩ :=
  fun i => pairRow (fun k => A0 (ix2 (i 0) k)) (fun k => A1 (ix2 (i 0) k)) (fun k => pf (ix2 (i 0) k)) Wap bap Wpp bpp Wpo bpo (i 1)

/-- The rows of `pair_features` through the `PA` layer, before they are summed per atom. -/
def paRaw (pf : Arr ⟨2, ![131072, 64]⟩) (Wpa : Arr ⟨2, ![64, 50]⟩) (bpa : Arr ⟨1, ![50]⟩) : Arr ⟨2, ![131072, 50]⟩ :=
  fun i => dense (fun k => pf (ix2 (i 0) k)) Wpa bpa (i 1)

/-- The atom-feature rows a column of atom numbers selects: a negative number counts from the end, and the row read
    is the number clamped into the table. -/
def rowSel (x : Arr ⟨2, ![16384, 256]⟩) (idx : IVec ⟨2, ![131072, 2]⟩ 32) (col : Fin 2) : Arr ⟨2, ![131072, 256]⟩ :=
  fun i => x (ix2 (Cert.Lib.clampRow 16384 (by decide) (Cert.Lib.normIdx 16384#32 (idx (ix2 (i 0) col)))) (i 1))

/-- The pair output from the arguments. -/
def pairOut (x : Arr ⟨2, ![16384, 256]⟩) (idx : IVec ⟨2, ![131072, 2]⟩ 32) (pf : Arr ⟨2, ![131072, 64]⟩)
    (Wap : Arr ⟨2, ![512, 50]⟩) (bap : Arr ⟨1, ![50]⟩) (Wpp : Arr ⟨2, ![64, 50]⟩) (bpp : Arr ⟨1, ![50]⟩)
    (Wpo : Arr ⟨2, ![100, 64]⟩) (bpo : Arr ⟨1, ![64]⟩) : Arr ⟨2, ![131072, 64]⟩ :=
  pairOutOf (rowSel x idx 0) (rowSel x idx 1) pf Wap bap Wpp bpp Wpo bpo

/-! ## The atom path and the pooling -/

/-- One atom's assignment logits, from its feature row and its summed pair row. -/
def logitRow (xr : Fin 256 → EReal) (par : Fin 50 → EReal) (Waa : Arr ⟨2, ![256, 100]⟩) (baa : Arr ⟨1, ![100]⟩)
    (Wao : Arr ⟨2, ![150, 128]⟩) (bao : Arr ⟨1, ![128]⟩) (c : Fin 128) : EReal :=
  dense (cat (A := 100) (B := 50) (N := 150) rfl (fun h : Fin 100 => dense xr Waa baa h) par) Wao bao c

/-- The value both programs start a row maximum from: the word of minus infinity, read at the ideal instance. -/
def ninf : EReal := Ideal.ofBits .f32 0xFF800000#32

/-- A row's maximum as both programs take it. -/
def rowMax (a : Fin 128 → EReal) : EReal := max ninf ((Finset.univ : Finset (Fin 128)).fold max ninf a)

/-- The softmax of a row at place `c`: `exp (a c - M) / ∑ c', exp (a c' - M)` with `M` the row's maximum. -/
def softmax (a : Fin 128 → EReal) (c : Fin 128) : EReal :=
  Ideal.div (Ideal.exp (a c - rowMax a)) (∑ c' : Fin 128, Ideal.exp (a c' - rowMax a))

/-- One molecule's pooled entry `(cc, d)`, from its 64 atoms' feature rows and summed pair rows. -/
def poolAt (xm : Fin 64 → Fin 256 → EReal) (pam : Fin 64 → Fin 50 → EReal) (Waa : Arr ⟨2, ![256, 100]⟩) (baa : Arr ⟨1, ![100]⟩)
    (Wao : Arr ⟨2, ![150, 128]⟩) (bao : Arr ⟨1, ![128]⟩) (cc : Fin 128) (d : Fin 256) : EReal :=
  ∑ n : Fin 64, softmax (logitRow (xm n) (pam n) Waa baa Wao bao) cc * xm n d

/-- Atom `n` of molecule `b`. -/
def atomOf (b : Fin 256) (n : Fin 64) : Fin 16384 := ⟨b.val * 64 + n.val, by omega⟩

/-- The pooled features as an array, from the atom features and the per-atom summed pair rows. -/
def pooled (x : Arr ⟨2, ![16384, 256]⟩) (pa : Arr ⟨2, ![16384, 50]⟩) (Waa : Arr ⟨2, ![256, 100]⟩) (baa : Arr ⟨1, ![100]⟩)
    (Wao : Arr ⟨2, ![150, 128]⟩) (bao : Arr ⟨1, ![128]⟩) : Arr ⟨3, ![256, 128, 256]⟩ :=
  fun i => poolAt (fun n k => x (ix2 (atomOf (i 0) n) k)) (fun n h => pa (ix2 (atomOf (i 0) n) h)) Waa baa Wao bao (i 1) (i 2)

/-- The pooled features from the atom rows and summed pair rows laid out molecule by molecule. -/
def pooled3 (x3 : Arr ⟨3, ![256, 64, 256]⟩) (pa3 : Arr ⟨3, ![256, 64, 50]⟩) (Waa : Arr ⟨2, ![256, 100]⟩) (baa : Arr ⟨1, ![100]⟩)
    (Wao : Arr ⟨2, ![150, 128]⟩) (bao : Arr ⟨1, ![128]⟩) : Arr ⟨3, ![256, 128, 256]⟩ :=
  fun i => poolAt (fun n k => x3 (ix3 (i 0) n k)) (fun n h => pa3 (ix3 (i 0) n h)) Waa baa Wao bao (i 1) (i 2)

/-- Every atom number of every pair lies in the atom table, counted from the front or from the end. -/
def InRange (idx : IVec ⟨2, ![131072, 2]⟩ 32) : Prop := ∀ i, -16384 ≤ (idx i).toInt ∧ (idx i).toInt < 16384

end Cert.Spec

end
-- ==== Proof.KHost.lean ====
/-
  What the idealized kernel's buffers hold at the boundaries between its host stretches and its two regions, as far as
  the regions and the results read them: an argument array no stretch writes is still at its launch contents; the
  stretch between the regions sums the `PA` rows per atom (a scatter-add into zeros at the pair's atom number) and lays
  the atom features and those sums out molecule by molecule; the pair output is what region 0 left, the pooled array
  what region 1 left. Reading the molecule-major layouts back: atom `n` of molecule `b` is row `64·b + n`.
-/
import proofs.«412404_j85959475462402_1_alg».proof.Proof.Gen.KernelIdeal.Frame
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (m : (ℓ : Loc nD τ sig) → Buf (Elt Ideal) ℓ) (ρ : Dev nD → PrngReg)

/-! ## A buffer the stretches do not write -/

/-- Every operation of a listed stretch writes one buffer, and that buffer is another reference than the given one. -/
local macro "unwritten" ops:ident : tactic =>
  `(tactic| (refine List.forall_iff_forall_mem.mp ?_
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- A reference none of the three stretches before region 0 writes holds, at region 0's entry, its launch contents:
    each stretch leaves a buffer it does not write as it found it. -/
theorem W3_launch (c : Dev nD) (b : Ref sig .tc)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- A reference that is no array of region 0 and that no stretch up to region 1 writes holds, at region 0's exit, its
    launch contents: the region changes its own arrays only. -/
theorem W4_launch (c : Dev nD) (b : Ref sig .tc) (hr : ∀ w, Pipeline.arrRef spec0 w ≠ b)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W4 m ρ c (Proc.devRef .tc b) = m ((c : Thread nD τ).loc b) :=
  (W4_of_ne m ρ c b hr).trans (W3_launch m ρ c b h2 h1 h0)

/-- … and, if the stretch between the regions does not write it either, at region 1's entry too. -/
theorem W5_launch (c : Dev nD) (b : Ref sig .tc) (hr : ∀ w, Pipeline.arrRef spec0 w ≠ b)
    (h3 : ∀ op ∈ (hostOps1 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W5 m ρ c (Proc.devRef .tc b) = m ((c : Thread nD τ).loc b) :=
  (StableHlo.after_of_forall_not_mem _ _ h3).trans (W4_launch m ρ c b hr h2 h1 h0)

/-! ## Argument arrays at region 0's entry (boundary 3) and at region 1's entry (boundary 5) -/

theorem V3_arg1 (c : Dev nD) : V3 m ρ c main_arg1 = m ((c : Thread nD τ).loc main_arg1) :=
  W3_launch m ρ c main_arg1 (by unwritten hostOps0_2) (by unwritten hostOps0_1) (by unwritten hostOps0)
theorem V3_arg7 (c : Dev nD) : V3 m ρ c main_arg7 = m ((c : Thread nD τ).loc main_arg7) :=
  W3_launch m ρ c main_arg7 (by unwritten hostOps0_2) (by unwritten hostOps0_1) (by unwritten hostOps0)
theorem V3_arg8 (c : Dev nD) : V3 m ρ c main_arg8 = m ((c : Thread nD τ).loc main_arg8) :=
  W3_launch m ρ c main_arg8 (by unwritten hostOps0_2) (by unwritten hostOps0_1) (by unwritten hostOps0)
theorem V3_arg11 (c : Dev nD) : V3 m ρ c main_arg11 = m ((c : Thread nD τ).loc main_arg11) :=
  W3_launch m ρ c main_arg11 (by unwritten hostOps0_2) (by unwritten hostOps0_1) (by unwritten hostOps0)
theorem V3_arg12 (c : Dev nD) : V3 m ρ c main_arg12 = m ((c : Thread nD τ).loc main_arg12) :=
  W3_launch m ρ c main_arg12 (by unwritten hostOps0_2) (by unwritten hostOps0_1) (by unwritten hostOps0)
theorem V3_arg13 (c : Dev nD) : V3 m ρ c main_arg13 = m ((c : Thread nD τ).loc main_arg13) :=
  W3_launch m ρ c main_arg13 (by unwritten hostOps0_2) (by unwritten hostOps0_1) (by unwritten hostOps0)
theorem V3_arg14 (c : Dev nD) : V3 m ρ c main_arg14 = m ((c : Thread nD τ).loc main_arg14) :=
  W3_launch m ρ c main_arg14 (by unwritten hostOps0_2) (by unwritten hostOps0_1) (by unwritten hostOps0)
theorem V3_arg15 (c : Dev nD) : V3 m ρ c main_arg15 = m ((c : Thread nD τ).loc main_arg15) :=
  W3_launch m ρ c main_arg15 (by unwritten hostOps0_2) (by unwritten hostOps0_1) (by unwritten hostOps0)
theorem V3_arg16 (c : Dev nD) : V3 m ρ c main_arg16 = m ((c : Thread nD τ).loc main_arg16) :=
  W3_launch m ρ c main_arg16 (by unwritten hostOps0_2) (by unwritten hostOps0_1) (by unwritten hostOps0)

theorem V5_arg5 (c : Dev nD) : V5 m ρ c main_arg5 = m ((c : Thread nD τ).loc main_arg5) :=
  W5_launch m ρ c main_arg5 (by decide) (by unwritten hostOps1) (by unwritten hostOps0_2) (by unwritten hostOps0_1) (by unwritten hostOps0)
theorem V5_arg6 (c : Dev nD) : V5 m ρ c main_arg6 = m ((c : Thread nD τ).loc main_arg6) :=
  W5_launch m ρ c main_arg6 (by decide) (by unwritten hostOps1) (by unwritten hostOps0_2) (by unwritten hostOps0_1) (by unwritten hostOps0)
theorem V5_arg9 (c : Dev nD) : V5 m ρ c main_arg9 = m ((c : Thread nD τ).loc main_arg9) :=
  W5_launch m ρ c main_arg9 (by decide) (by unwritten hostOps1) (by unwritten hostOps0_2) (by unwritten hostOps0_1) (by unwritten hostOps0)
theorem V5_arg10 (c : Dev nD) : V5 m ρ c main_arg10 = m ((c : Thread nD τ).loc main_arg10) :=
  W5_launch m ρ c main_arg10 (by decide) (by unwritten hostOps1) (by unwritten hostOps0_2) (by unwritten hostOps0_1) (by unwritten hostOps0)

/-! ## The stretch between the regions -/

/-- The per-atom sums of the `PA` rows region 0 left: the scatter-add of those rows into zeros at `pair_split`. -/
def paAtoms (c : Dev nD) : FVec Ideal S16384x50 .f32 :=
  Host.scatterAdd scatter_S16384x50_S131072x1_S131072x50_1_0_0_1
    (broadcastInDim S16384x50 ![] bcast_S_S16384x50 (constant S_ .f32 0x00000000#32))
    (broadcastInDim S131072x1 ![0] bcast_S131072_S131072x1_0 (m ((c : Thread nD τ).loc main_arg2)))
    ((dat0 (V3 m ρ) c).arrAt 12 cfg0.N)

/-- At region 0's exit the atom features are as launched: region 0 does not have them among its arrays. -/
theorem W4_arg0 (c : Dev nD) : W4 m ρ c (Proc.devRef .tc main_arg0) = m ((c : Thread nD τ).loc main_arg0) :=
  W4_launch m ρ c main_arg0 (by decide) (by unwritten hostOps0_2) (by unwritten hostOps0_1) (by unwritten hostOps0)

/-- At region 0's exit the pairs' atom numbers are as launched. -/
theorem W4_arg2 (c : Dev nD) : W4 m ρ c (Proc.devRef .tc main_arg2) = m ((c : Thread nD τ).loc main_arg2) :=
  W4_launch m ρ c main_arg2 (by decide) (by unwritten hostOps0_2) (by unwritten hostOps0_1) (by unwritten hostOps0)

/-- At region 0's exit the `PA` rows are what region 0's write-backs left. -/
theorem W4_v6_1 (c : Dev nD) : W4 m ρ c (Proc.devRef .tc main_v6_1) = (dat0 (V3 m ρ) c).arrAt 12 cfg0.N :=
  W4_arr m ρ c 12

/-- Region 1's first window stages the atom features laid out molecule by molecule. -/
theorem V5_v10 (c : Dev nD) :
    V5 m ρ c main_v10 = shapeCast S256x64x256 (m ((c : Thread nD τ).loc main_arg0)) shapeCasts_S16384x256_S256x64x256 := by
  show StableHlo.after hostOps1 (W4 m ρ c) (Proc.devRef .tc main_v10) = _
  after_results
  rw [W4_arg0 m ρ c]
  rfl

/-- Region 1's second window stages the per-atom sums laid out molecule by molecule. -/
theorem V5_v11 (c : Dev nD) :
    V5 m ρ c main_v11 = shapeCast S256x64x50 (paAtoms m ρ c) shapeCasts_S16384x50_S256x64x50 := by
  show StableHlo.after hostOps1 (W4 m ρ c) (Proc.devRef .tc main_v11) = _
  after_results
  rw [W4_arg2 m ρ c, W4_v6_1 m ρ c]
  rfl

/-! ## The two results at the last boundary -/

/-- The pair output at the end is what region 0's write-backs left: nothing after region 0 writes it. -/
theorem W6_v6_0 (c : Dev nD) : W6 m ρ c (Proc.devRef .tc main_v6_0) = (dat0 (V3 m ρ) c).arrAt 11 cfg0.N :=
  calc W6 m ρ c (Proc.devRef .tc main_v6_0)
    _ = W5 m ρ c (Proc.devRef .tc main_v6_0) := W6_of_ne m ρ c main_v6_0 (by decide)
    _ = W4 m ρ c (Proc.devRef .tc main_v6_0) := StableHlo.after_of_forall_not_mem _ _ (by unwritten hostOps1)
    _ = (dat0 (V3 m ρ) c).arrAt 11 cfg0.N := W4_arr m ρ c 11

/-- The pooled array at the end is what region 1's write-backs left. -/
theorem W6_v12 (c : Dev nD) : W6 m ρ c (Proc.devRef .tc main_v12) = (dat1 (V5 m ρ) c).arrAt 6 cfg1.N :=
  W6_arr m ρ c 6

/-! ## The molecule-major layouts read back -/

/-- A `[16384, C]` array cast to `[256, 64, C]` reads, at `(b, n, k)`, the operand at row `64·b + n`, column `k`: both
    places are `(64·b + n)·C + k` in row-major order. -/
theorem shapeCast_mol_apply {α : Type} {C : ℕ} (x : (⟨2, ![16384, C]⟩ : Shape).Idx → α)
    (h : (⟨2, ![16384, C]⟩ : Shape).ShapeCasts ⟨3, ![256, 64, C]⟩) (b : Fin 256) (n : Fin 64) (k : Fin C) :
    shapeCast ⟨3, ![256, 64, C]⟩ x h (ix3 b n k) = x (ix2 (Cert.Spec.atomOf b n) k) :=
  shapeCast_apply x h _ _ (by
    rw [Shape.rowMajor_val_two, Shape.rowMajor_val_three]
    rfl)

/-- Pooling over the molecule-major layouts of `x` and `pa` is pooling over `x` and `pa` with atom `n` of molecule `b` at row `64·b + n`. -/
theorem pooled3_reshape (x : FVec Ideal S16384x256 .f32) (pa : FVec Ideal S16384x50 .f32) (Waa : FVec Ideal S256x100 .f32)
    (baa : FVec Ideal S100 .f32) (Wao : FVec Ideal S150x128 .f32) (bao : FVec Ideal S128 .f32) :
    Cert.Spec.pooled3 (shapeCast S256x64x256 x shapeCasts_S16384x256_S256x64x256) (shapeCast S256x64x50 pa shapeCasts_S16384x50_S256x64x50)
        Waa baa Wao bao
      = Cert.Spec.pooled x pa Waa baa Wao bao := by
  funext i
  have hx : (fun (n : Fin 64) (k : Fin 256) => shapeCast S256x64x256 x shapeCasts_S16384x256_S256x64x256 (ix3 (i 0) n k))
      = fun n k => x (ix2 (Cert.Spec.atomOf (i 0) n) k) :=
    funext fun n => funext fun k => shapeCast_mol_apply x shapeCasts_S16384x256_S256x64x256 (i 0) n k
  have hpa : (fun (n : Fin 64) (h : Fin 50) => shapeCast S256x64x50 pa shapeCasts_S16384x50_S256x64x50 (ix3 (i 0) n h))
      = fun n h => pa (ix2 (Cert.Spec.atomOf (i 0) n) h) :=
    funext fun n => funext fun h => shapeCast_mol_apply pa shapeCasts_S16384x50_S256x64x50 (i 0) n h
  exact congrArg₂ (fun xm pam => Cert.Spec.poolAt xm pam Waa baa Wao bao (i 1) (i 2)) hx hpa

end Cert.KernelIdeal.Val

end
-- ==== Proof.KTake.lean ====
/-
  The two gathered atom-row arrays region 0 reads. The kernel's gather fills a row with the not-a-number word where the
  pair's atom number, after counting a negative number from the end, falls outside the table; where every atom number is
  in range that never happens, and the row is the table's row at the normalised, clamped number.
-/
import proofs.«412404_j85959475462402_1_alg».proof.Proof.Gen.KernelIdeal.Frame
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate
import Idealize.ShloMosaic.Lib.Affine
import Idealize.ShloMosaic.PureOps.Reduce

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

namespace Take

/-! ## Words: a row number counted from the end lands in the table, and a conjunction of ones is one -/

/-- A row number between `-16384` and `16383`, with `16384` added when it is negative, lies between `0` and `16383`. -/
theorem norm_range (v : BitVec 32) (h : -16384 ≤ v.toInt ∧ v.toInt < 16384) :
    0 ≤ (Cert.Lib.normIdx 16384#32 v).toInt ∧ (Cert.Lib.normIdx 16384#32 v).toInt ≤ 16383 := by
  have h0 : (0#32 : BitVec 32).toInt = 0 := by decide
  have hn : (16384#32 : BitVec 32).toInt = 16384 := by decide
  unfold Cert.Lib.normIdx Scalar.select
  by_cases hc : IntOp.cmpi .slt v 0#32 = 1
  · rw [if_pos hc]
    have hlt := IntOp.cmpi_slt.1 hc
    rw [h0] at hlt
    show 0 ≤ (v + 16384#32).toInt ∧ (v + 16384#32).toInt ≤ 16383
    rw [BitVec.toInt_add, hn]
    have e : (v.toInt + 16384).bmod (2 ^ 32) = v.toInt + 16384 := by
      apply Int.bmod_eq_of_le <;> omega
    rw [e]; omega
  · rw [if_neg hc]
    have hge : ¬ v.toInt < (0#32 : BitVec 32).toInt := fun hh => hc (IntOp.cmpi_slt.2 hh)
    rw [h0] at hge
    omega

/-- A left fold by `and` from one over words that are all one is one. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

/-- A reduction by `and` from one of an array of ones is one at every place. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

/-! ## The printed take, read at an index -/

/-- One column of the pairs' atom numbers as a vector: the printed slice and reshape. -/
def colOf (idx : IVec S131072x2 32) (off : Fin 2 → Nat) (hs : S131072x2.Slices off S131072x1) : IVec S131072 32 :=
  shapeCast S131072 (extractStridedSlice S131072x1 off idx hs) shapeCasts_S131072x1_S131072

/-- Row `r` of column `c`. -/
theorem colOf_apply (idx : IVec S131072x2 32) (off : Fin 2 → Nat) (hs : S131072x2.Slices off S131072x1) (c : Fin 2)
    (h0 : off 0 = 0) (h1 : off 1 = c.val) (r : Fin 131072) : colOf idx off hs (ix1 r) = idx (ix2 r c) := by
  unfold colOf
  rw [shapeCast_apply _ _ (ix1 r) (ix2 r (0 : Fin 1))
    (by rw [Shape.rowMajor_val_two, Shape.rowMajor_val_one]; show r.val * 1 + 0 = r.val; omega)]
  exact extractStridedSlice_apply off idx hs (ix2 r (0 : Fin 1)) (ix2 r c) fun a => by
    match a with
    | ⟨0, _⟩ => show r.val = off 0 + r.val; omega
    | ⟨1, _⟩ => show c.val = off 1 + 0; omega

/-- The row numbers with the negative ones counted from the end. -/
def normVec (v : IVec S131072 32) : IVec S131072 32 :=
  select (cmpi .slt v (broadcastInDim S131072 ![] bcast_S_S131072 (constantI S_ 32 0#32)))
    (addi v (broadcastInDim S131072 ![] bcast_S_S131072 (constantI S_ 32 16384#32))) v

theorem normVec_apply (v : IVec S131072 32) (j : S131072.Idx) : normVec v j = Cert.Lib.normIdx 16384#32 (v j) := rfl

/-- The row numbers as the one-column array of start words the gather takes. -/
def startCol (w : IVec S131072 32) : IVec S131072x1 32 := broadcastInDim S131072x1 ![0] bcast_S131072_S131072x1_0 w

theorem startCol_apply (w : IVec S131072 32) (i : S131072x1.Idx) : startCol w i = w (ix1 (i 0)) :=
  broadcastInDim_apply _ _ w i (ix1 (i 0)) fun a => by
    match a with
    | ⟨0, _⟩ => rfl

/-- Which start words lie in the table: the two printed comparisons, conjoined and reduced over the unit axis. -/
def inTable (s : IVec S131072x1 32) : IVec S131072 1 :=
  Host.reduce IntOp.andi
    (andi (cmpi .sge s (broadcastInDim S131072x1 ![] bcast_S_S131072x1 (constantI S_ 32 0#32)))
      (cmpi .sle s (broadcastInDim S131072x1 ![0, 1] bcast_S1x1_S131072x1_0_1
        (broadcastInDim S1x1 ![1] bcast_S1_S1x1_1 (constantI S1 32 16383#32)))))
    (constantI S_ 1 1#1) reducesTo_S131072x1_S131072_d1 h_S_

/-- Where every start word lies in the table the mask is one everywhere. -/
theorem inTable_eq_one (s : IVec S131072x1 32) (hs : ∀ i, 0 ≤ (s i).toInt ∧ (s i).toInt ≤ 16383) (j : S131072.Idx) :
    inTable s j = 1#1 :=
  reduce_andi_of_all _ _ _ _ j rfl fun i => by
    show IntOp.andi (IntOp.cmpi .sge (s i) 0#32) (IntOp.cmpi .sle (s i) 16383#32) = 1#1
    rw [IntOp.andi_eq_one, IntOp.cmpi_sge, IntOp.cmpi_sle, show (0#32 : BitVec 32).toInt = 0 from by decide,
      show (16383#32 : BitVec 32).toInt = 16383 from by decide]
    exact hs i

/-- The take of the table's rows at a vector of row numbers, as printed: the gathered rows where the normalised
    number lies in the table, the not-a-number word elsewhere. -/
def takeRows (x : FVec Ideal S16384x256 .f32) (v : IVec S131072 32) : FVec Ideal S131072x256 .f32 :=
  select (broadcastInDim S131072x256 ![0] bcast_S131072_S131072x256_0 (inTable (startCol (normVec v))))
    (Host.gather gather_S16384x256_S131072x1_S131072x256_1_0_n_n_0_1_1256 x (startCol (normVec v)))
    (broadcastInDim S131072x256 ![] bcast_S_S131072x256 (constant (F := Ideal) S_ .f32 0x7FC00000#32))

/-- The printed dimension numbers are a row gather's. -/
theorem gatherDims_eq : gather_S16384x256_S131072x1_S131072x256_1_0_n_n_0_1_1256
    = Cert.Lib.rowGatherDims 16384 256 131072 gather_S16384x256_S131072x1_S131072x256_1_0_n_n_0_1_1256_wf := rfl

/-- With every row number in range, place `(r, k)` of the take is the table's row at the normalised, clamped number. -/
theorem takeRows_apply (x : FVec Ideal S16384x256 .f32) (v : IVec S131072 32)
    (hv : ∀ j, -16384 ≤ (v j).toInt ∧ (v j).toInt < 16384) (r : Fin 131072) (k : Fin 256) :
    takeRows x v (ix2 r k)
      = x (ix2 (Cert.Lib.clampRow 16384 (by decide) (Cert.Lib.normIdx 16384#32 (v (ix1 r)))) k) := by
  have hs : ∀ i, 0 ≤ (startCol (normVec v) i).toInt ∧ (startCol (normVec v) i).toInt ≤ 16383 := fun i => by
    rw [startCol_apply, normVec_apply]
    exact norm_range _ (hv _)
  have hm : broadcastInDim S131072x256 ![0] bcast_S131072_S131072x256_0 (inTable (startCol (normVec v))) (ix2 r k) = 1#1 := by
    unfold broadcastInDim
    exact inTable_eq_one _ hs _
  unfold takeRows
  rw [select_apply, hm, select_one, gatherDims_eq, Cert.Lib.gather_rows_apply (N := 16384) (by decide), startCol_apply,
    normVec_apply]

/-! ## The host stretches before region 0, read back -/

section Stretches

variable (V : Valuation τ sig (Elt Ideal))

/-- The first stretch leaves column 0 of the atom numbers, as a vector, in `main_v1`. -/
theorem after0_v1 : (StableHlo.after (hostOps0 (F := Ideal)) V (Proc.devRef .tc main_v1) : IVec S131072 32)
    = colOf (V (Proc.devRef .tc main_arg3)) ![0, 0] slices_S131072x2_S131072x1_0_0 := by
  after_results
  rfl

/-- The first stretch leaves column 1 of the atom numbers, as a vector, in `main_v3`. -/
theorem after0_v3 : (StableHlo.after (hostOps0 (F := Ideal)) V (Proc.devRef .tc main_v3) : IVec S131072 32)
    = colOf (V (Proc.devRef .tc main_arg3)) ![0, 1] slices_S131072x2_S131072x1_0_1 := by
  after_results
  rfl

set_option maxHeartbeats 400000 in
/-- The second stretch leaves in `main_v4` the take of the table's rows at `main_v1`. -/
theorem after1_v4 : (StableHlo.after (hostOps0_1 (F := Ideal)) V (Proc.devRef .tc main_v4) : FVec Ideal S131072x256 .f32)
    = takeRows (V (Proc.devRef .tc main_arg0)) (V (Proc.devRef .tc main_v1)) := by
  after_results_simp
  simp only [StableHlo.TRef.ofBuf, StableHlo.TRef.toBuf, cast_eq]
  rfl

set_option maxHeartbeats 400000 in
/-- The third stretch leaves in `main_v5` the take of the table's rows at `main_v3`. -/
theorem after2_v5 : (StableHlo.after (hostOps0_2 (F := Ideal)) V (Proc.devRef .tc main_v5) : FVec Ideal S131072x256 .f32)
    = takeRows (V (Proc.devRef .tc main_arg0)) (V (Proc.devRef .tc main_v3)) := by
  after_results_simp
  simp only [StableHlo.TRef.ofBuf, StableHlo.TRef.toBuf, cast_eq]
  rfl

/-- No stretch before region 0 writes an argument or another stretch's result. -/
theorem after0_arg0 : StableHlo.after (hostOps0 (F := Ideal)) V (Proc.devRef .tc main_arg0) = V (Proc.devRef .tc main_arg0) :=
  StableHlo.after_of_forall_not_mem (b := Proc.devRef .tc main_arg0) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
theorem after1_arg0 : StableHlo.after (hostOps0_1 (F := Ideal)) V (Proc.devRef .tc main_arg0) = V (Proc.devRef .tc main_arg0) :=
  StableHlo.after_of_forall_not_mem (b := Proc.devRef .tc main_arg0) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
theorem after1_v3 : StableHlo.after (hostOps0_1 (F := Ideal)) V (Proc.devRef .tc main_v3) = V (Proc.devRef .tc main_v3) :=
  StableHlo.after_of_forall_not_mem (b := Proc.devRef .tc main_v3) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
theorem after2_v4 : StableHlo.after (hostOps0_2 (F := Ideal)) V (Proc.devRef .tc main_v4) = V (Proc.devRef .tc main_v4) :=
  StableHlo.after_of_forall_not_mem (b := Proc.devRef .tc main_v4) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

end Stretches

section Run

variable (m : (ℓ : Loc nD τ sig) → Buf (Elt Ideal) ℓ) (ρ : Dev nD → PrngReg)

/-- The first atoms' rows as the printed take of column 0. -/
theorem V3_v4_take (c : Dev nD) : (V3 m ρ c main_v4 : FVec Ideal S131072x256 .f32)
    = takeRows (m ((c : Thread nD τ).loc main_arg0)) (colOf (m ((c : Thread nD τ).loc main_arg3)) ![0, 0] slices_S131072x2_S131072x1_0_0) := by
  show StableHlo.after (hostOps0_2 (F := Ideal)) (StableHlo.after (hostOps0_1 (F := Ideal)) (StableHlo.after (hostOps0 (F := Ideal)) (W0 m ρ c)))
    (Proc.devRef .tc main_v4) = _
  rw [after2_v4, after1_v4, after0_arg0, after0_v1]

/-- The second atoms' rows as the printed take of column 1. -/
theorem V3_v5_take (c : Dev nD) : (V3 m ρ c main_v5 : FVec Ideal S131072x256 .f32)
    = takeRows (m ((c : Thread nD τ).loc main_arg0)) (colOf (m ((c : Thread nD τ).loc main_arg3)) ![0, 1] slices_S131072x2_S131072x1_0_1) := by
  show StableHlo.after (hostOps0_2 (F := Ideal)) (StableHlo.after (hostOps0_1 (F := Ideal)) (StableHlo.after (hostOps0 (F := Ideal)) (W0 m ρ c)))
    (Proc.devRef .tc main_v5) = _
  rw [after2_v5, after1_arg0, after0_arg0, after1_v3, after0_v3]

end Run

/-- The take of a column of in-range atom numbers is the rows that column selects. -/
theorem takeRows_colOf (x : FVec Ideal S16384x256 .f32) (idx : IVec S131072x2 32) (h : Cert.Spec.InRange idx)
    (off : Fin 2 → Nat) (hs : S131072x2.Slices off S131072x1) (col : Fin 2) (h0 : off 0 = 0) (h1 : off 1 = col.val) :
    takeRows x (colOf idx off hs) = Cert.Spec.rowSel x idx col := by
  have hcol : ∀ j : S131072.Idx, colOf idx off hs j = idx (ix2 (j 0) col) := fun j =>
    (congrArg (colOf idx off hs) (eq_ix1 j)).trans (colOf_apply idx off hs col h0 h1 (j 0))
  funext i
  obtain ⟨r, k, rfl⟩ : ∃ r k, i = ix2 r k := ⟨i 0, i 1, eq_ix2 i⟩
  rw [takeRows_apply x (colOf idx off hs) (fun j => by rw [hcol j]; exact h _) r k, colOf_apply idx off hs col h0 h1]
  rfl

end Take

open Take

variable (m : (ℓ : Loc nD τ sig) → Buf (Elt Ideal) ℓ) (ρ : Dev nD → PrngReg)

/-- The first atoms' rows, when every atom number is in range. -/
theorem V3_v4 (c : Dev nD) (h : Cert.Spec.InRange (m ((c : Thread nD τ).loc main_arg3))) :
    V3 m ρ c main_v4 = Cert.Spec.rowSel (m ((c : Thread nD τ).loc main_arg0)) (m ((c : Thread nD τ).loc main_arg3)) 0 :=
  (V3_v4_take m ρ c).trans (takeRows_colOf _ _ h _ _ 0 rfl rfl)

/-- The second atoms' rows, when every atom number is in range. -/
theorem V3_v5 (c : Dev nD) (h : Cert.Spec.InRange (m ((c : Thread nD τ).loc main_arg3))) :
    V3 m ρ c main_v5 = Cert.Spec.rowSel (m ((c : Thread nD τ).loc main_arg0)) (m ((c : Thread nD τ).loc main_arg3)) 1 :=
  (V3_v5_take m ρ c).trans (takeRows_colOf _ _ h _ _ 1 rfl rfl)

end Cert.KernelIdeal.Val

end
-- ==== Proof.Reg0Pay.lean ====
/-
  What the pair kernel's body leaves in its two output blocks, read at one place: row `p` of the block depends only on
  row `p` of the three row-blocked inputs and on the whole weights.
-/
import proofs.«412404_j85959475462402_1_alg».proof.Proof.Gen.KernelIdeal.Frame
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-! ## Whole-block accesses -/

/-- The offsets of a whole-block access of a matrix are zero on both axes. -/
theorem off2_zero : (![0, 0] : Fin 2 → Nat) = fun _ => 0 :=
  funext fun a => by match a with | ⟨0, _⟩ => rfl | ⟨1, _⟩ => rfl

/-- The offset of a whole-block access of a vector is zero. -/
theorem off1_zero : (![0] : Fin 1 → Nat) = fun _ => 0 :=
  funext fun a => by match a with | ⟨0, _⟩ => rfl

/-! ## The operations that are not pointwise, each read at one place -/

/-- The word of `0.0` is the extended real zero. -/
theorem zero_word : Scalar.ofBits (F := Ideal) .f32 0x00000000#32 = (0 : EReal) := Ideal.ofBits_zero_f32

/-- A 50-long bias laid over every row of a 2048-row block: at `(p, h)` it is the bias at `h`. -/
theorem bias50_apply (b : FVec Ideal S50 .f32) (p : Fin 2048) (h : Fin 50) :
    broadcastTo S2048x50 (shapeCast S1x50 b shapeCasts_S50_S1x50) broadcasts_S1x50_S2048x50 (ix2 p h) = b (ix1 h) :=
  (broadcastTo_1b_ab_apply _ broadcasts_S1x50_S2048x50 p h).trans (shapeCast_a_1a_apply b shapeCasts_S50_S1x50 0 h)

/-- A 64-long bias laid over every row of a 2048-row block: at `(p, q)` it is the bias at `q`. -/
theorem bias64_apply (b : FVec Ideal S64 .f32) (p : Fin 2048) (q : Fin 64) :
    broadcastTo S2048x64 (shapeCast S1x64 b shapeCasts_S64_S1x64) broadcasts_S1x64_S2048x64 (ix2 p q) = b (ix1 q) :=
  (broadcastTo_1b_ab_apply _ broadcasts_S1x64_S2048x64 p q).trans (shapeCast_a_1a_apply b shapeCasts_S64_S1x64 0 q)

/-- The first 256 rows of the 512-row weight: row `k` is row `k`. -/
theorem wlo_apply (W : FVec Ideal S512x50 .bf16) (k : Fin 256) (h : Fin 50) :
    extractStridedSlice S256x50 ![0, 0] W slices_S512x50_o0_0_S256x50 (ix2 k h) = W (ix2 (⟨k.val, by omega⟩ : Fin 512) h) :=
  slice2_axis0_apply 0 W slices_S512x50_o0_0_S256x50 k h ⟨k.val, by omega⟩ (Nat.zero_add _).symm

/-- The last 256 rows of the 512-row weight: row `k` is row `256 + k`. -/
theorem whi_apply (W : FVec Ideal S512x50 .bf16) (k : Fin 256) (h : Fin 50) :
    extractStridedSlice S256x50 ![256, 0] W slices_S512x50_o256_0_S256x50 (ix2 k h) = W (ix2 (⟨256 + k.val, by omega⟩ : Fin 512) h) :=
  slice2_axis0_apply 256 W slices_S512x50_o256_0_S256x50 k h ⟨256 + k.val, by omega⟩ rfl

/-- Two 50-wide blocks laid side by side: row `p` of the result is the two rows `p` laid end to end. -/
theorem cat100_apply (a b : FVec Ideal S2048x50 .f32) (p : Fin 2048) (k : Fin 100) :
    concatenate S2048x100 1 [⟨S2048x50, a⟩, ⟨S2048x50, b⟩] concatenates_S2048x50_S2048x50_S2048x100_d1 (ix2 p k)
      = Cert.Spec.cat (A := 50) (B := 50) (N := 100) rfl (fun h => a (ix2 p h)) (fun h => b (ix2 p h)) k := by
  unfold Cert.Spec.cat
  by_cases hk : k.val < 50
  · rw [dif_pos hk]
    exact concatenate_pair_apply_left (t := S2048x100) 1 a b concatenates_S2048x50_S2048x50_S2048x100_d1 (ix2 p k) rfl (ix2 p (⟨k.val, hk⟩ : Fin 50))
      (fun ax => by
        match ax with
        | ⟨0, _⟩ => rfl
        | ⟨1, _⟩ => rfl)
  · rw [dif_neg hk]
    exact concatenate_pair_apply_right (t := S2048x100) 1 a b concatenates_S2048x50_S2048x50_S2048x100_d1 (ix2 p k) rfl rfl
      (ix2 p (⟨k.val - 50, by omega⟩ : Fin 50))
      (fun ax => by
        match ax with
        | ⟨0, _⟩ => intro _; rfl
        | ⟨1, _⟩ => intro hax; exact absurd rfl hax)
      (by show (k.val - 50) + 50 = k.val; omega)

/-! ## The three products -/

theorem lhs_mm256_0 (i : S2048x50.Idx) (q : dot_S2048x256_S256x50_S2048x50_1_0_0_1_n_n.contr.Idx) :
    (dot_S2048x256_S256x50_S2048x50_1_0_0_1_n_n.lhsIdx i q 0).val = (i 0).val := by
  unfold DotDims.lhsIdx
  rw [dif_neg (show ¬(0 : Fin S2048x256.rank) ∈ dot_S2048x256_S256x50_S2048x50_1_0_0_1_n_n.lhsBatch by decide), dif_pos (show (0 : Fin S2048x256.rank) ∈ dot_S2048x256_S256x50_S2048x50_1_0_0_1_n_n.lhsNonContracting by decide)]
  rfl
theorem lhs_mm256_1 (i : S2048x50.Idx) (q : dot_S2048x256_S256x50_S2048x50_1_0_0_1_n_n.contr.Idx) :
    (dot_S2048x256_S256x50_S2048x50_1_0_0_1_n_n.lhsIdx i q 1).val = (q ⟨0, by decide⟩).val :=
  dot_S2048x256_S256x50_S2048x50_1_0_0_1_n_n.lhsIdx_val_of_single rfl i q
theorem rhs_mm256_0 (i : S2048x50.Idx) (q : dot_S2048x256_S256x50_S2048x50_1_0_0_1_n_n.contr.Idx) :
    (dot_S2048x256_S256x50_S2048x50_1_0_0_1_n_n.rhsIdx i q 0).val = (q ⟨0, by decide⟩).val :=
  dot_S2048x256_S256x50_S2048x50_1_0_0_1_n_n.rhsIdx_val_of_single rfl i q
theorem rhs_mm256_1 (i : S2048x50.Idx) (q : dot_S2048x256_S256x50_S2048x50_1_0_0_1_n_n.contr.Idx) :
    (dot_S2048x256_S256x50_S2048x50_1_0_0_1_n_n.rhsIdx i q 1).val = (i 1).val := by
  unfold DotDims.rhsIdx
  rw [dif_neg (show ¬(1 : Fin S256x50.rank) ∈ dot_S2048x256_S256x50_S2048x50_1_0_0_1_n_n.rhsBatch by decide), dif_pos (show (1 : Fin S256x50.rank) ∈ dot_S2048x256_S256x50_S2048x50_1_0_0_1_n_n.rhsNonContracting by decide)]
  rfl
/-- A 256-deep product into the zero block, at `(p, h)`: `∑ k, A[p, k] * B[k, h]`. -/
theorem mm256_apply (A : FVec Ideal S2048x256 .bf16) (B : FVec Ideal S256x50 .bf16) (p : Fin 2048) (h : Fin 50) :
    matmul dot_S2048x256_S256x50_S2048x50_1_0_0_1_n_n none A B (constant (F := Ideal) S2048x50 .f32 0x00000000#32) (ix2 p h)
      = ∑ k : Fin 256, A (ix2 p k) * B (ix2 k h) := by
  refine (Ideal.matmul_constant_zero_apply dot_S2048x256_S256x50_S2048x50_1_0_0_1_n_n none A B (ix2 p h)).trans ?_
  rw [← Equiv.sum_comp (ValueIdx.contrEquiv1 dot_S2048x256_S256x50_S2048x50_1_0_0_1_n_n 256 rfl rfl).symm]
  refine Finset.sum_congr rfl fun k _ => ?_
  have hk := ValueIdx.contrEquiv1_symm_val dot_S2048x256_S256x50_S2048x50_1_0_0_1_n_n 256 rfl rfl k
  have el : dot_S2048x256_S256x50_S2048x50_1_0_0_1_n_n.lhsIdx (ix2 p h) ((ValueIdx.contrEquiv1 dot_S2048x256_S256x50_S2048x50_1_0_0_1_n_n 256 rfl rfl).symm k) = ix2 p k := funext fun a => Fin.ext (by
    match a with
    | ⟨0, _⟩ => exact lhs_mm256_0 _ _
    | ⟨1, _⟩ => exact (lhs_mm256_1 _ _).trans hk)
  have er : dot_S2048x256_S256x50_S2048x50_1_0_0_1_n_n.rhsIdx (ix2 p h) ((ValueIdx.contrEquiv1 dot_S2048x256_S256x50_S2048x50_1_0_0_1_n_n 256 rfl rfl).symm k) = ix2 k h := funext fun a => Fin.ext (by
    match a with
    | ⟨0, _⟩ => exact (rhs_mm256_0 _ _).trans hk
    | ⟨1, _⟩ => exact rhs_mm256_1 _ _)
  rw [el, er]

theorem lhs_mm64_0 (i : S2048x50.Idx) (q : dot_S2048x64_S64x50_S2048x50_1_0_0_1_n_n.contr.Idx) :
    (dot_S2048x64_S64x50_S2048x50_1_0_0_1_n_n.lhsIdx i q 0).val = (i 0).val := by
  unfold DotDims.lhsIdx
  rw [dif_neg (show ¬(0 : Fin S2048x64.rank) ∈ dot_S2048x64_S64x50_S2048x50_1_0_0_1_n_n.lhsBatch by decide), dif_pos (show (0 : Fin S2048x64.rank) ∈ dot_S2048x64_S64x50_S2048x50_1_0_0_1_n_n.lhsNonContracting by decide)]
  rfl
theorem lhs_mm64_1 (i : S2048x50.Idx) (q : dot_S2048x64_S64x50_S2048x50_1_0_0_1_n_n.contr.Idx) :
    (dot_S2048x64_S64x50_S2048x50_1_0_0_1_n_n.lhsIdx i q 1).val = (q ⟨0, by decide⟩).val :=
  dot_S2048x64_S64x50_S2048x50_1_0_0_1_n_n.lhsIdx_val_of_single rfl i q
theorem rhs_mm64_0 (i : S2048x50.Idx) (q : dot_S2048x64_S64x50_S2048x50_1_0_0_1_n_n.contr.Idx) :
    (dot_S2048x64_S64x50_S2048x50_1_0_0_1_n_n.rhsIdx i q 0).val = (q ⟨0, by decide⟩).val :=
  dot_S2048x64_S64x50_S2048x50_1_0_0_1_n_n.rhsIdx_val_of_single rfl i q
theorem rhs_mm64_1 (i : S2048x50.Idx) (q : dot_S2048x64_S64x50_S2048x50_1_0_0_1_n_n.contr.Idx) :
    (dot_S2048x64_S64x50_S2048x50_1_0_0_1_n_n.rhsIdx i q 1).val = (i 1).val := by
  unfold DotDims.rhsIdx
  rw [dif_neg (show ¬(1 : Fin S64x50.rank) ∈ dot_S2048x64_S64x50_S2048x50_1_0_0_1_n_n.rhsBatch by decide), dif_pos (show (1 : Fin S64x50.rank) ∈ dot_S2048x64_S64x50_S2048x50_1_0_0_1_n_n.rhsNonContracting by decide)]
  rfl
/-- A 64-deep product into the zero block, at `(p, h)`: `∑ k, A[p, k] * B[k, h]`. -/
theorem mm64_apply (A : FVec Ideal S2048x64 .bf16) (B : FVec Ideal S64x50 .bf16) (p : Fin 2048) (h : Fin 50) :
    matmul dot_S2048x64_S64x50_S2048x50_1_0_0_1_n_n none A B (constant (F := Ideal) S2048x50 .f32 0x00000000#32) (ix2 p h)
      = ∑ k : Fin 64, A (ix2 p k) * B (ix2 k h) := by
  refine (Ideal.matmul_constant_zero_apply dot_S2048x64_S64x50_S2048x50_1_0_0_1_n_n none A B (ix2 p h)).trans ?_
  rw [← Equiv.sum_comp (ValueIdx.contrEquiv1 dot_S2048x64_S64x50_S2048x50_1_0_0_1_n_n 64 rfl rfl).symm]
  refine Finset.sum_congr rfl fun k _ => ?_
  have hk := ValueIdx.contrEquiv1_symm_val dot_S2048x64_S64x50_S2048x50_1_0_0_1_n_n 64 rfl rfl k
  have el : dot_S2048x64_S64x50_S2048x50_1_0_0_1_n_n.lhsIdx (ix2 p h) ((ValueIdx.contrEquiv1 dot_S2048x64_S64x50_S2048x50_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S2048x64_S64x50_S2048x50_1_0_0_1_n_n.rhsIdx (ix2 p h) ((ValueIdx.contrEquiv1 dot_S2048x64_S64x50_S2048x50_1_0_0_1_n_n 64 rfl rfl).symm k) = ix2 k h := funext fun a => Fin.ext (by
    match a with
    | ⟨0, _⟩ => exact (rhs_mm64_0 _ _).trans hk
    | ⟨1, _⟩ => exact rhs_mm64_1 _ _)
  rw [el, er]

theorem lhs_mm100_0 (i : S2048x64.Idx) (q : dot_S2048x100_S100x64_S2048x64_1_0_0_1_n_n.contr.Idx) :
    (dot_S2048x100_S100x64_S2048x64_1_0_0_1_n_n.lhsIdx i q 0).val = (i 0).val := by
  unfold DotDims.lhsIdx
  rw [dif_neg (show ¬(0 : Fin S2048x100.rank) ∈ dot_S2048x100_S100x64_S2048x64_1_0_0_1_n_n.lhsBatch by decide), dif_pos (show (0 : Fin S2048x100.rank) ∈ dot_S2048x100_S100x64_S2048x64_1_0_0_1_n_n.lhsNonContracting by decide)]
  rfl
theorem lhs_mm100_1 (i : S2048x64.Idx) (q : dot_S2048x100_S100x64_S2048x64_1_0_0_1_n_n.contr.Idx) :
    (dot_S2048x100_S100x64_S2048x64_1_0_0_1_n_n.lhsIdx i q 1).val = (q ⟨0, by decide⟩).val :=
  dot_S2048x100_S100x64_S2048x64_1_0_0_1_n_n.lhsIdx_val_of_single rfl i q
theorem rhs_mm100_0 (i : S2048x64.Idx) (q : dot_S2048x100_S100x64_S2048x64_1_0_0_1_n_n.contr.Idx) :
    (dot_S2048x100_S100x64_S2048x64_1_0_0_1_n_n.rhsIdx i q 0).val = (q ⟨0, by decide⟩).val :=
  dot_S2048x100_S100x64_S2048x64_1_0_0_1_n_n.rhsIdx_val_of_single rfl i q
theorem rhs_mm100_1 (i : S2048x64.Idx) (q : dot_S2048x100_S100x64_S2048x64_1_0_0_1_n_n.contr.Idx) :
    (dot_S2048x100_S100x64_S2048x64_1_0_0_1_n_n.rhsIdx i q 1).val = (i 1).val := by
  unfold DotDims.rhsIdx
  rw [dif_neg (show ¬(1 : Fin S100x64.rank) ∈ dot_S2048x100_S100x64_S2048x64_1_0_0_1_n_n.rhsBatch by decide), dif_pos (show (1 : Fin S100x64.rank) ∈ dot_S2048x100_S100x64_S2048x64_1_0_0_1_n_n.rhsNonContracting by decide)]
  rfl
/-- A 100-deep product into the zero block, at `(p, q)`: `∑ k, A[p, k] * B[k, q]`. -/
theorem mm100_apply (A : FVec Ideal S2048x100 .bf16) (B : FVec Ideal S100x64 .bf16) (p : Fin 2048) (q : Fin 64) :
    matmul dot_S2048x100_S100x64_S2048x64_1_0_0_1_n_n none A B (constant (F := Ideal) S2048x64 .f32 0x00000000#32) (ix2 p q)
      = ∑ k : Fin 100, A (ix2 p k) * B (ix2 k q) := by
  refine (Ideal.matmul_constant_zero_apply dot_S2048x100_S100x64_S2048x64_1_0_0_1_n_n none A B (ix2 p q)).trans ?_
  rw [← Equiv.sum_comp (ValueIdx.contrEquiv1 dot_S2048x100_S100x64_S2048x64_1_0_0_1_n_n 100 rfl rfl).symm]
  refine Finset.sum_congr rfl fun k _ => ?_
  have hk := ValueIdx.contrEquiv1_symm_val dot_S2048x100_S100x64_S2048x64_1_0_0_1_n_n 100 rfl rfl k
  have el : dot_S2048x100_S100x64_S2048x64_1_0_0_1_n_n.lhsIdx (ix2 p q) ((ValueIdx.contrEquiv1 dot_S2048x100_S100x64_S2048x64_1_0_0_1_n_n 100 rfl rfl).symm k) = ix2 p k := funext fun a => Fin.ext (by
    match a with
    | ⟨0, _⟩ => exact lhs_mm100_0 _ _
    | ⟨1, _⟩ => exact (lhs_mm100_1 _ _).trans hk)
  have er : dot_S2048x100_S100x64_S2048x64_1_0_0_1_n_n.rhsIdx (ix2 p q) ((ValueIdx.contrEquiv1 dot_S2048x100_S100x64_S2048x64_1_0_0_1_n_n 100 rfl rfl).symm k) = ix2 k q := funext fun a => Fin.ext (by
    match a with
    | ⟨0, _⟩ => exact (rhs_mm100_0 _ _).trans hk
    | ⟨1, _⟩ => exact rhs_mm100_1 _ _)
  rw [el, er]

/-! ## The payloads at one place -/

/-- A dense layer over two 256-vectors laid end to end is the layer over the two half sums: the first 256 rows of
    the weight against the first vector, the last 256 rows against the second. -/
theorem dense_cat512 (u v : Fin 256 → EReal) (W : Cert.Spec.Arr ⟨2, ![512, 50]⟩) (b : Cert.Spec.Arr ⟨1, ![50]⟩) (h : Fin 50) :
    Cert.Spec.dense (Cert.Spec.cat (A := 256) (B := 256) (N := 512) rfl u v) W b h
      = max (∑ k : Fin 256, u k * W (ix2 (⟨k.val, by omega⟩ : Fin 512) h)
          + ∑ k : Fin 256, v k * W (ix2 (⟨256 + k.val, by omega⟩ : Fin 512) h) + b (ix1 h)) 0 := by
  unfold Cert.Spec.dense Cert.Spec.relu
  exact congrArg (fun s : EReal => max (s + b (ix1 h)) 0) (Cert.Spec.sum_cat rfl u v (fun k => W (ix2 k h)))

/-- The `AP` block at `(p, h)`: the 512-wide layer of the two atom rows laid end to end, in both orders, added. -/
theorem k0_pay4_apply (x0 x1 : Vec Ideal S2048x256 .f32) (W : Vec Ideal S512x50 .f32) (b : Vec Ideal S50 .f32) (p : Fin 2048) (h : Fin 50) :
    k0_pay4 x0 x1 W b (ix2 p h)
      = Cert.Spec.dense (Cert.Spec.cat (A := 256) (B := 256) (N := 512) rfl (fun k => x0 (ix2 p k)) (fun k => x1 (ix2 p k))) W b h
        + Cert.Spec.dense (Cert.Spec.cat (A := 256) (B := 256) (N := 512) rfl (fun k => x1 (ix2 p k)) (fun k => x0 (ix2 p k))) W b h := by
  unfold k0_pay4
  simp only [addf_apply, maximumf_apply, broadcast_apply, truncf_apply, shapeCast_self, bias50_apply, mm256_apply, wlo_apply, whi_apply,
    zero_word]
  rw [dense_cat512, dense_cat512]

/-- The `PP` block at `(p, h)`: the dense layer of row `p` of the pair block. -/
theorem k0_pay5_apply (x2 : Vec Ideal S2048x64 .f32) (W : Vec Ideal S64x50 .f32) (b : Vec Ideal S50 .f32) (p : Fin 2048) (h : Fin 50) :
    k0_pay5 x2 W b (ix2 p h) = Cert.Spec.dense (fun k => x2 (ix2 p k)) W b h := by
  unfold k0_pay5 k0_pay3
  simp only [addf_apply, maximumf_apply, broadcast_apply, truncf_apply, bias50_apply, mm64_apply, zero_word]
  rfl

/-- The `PA` layer at `(p, h)`: the dense layer of row `p` of its left operand. -/
theorem k0_pay2_apply (A : FVec Ideal S2048x64 .bf16) (W : Vec Ideal S64x50 .f32) (b : Vec Ideal S50 .f32) (p : Fin 2048) (h : Fin 50) :
    k0_pay2 A W b (ix2 p h) = Cert.Spec.dense (fun k => A (ix2 p k)) W b h := by
  unfold k0_pay2
  simp only [addf_apply, maximumf_apply, broadcast_apply, truncf_apply, bias50_apply, mm64_apply, zero_word]
  rfl

/-- The output layer at `(p, q)`: the dense layer of rows `p` of its two 50-wide operands laid end to end. -/
theorem k0_pay1_apply (a b : FVec Ideal S2048x50 .f32) (W : Vec Ideal S100x64 .f32) (c : Vec Ideal S64 .f32) (p : Fin 2048) (q : Fin 64) :
    k0_pay1 a b W c (ix2 p q)
      = Cert.Spec.dense (Cert.Spec.cat (A := 50) (B := 50) (N := 100) rfl (fun h => a (ix2 p h)) (fun h => b (ix2 p h))) W c q := by
  unfold k0_pay1
  simp only [addf_apply, maximumf_apply, broadcast_apply, truncf_apply, bias64_apply, mm100_apply, cat100_apply, zero_word]
  rfl

/-! ## The two output blocks -/

/-- The pair-output block at `(p, q)`: the pair row function of row `p` of the two atom-row blocks and of the pair block. -/
theorem out0_11_apply (x0 x1 : Vec Ideal S2048x256 .f32) (x2 : Vec Ideal S2048x64 .f32) (x3 : Vec Ideal S512x50 .f32) (x4 : Vec Ideal S50 .f32)
    (x5 : Vec Ideal S64x50 .f32) (x6 : Vec Ideal S50 .f32) (x7 : Vec Ideal S100x64 .f32) (x8 : Vec Ideal S64 .f32) (x9 : Vec Ideal S64x50 .f32) (x10 : Vec Ideal S50 .f32)
    (p : Fin 2048) (q : Fin 64) :
    out0_11 x0 x1 x2 x3 x4 x5 x6 x7 x8 x9 x10 (ix2 p q)
      = Cert.Spec.pairRow (fun k => x0 (ix2 p k)) (fun k => x1 (ix2 p k)) (fun k => x2 (ix2 p k)) x3 x4 x5 x6 x7 x8 q := by
  unfold out0_11
  rw [View.canon_unit_zero off2_zero]
  simp only [View.ld_unit_zero (S := S2048x256) off2_zero, View.ld_unit_zero (S := S2048x64) off2_zero,
    View.ld_unit_zero (S := S512x50) off2_zero, View.ld_unit_zero (S := S64x50) off2_zero, View.ld_unit_zero (S := S100x64) off2_zero,
    View.ld_unit_zero (S := S50) off1_zero, View.ld_unit_zero (S := S64) off1_zero]
  rw [k0_pay1_apply]
  simp only [k0_pay4_apply, k0_pay5_apply]
  rfl

/-- The `PA` block at `(p, q)`: the dense layer of row `p` of the pair block. -/
theorem out0_12_apply (x0 x1 : Vec Ideal S2048x256 .f32) (x2 : Vec Ideal S2048x64 .f32) (x3 : Vec Ideal S512x50 .f32) (x4 : Vec Ideal S50 .f32)
    (x5 : Vec Ideal S64x50 .f32) (x6 : Vec Ideal S50 .f32) (x7 : Vec Ideal S100x64 .f32) (x8 : Vec Ideal S64 .f32) (x9 : Vec Ideal S64x50 .f32) (x10 : Vec Ideal S50 .f32)
    (p : Fin 2048) (q : Fin 50) :
    out0_12 x0 x1 x2 x3 x4 x5 x6 x7 x8 x9 x10 (ix2 p q) = Cert.Spec.dense (fun k => x2 (ix2 p k)) x9 x10 q := by
  unfold out0_12
  rw [View.canon_unit_zero off2_zero]
  simp only [View.ld_unit_zero (S := S2048x64) off2_zero, View.ld_unit_zero (S := S64x50) off2_zero, View.ld_unit_zero (S := S50) off1_zero]
  rw [k0_pay2_apply]
  rfl

end Cert.KernelIdeal.Val

end
-- ==== Proof.Reg0Arr.lean ====
/-
  From the pair kernel's blocks to its two output arrays: grid point `t` writes rows `2048·t … 2048·t + 2047`, each row a
  function of the same row of the row-blocked inputs, and the 64 points cover all 131072 rows.
-/
import proofs.«412404_j85959475462402_1_alg».proof.Proof.Reg0Pay
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-! ## The specification's arrays read at one index

An entry of the pair output array is the pair row function of ONE row of the three row arrays; an entry of the `PA` array
is the dense layer of one row of the pair array. Both are stated here over plain vectors, so that a block's row can be
set against the array's row it is a copy of. -/

/-- The pair row function of vectors that are row `r` of the three row arrays, over the same weights, is the pair output
    array's entry at any index whose row is `r` and whose column is `q`. -/
theorem pairRow_eq_pairOutOf (A0 A1 : Cert.Spec.Arr ⟨2, ![131072, 256]⟩) (pf : Cert.Spec.Arr ⟨2, ![131072, 64]⟩)
    (Wap : Cert.Spec.Arr ⟨2, ![512, 50]⟩) (bap : Cert.Spec.Arr ⟨1, ![50]⟩) (Wpp : Cert.Spec.Arr ⟨2, ![64, 50]⟩) (bpp : Cert.Spec.Arr ⟨1, ![50]⟩)
    (Wpo : Cert.Spec.Arr ⟨2, ![100, 64]⟩) (bpo : Cert.Spec.Arr ⟨1, ![64]⟩)
    (u v : Fin 256 → EReal) (w : Fin 64 → EReal)
    (Wap' : Cert.Spec.Arr ⟨2, ![512, 50]⟩) (bap' : Cert.Spec.Arr ⟨1, ![50]⟩) (Wpp' : Cert.Spec.Arr ⟨2, ![64, 50]⟩) (bpp' : Cert.Spec.Arr ⟨1, ![50]⟩)
    (Wpo' : Cert.Spec.Arr ⟨2, ![100, 64]⟩) (bpo' : Cert.Spec.Arr ⟨1, ![64]⟩)
    (i : (⟨2, ![131072, 64]⟩ : Shape).Idx) (r : Fin 131072) (q : Fin 64)
    (hu : ∀ k, u k = A0 (ix2 r k)) (hv : ∀ k, v k = A1 (ix2 r k)) (hw : ∀ k, w k = pf (ix2 r k))
    (h3 : Wap' = Wap) (h4 : bap' = bap) (h5 : Wpp' = Wpp) (h6 : bpp' = bpp) (h7 : Wpo' = Wpo) (h8 : bpo' = bpo)
    (h0 : i 0 = r) (h1 : i 1 = q) :
    Cert.Spec.pairRow u v w Wap' bap' Wpp' bpp' Wpo' bpo' q = Cert.Spec.pairOutOf A0 A1 pf Wap bap Wpp bpp Wpo bpo i := by
  subst h3 h4 h5 h6 h7 h8 h0 h1
  obtain rfl : u = fun k => A0 (ix2 (i 0) k) := funext hu
  obtain rfl : v = fun k => A1 (ix2 (i 0) k) := funext hv
  obtain rfl : w = fun k => pf (ix2 (i 0) k) := funext hw
  rfl

/-- The dense layer of a vector that is row `r` of the pair array is the `PA` array's entry at any index whose row is `r`
    and whose column is `q`. -/
theorem dense_eq_paRaw (pf : Cert.Spec.Arr ⟨2, ![131072, 64]⟩) (Wpa : Cert.Spec.Arr ⟨2, ![64, 50]⟩) (bpa : Cert.Spec.Arr ⟨1, ![50]⟩)
    (w : Fin 64 → EReal) (Wpa' : Cert.Spec.Arr ⟨2, ![64, 50]⟩) (bpa' : Cert.Spec.Arr ⟨1, ![50]⟩)
    (i : (⟨2, ![131072, 50]⟩ : Shape).Idx) (r : Fin 131072) (q : Fin 50)
    (hw : ∀ k, w k = pf (ix2 r k)) (h9 : Wpa' = Wpa) (h10 : bpa' = bpa) (h0 : i 0 = r) (h1 : i 1 = q) :
    Cert.Spec.dense w Wpa' bpa' q = Cert.Spec.paRaw pf Wpa bpa i := by
  subst h9 h10 h0 h1
  obtain rfl : w = fun k => pf (ix2 (i 0) k) := funext hw
  rfl

/-! ## The index maps over the grid -/

/-- The three row-blocked inputs and the two outputs move together: at point `t` each is at block row `t`, block
    column 0 (decided over the 64 points). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights and biases are whole at every point: block index 0 on every axis (decided over the 64 points). -/
theorem idx_whole : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- A point of the grid is below 64. -/
theorem point_lt (t : Fin cfg0.N) : t.val < 64 := lt_of_lt_of_eq t.isLt N_0

variable (V : (c : Dev nD) → (b : Ref sig .tc) → Buf (Elt Ideal) ((c : Thread nD τ).loc b))

/-! ## The input blocks as parts of their arrays -/

/-- The first atom-row array, the second, and the pair array, as the region finds them. -/
abbrev rowsU (c : Dev nD) : FVec Ideal S131072x256 .f32 := V c main_v4
abbrev rowsV (c : Dev nD) : FVec Ideal S131072x256 .f32 := V c main_v5
abbrev rowsP (c : Dev nD) : FVec Ideal S131072x64 .f32 := V c main_arg1

/-- Row `p` of point `t`'s block of the first atom-row array is the array's row `2048·t + p`. -/
theorem blkU_apply (c : Dev nD) (t : Fin cfg0.N) (p : Fin 2048) (k : Fin 256) (r : Fin 131072) (hr : r.val = 2048 * t.val + p.val) :
    (iblk0 V c 0 t : Vec Ideal S2048x256 .f32) (ix2 p k) = rowsU V c (ix2 r k) := by
  obtain ⟨e0, e1, -⟩ := idx_rows t
  show V c main_v4 (((cfg0.win 0).blk t).view.emb (ix2 p k)) = rowsU V c (ix2 r k)
  refine congrArg (V c main_v4) (funext fun a => Fin.ext ?_)
  match a with
  | ⟨0, _⟩ => show win0_0.index t (0 : Fin 2) * 2048 + 1 * p.val = r.val; omega
  | ⟨1, _⟩ => show win0_0.index t (1 : Fin 2) * 256 + 1 * k.val = k.val; omega

/-- Row `p` of point `t`'s block of the second atom-row array is the array's row `2048·t + p`. -/
theorem blkV_apply (c : Dev nD) (t : Fin cfg0.N) (p : Fin 2048) (k : Fin 256) (r : Fin 131072) (hr : r.val = 2048 * t.val + p.val) :
    (iblk0 V c 1 t : Vec Ideal S2048x256 .f32) (ix2 p k) = rowsV V c (ix2 r k) := by
  obtain ⟨-, -, e0, e1, -⟩ := idx_rows t
  show V c main_v5 (((cfg0.win 1).blk t).view.emb (ix2 p k)) = rowsV V c (ix2 r k)
  refine congrArg (V c main_v5) (funext fun a => Fin.ext ?_)
  match a with
  | ⟨0, _⟩ => show win0_1.index t (0 : Fin 2) * 2048 + 1 * p.val = r.val; omega
  | ⟨1, _⟩ => show win0_1.index t (1 : Fin 2) * 256 + 1 * k.val = k.val; omega

/-- Row `p` of point `t`'s block of the pair array is the array's row `2048·t + p`. -/
theorem blkP_apply (c : Dev nD) (t : Fin cfg0.N) (p : Fin 2048) (k : Fin 64) (r : Fin 131072) (hr : r.val = 2048 * t.val + p.val) :
    (iblk0 V c 2 t : Vec Ideal S2048x64 .f32) (ix2 p k) = rowsP V c (ix2 r k) := by
  obtain ⟨-, -, -, -, e0, e1, -⟩ := idx_rows t
  show V c main_arg1 (((cfg0.win 2).blk t).view.emb (ix2 p k)) = rowsP V c (ix2 r k)
  refine congrArg (V c main_arg1) (funext fun a => Fin.ext ?_)
  match a with
  | ⟨0, _⟩ => show win0_2.index t (0 : Fin 2) * 2048 + 1 * p.val = r.val; omega
  | ⟨1, _⟩ => show win0_2.index t (1 : Fin 2) * 64 + 1 * k.val = k.val; omega

/-- A whole window's block is its array: the block index is 0 on every axis, so the block's place `y` is the array's. -/
theorem blk3_eq (c : Dev nD) (t : Fin cfg0.N) : (iblk0 V c 3 t : Vec Ideal S512x50 .f32) = V c main_arg11 := by
  obtain ⟨e0, e1, -⟩ := idx_whole t
  refine funext fun (y : S512x50.Idx) => ?_
  show V c main_arg11 (((cfg0.win 3).blk t).view.emb y) = V c main_arg11 y
  refine congrArg (V c main_arg11) (funext fun a => Fin.ext ?_)
  match a with
  | ⟨0, _⟩ => show win0_3.index t (0 : Fin 2) * 512 + 1 * (y 0).val = (y 0).val; omega
  | ⟨1, _⟩ => show win0_3.index t (1 : Fin 2) * 50 + 1 * (y 1).val = (y 1).val; omega

theorem blk4_eq (c : Dev nD) (t : Fin cfg0.N) : (iblk0 V c 4 t : Vec Ideal S50 .f32) = V c main_arg12 := by
  obtain ⟨-, -, e0, -⟩ := idx_whole t
  refine funext fun (y : S50.Idx) => ?_
  show V c main_arg12 (((cfg0.win 4).blk t).view.emb y) = V c main_arg12 y
  refine congrArg (V c main_arg12) (funext fun a => Fin.ext ?_)
  match a with
  | ⟨0, _⟩ => show win0_4.index t (0 : Fin 1) * 50 + 1 * (y 0).val = (y 0).val; omega

theorem blk5_eq (c : Dev nD) (t : Fin cfg0.N) : (iblk0 V c 5 t : Vec Ideal S64x50 .f32) = V c main_arg13 := by
  obtain ⟨-, -, -, e0, e1, -⟩ := idx_whole t
  refine funext fun (y : S64x50.Idx) => ?_
  show V c main_arg13 (((cfg0.win 5).blk t).view.emb y) = V c main_arg13 y
  refine congrArg (V c main_arg13) (funext fun a => Fin.ext ?_)
  match a with
  | ⟨0, _⟩ => show win0_5.index t (0 : Fin 2) * 64 + 1 * (y 0).val = (y 0).val; omega
  | ⟨1, _⟩ => show win0_5.index t (1 : Fin 2) * 50 + 1 * (y 1).val = (y 1).val; omega

theorem blk6_eq (c : Dev nD) (t : Fin cfg0.N) : (iblk0 V c 6 t : Vec Ideal S50 .f32) = V c main_arg14 := by
  obtain ⟨-, -, -, -, -, e0, -⟩ := idx_whole t
  refine funext fun (y : S50.Idx) => ?_
  show V c main_arg14 (((cfg0.win 6).blk t).view.emb y) = V c main_arg14 y
  refine congrArg (V c main_arg14) (funext fun a => Fin.ext ?_)
  match a with
  | ⟨0, _⟩ => show win0_6.index t (0 : Fin 1) * 50 + 1 * (y 0).val = (y 0).val; omega

theorem blk7_eq (c : Dev nD) (t : Fin cfg0.N) : (iblk0 V c 7 t : Vec Ideal S100x64 .f32) = V c main_arg15 := by
  obtain ⟨-, -, -, -, -, -, e0, e1, -⟩ := idx_whole t
  refine funext fun (y : S100x64.Idx) => ?_
  show V c main_arg15 (((cfg0.win 7).blk t).view.emb y) = V c main_arg15 y
  refine congrArg (V c main_arg15) (funext fun a => Fin.ext ?_)
  match a with
  | ⟨0, _⟩ => show win0_7.index t (0 : Fin 2) * 100 + 1 * (y 0).val = (y 0).val; omega
  | ⟨1, _⟩ => show win0_7.index t (1 : Fin 2) * 64 + 1 * (y 1).val = (y 1).val; omega

theorem blk8_eq (c : Dev nD) (t : Fin cfg0.N) : (iblk0 V c 8 t : Vec Ideal S64 .f32) = V c main_arg16 := by
  obtain ⟨-, -, -, -, -, -, -, -, e0, -⟩ := idx_whole t
  refine funext fun (y : S64.Idx) => ?_
  show V c main_arg16 (((cfg0.win 8).blk t).view.emb y) = V c main_arg16 y
  refine congrArg (V c main_arg16) (funext fun a => Fin.ext ?_)
  match a with
  | ⟨0, _⟩ => show win0_8.index t (0 : Fin 1) * 64 + 1 * (y 0).val = (y 0).val; omega

theorem blk9_eq (c : Dev nD) (t : Fin cfg0.N) : (iblk0 V c 9 t : Vec Ideal S64x50 .f32) = V c main_arg7 := by
  obtain ⟨-, -, -, -, -, -, -, -, -, e0, e1, -⟩ := idx_whole t
  refine funext fun (y : S64x50.Idx) => ?_
  show V c main_arg7 (((cfg0.win 9).blk t).view.emb y) = V c main_arg7 y
  refine congrArg (V c main_arg7) (funext fun a => Fin.ext ?_)
  match a with
  | ⟨0, _⟩ => show win0_9.index t (0 : Fin 2) * 64 + 1 * (y 0).val = (y 0).val; omega
  | ⟨1, _⟩ => show win0_9.index t (1 : Fin 2) * 50 + 1 * (y 1).val = (y 1).val; omega

theorem blk10_eq (c : Dev nD) (t : Fin cfg0.N) : (iblk0 V c 10 t : Vec Ideal S50 .f32) = V c main_arg8 := by
  obtain ⟨-, -, -, -, -, -, -, -, -, -, -, e0⟩ := idx_whole t
  refine funext fun (y : S50.Idx) => ?_
  show V c main_arg8 (((cfg0.win 10).blk t).view.emb y) = V c main_arg8 y
  refine congrArg (V c main_arg8) (funext fun a => Fin.ext ?_)
  match a with
  | ⟨0, _⟩ => show win0_10.index t (0 : Fin 1) * 50 + 1 * (y 0).val = (y 0).val; omega

/-! ## The pair output -/

/-- Point `t`'s pair-output block at a place `j = (p, q)` is the specification's array at the place of the array that `j`
    of the block is: row `2048·t + p`, column `q`. -/
theorem point11 (c : Dev nD) (t : Fin cfg0.N) (j : S2048x64.Idx) :
    out0_11 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) j
      = Cert.Spec.pairOutOf (V c main_v4) (V c main_v5) (V c main_arg1) (V c main_arg11) (V c main_arg12) (V c main_arg13)
          (V c main_arg14) (V c main_arg15) (V c main_arg16) (((cfg0.win 11).blk t).view.emb j) := by
  obtain ⟨p, q, rfl⟩ : ∃ (p : Fin 2048) (q : Fin 64), j = ix2 p q := ⟨j 0, j 1, eq_ix2 j⟩
  have ht : t.val < 64 := point_lt t
  obtain ⟨r, hr⟩ : ∃ r : Fin 131072, r.val = 2048 * t.val + p.val :=
    ⟨⟨2048 * t.val + p.val, by have := p.isLt; omega⟩, rfl⟩
  obtain ⟨-, -, -, -, -, -, e0, e1, -⟩ := idx_rows t
  refine (out0_11_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  exact pairRow_eq_pairOutOf (V c main_v4) (V c main_v5) (V c main_arg1) (V c main_arg11) (V c main_arg12) (V c main_arg13)
    (V c main_arg14) (V c main_arg15) (V c main_arg16) _ _ _ _ _ _ _ _ _ (((cfg0.win 11).blk t).view.emb (ix2 p q)) r q
    (fun k => blkU_apply V c t p k r hr) (fun k => blkV_apply V c t p k r hr) (fun k => blkP_apply V c t p k r hr)
    (blk3_eq V c t) (blk4_eq V c t) (blk5_eq V c t) (blk6_eq V c t) (blk7_eq V c t) (blk8_eq V c t)
    (Fin.ext (by show win0_11.index t (0 : Fin 2) * 2048 + 1 * p.val = r.val; omega))
    (Fin.ext (by show win0_11.index t (1 : Fin 2) * 64 + 1 * q.val = q.val; omega))

/-- What point `t` writes back to the pair output is block `t` of the specification's array. -/
theorem flushed11_eq (c : Dev nD) (t : Fin cfg0.N) :
    (dat0 V c).flushed 11 t = ((cfg0.win 11).blk t).view.read (Elt Ideal)
      (Cert.Spec.pairOutOf (V c main_v4) (V c main_v5) (V c main_arg1) (V c main_arg11) (V c main_arg12) (V c main_arg13)
        (V c main_arg14) (V c main_arg15) (V c main_arg16)) := by
  show (cfg0.win 11).cut (grid0.coords t) ((dat0 V c).after 11 t) = _
  rw [after0_11]
  exact funext fun j => point11 V c t j

/-- An index of the pair output array is in point `t`'s block iff each coordinate is in the block's range on its axis. -/
theorem mem_blk11 (t : Fin cfg0.N) (i : S131072x64.Idx) :
    i ∈ ((cfg0.win 11).blk t).view.set ↔ ∀ a : Fin 2, win0_11.index t a * S2048x64.size a ≤ (i a).val ∧ (i a).val < win0_11.index t a * S2048x64.size a + S2048x64.size a := by
  show i ∈ ((View.whole main_v6_0).slice (win0_11.rect t)).set ↔ _
  rw [View.set_slice_whole, Rect.mem_set_unit]
  exact Iff.rfl

/-- Row `r` of the pair output array is in the block of point `r / 2048`, which writes back. -/
theorem cover11 (i : S131072x64.Idx) :
    ∃ t : Fin cfg0.N, (cfg0.win 11).flush t = true ∧ i ∈ ((cfg0.win 11).blk t).view.set := by
  have hi0 : (i 0).val < 131072 := (i 0).isLt
  have hi1 : (i 1).val < 64 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, e0, e1, -⟩ := idx_rows t
  refine ⟨t, flush0_11 t, ?_⟩
  rw [mem_blk11]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 64 ≤ (i 1).val ∧ (i 1).val < win0_11.index t (1 : Fin 2) * 64 + 64; omega

/-- The pair output after the region: the pair row function of every row, whatever contents `V` the region is entered from. -/
theorem arr0_11 (c : Dev nD) :
    (dat0 V c).arrAt 11 cfg0.N
      = Cert.Spec.pairOutOf (V c main_v4) (V c main_v5) (V c main_arg1) (V c main_arg11) (V c main_arg12) (V c main_arg13)
          (V c main_arg14) (V c main_arg15) (V c main_arg16) :=
  (dat0 V c).arrAt_eq_of_cover 11
    (Cert.Spec.pairOutOf (V c main_v4) (V c main_v5) (V c main_arg1) (V c main_arg11) (V c main_arg12) (V c main_arg13)
      (V c main_arg14) (V c main_arg15) (V c main_arg16))
    (fun t _ => flushed11_eq V c t) cover11

/-! ## The `PA` rows -/

/-- Point `t`'s `PA` block at a place `j = (p, q)` is the specification's array at row `2048·t + p`, column `q`. -/
theorem point12 (c : Dev nD) (t : Fin cfg0.N) (j : S2048x50.Idx) :
    out0_12 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) j
      = Cert.Spec.paRaw (V c main_arg1) (V c main_arg7) (V c main_arg8) (((cfg0.win 12).blk t).view.emb j) := by
  obtain ⟨p, q, rfl⟩ : ∃ (p : Fin 2048) (q : Fin 50), j = ix2 p q := ⟨j 0, j 1, eq_ix2 j⟩
  have ht : t.val < 64 := point_lt t
  obtain ⟨r, hr⟩ : ∃ r : Fin 131072, r.val = 2048 * t.val + p.val :=
    ⟨⟨2048 * t.val + p.val, by have := p.isLt; omega⟩, rfl⟩
  obtain ⟨-, -, -, -, -, -, -, -, e0, e1⟩ := idx_rows t
  refine (out0_12_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  exact dense_eq_paRaw (V c main_arg1) (V c main_arg7) (V c main_arg8) _ _ _ (((cfg0.win 12).blk t).view.emb (ix2 p q)) r q
    (fun k => blkP_apply V c t p k r hr) (blk9_eq V c t) (blk10_eq V c t)
    (Fin.ext (by show win0_12.index t (0 : Fin 2) * 2048 + 1 * p.val = r.val; omega))
    (Fin.ext (by show win0_12.index t (1 : Fin 2) * 50 + 1 * q.val = q.val; omega))

/-- What point `t` writes back to the `PA` array is block `t` of the specification's array. -/
theorem flushed12_eq (c : Dev nD) (t : Fin cfg0.N) :
    (dat0 V c).flushed 12 t = ((cfg0.win 12).blk t).view.read (Elt Ideal)
      (Cert.Spec.paRaw (V c main_arg1) (V c main_arg7) (V c main_arg8)) := by
  show (cfg0.win 12).cut (grid0.coords t) ((dat0 V c).after 12 t) = _
  rw [after0_12]
  exact funext fun j => point12 V c t j

/-- An index of the `PA` array is in point `t`'s block iff each coordinate is in the block's range on its axis. -/
theorem mem_blk12 (t : Fin cfg0.N) (i : S131072x50.Idx) :
    i ∈ ((cfg0.win 12).blk t).view.set ↔ ∀ a : Fin 2, win0_12.index t a * S2048x50.size a ≤ (i a).val ∧ (i a).val < win0_12.index t a * S2048x50.size a + S2048x50.size a := by
  show i ∈ ((View.whole main_v6_1).slice (win0_12.rect t)).set ↔ _
  rw [View.set_slice_whole, Rect.mem_set_unit]
  exact Iff.rfl

/-- Row `r` of the `PA` array is in the block of point `r / 2048`, which writes back. -/
theorem cover12 (i : S131072x50.Idx) :
    ∃ t : Fin cfg0.N, (cfg0.win 12).flush t = true ∧ i ∈ ((cfg0.win 12).blk t).view.set := by
  have hi0 : (i 0).val < 131072 := (i 0).isLt
  have hi1 : (i 1).val < 50 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, e0, e1⟩ := idx_rows t
  refine ⟨t, flush0_12 t, ?_⟩
  rw [mem_blk12]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 50 ≤ (i 1).val ∧ (i 1).val < win0_12.index t (1 : Fin 2) * 50 + 50; omega

/-- The `PA` rows after the region. -/
theorem arr0_12 (c : Dev nD) :
    (dat0 V c).arrAt 12 cfg0.N = Cert.Spec.paRaw (V c main_arg1) (V c main_arg7) (V c main_arg8) :=
  (dat0 V c).arrAt_eq_of_cover 12 (Cert.Spec.paRaw (V c main_arg1) (V c main_arg7) (V c main_arg8))
    (fun t _ => flushed12_eq V c t) cover12

end Cert.KernelIdeal.Val

end
-- ==== Proof.Reg1Pay.lean ====
/-
  What the atom-pool kernel's body leaves in its output block, read at one place: molecule b of the block depends only
  on molecule b's 64 atom rows and summed pair rows and on the whole weights.

  The body flattens the block's [32, 64, 256] atom rows to [2048, 256] (row 64·b + n is atom n of molecule b), runs the
  first dense layer there, goes back to [32, 64, 100], joins the 50 summed pair features on the last axis, flattens
  again for the second dense layer, and takes the softmax over the 128 clusters in the [32, 64, 128] form; the pooling is
  one batched product contracting the 64 atoms. Each step is read at explicit coordinates over variable operands, then
  the steps are chained through the body's own term.
-/
import proofs.«412404_j85959475462402_1_alg».proof.Proof.Gen.KernelIdeal.Frame
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Reg1Pay

open Cert.KernelIdeal Cert.KernelIdeal.Gen

/-! ## Rows of the flat form, and the layout steps at coordinates -/

/-- Row 64·b + n of a [2048, ·] array: atom n of the block's molecule b. -/
def row (b : Fin 32) (n : Fin 64) : Fin 2048 := ⟨b.val * 64 + n.val, by omega⟩

/-- The flat form [2048, C] of a [32, 64, C] array reads, at row 64·b + n, the array at (b, n, ·): the two places have
    the same row-major position. -/
theorem flat_apply {α : Type} {C : Nat} (v : (⟨3, ![32, 64, C]⟩ : Shape).Idx → α)
    (h : (⟨3, ![32, 64, C]⟩ : Shape).ShapeCasts ⟨2, ![2048, C]⟩) (b : Fin 32) (n : Fin 64) (k : Fin C) :
    shapeCast ⟨2, ![2048, C]⟩ v h (ix2 (row b n) k) = v (ix3 b n k) := by
  refine shapeCast_apply v h _ _ ?_
  rw [Shape.rowMajor_val_three, Shape.rowMajor_val_two]
  show (b.val * 64 + n.val) * C + k.val = (b.val * 64 + n.val) * C + k.val
  rfl

/-- Back from the flat form: (b, n, ·) of the [32, 64, C] form reads row 64·b + n. -/
theorem unflat_apply {α : Type} {C : Nat} (v : (⟨2, ![2048, C]⟩ : Shape).Idx → α)
    (h : (⟨2, ![2048, C]⟩ : Shape).ShapeCasts ⟨3, ![32, 64, C]⟩) (b : Fin 32) (n : Fin 64) (k : Fin C) :
    shapeCast ⟨3, ![32, 64, C]⟩ v h (ix3 b n k) = v (ix2 (row b n) k) := by
  refine shapeCast_apply v h _ _ ?_
  rw [Shape.rowMajor_val_three, Shape.rowMajor_val_two]
  show (b.val * 64 + n.val) * C + k.val = (b.val * 64 + n.val) * C + k.val
  rfl

/-- A bias vector [H] viewed [1, H] and repeated down R rows reads, at (r, j), the bias at j. -/
theorem biasRow_apply {α : Type} {R H : Nat} (bias : (⟨1, ![H]⟩ : Shape).Idx → α)
    (h1 : (⟨1, ![H]⟩ : Shape).ShapeCasts ⟨2, ![1, H]⟩) (h2 : (⟨2, ![1, H]⟩ : Shape).Broadcasts ⟨2, ![R, H]⟩)
    (r : Fin R) (j : Fin H) :
    broadcastTo ⟨2, ![R, H]⟩ (shapeCast ⟨2, ![1, H]⟩ bias h1) h2 (ix2 r j) = bias (ix1 j) := by
  refine (broadcastTo_apply _ h2 (ix2 r j) (ix2 (0 : Fin 1) j) (fun a => ?_)).trans ?_
  · match a with
    | ⟨0, _⟩ => rfl
    | ⟨1, _⟩ =>
      show j.val = if H = 1 then 0 else j.val
      have := j.isLt
      split <;> omega
  · refine shapeCast_apply bias h1 _ (ix1 j) ?_
    rw [Shape.rowMajor_val_two, Shape.rowMajor_val_one]
    show j.val = 0 * H + j.val
    omega

/-- A per-atom value [32, 64] viewed [32, 64, 1] and repeated along the 128 clusters reads, at (b, n, c), the value at
    (b, n). -/
theorem keep_apply {α : Type} (v : S32x64.Idx → α) (h1 : S32x64.ShapeCasts S32x64x1) (h2 : S32x64x1.Broadcasts S32x64x128)
    (b : Fin 32) (n : Fin 64) (c : Fin 128) :
    broadcastTo S32x64x128 (shapeCast S32x64x1 v h1) h2 (ix3 b n c) = v (ix2 b n) := by
  refine (broadcastTo_apply _ h2 (ix3 b n c) (ix3 b n (0 : Fin 1)) (fun a => ?_)).trans ?_
  · match a with
    | ⟨0, _⟩ => rfl
    | ⟨1, _⟩ => rfl
    | ⟨2, _⟩ => rfl
  · refine shapeCast_apply v h1 _ (ix2 b n) ?_
    rw [Shape.rowMajor_val_two, Shape.rowMajor_val_three]
    show b.val * 64 + n.val = (b.val * 64 + n.val) * 1 + 0
    omega

/-! ## The two reductions over the clusters, and the join of the two feature rows -/

/-- The maximum over the clusters at (b, n): the fold of max, from the accumulator's value, over row (b, n, ·). -/
theorem rowmax_apply (L : FVec Ideal S32x64x128 .f32) (hr : S32x64x128.Reduces [2] S32x64) (hφ : FKind.Formats .f32)
    (hacc : (0xFF800000#32 : BitVec 32) = 0xFF800000#32) (b : Fin 32) (n : Fin 64) :
    multiReduction (F := Ideal) .maximumf [2] S32x64 L 0xFF800000#32 hr hφ hacc (ix2 b n)
      = (Finset.univ : Finset (Fin 128)).fold max (Ideal.ofBits .f32 0xFF800000#32) (fun c => L (ix3 b n c)) := by
  refine (Ideal.multiReduction_maximumf_single L 0xFF800000#32 hr hφ hacc (ix2 b n)).trans ?_
  have e : (L ∘ hr.lift (ix2 b n)) = fun c : Fin 128 => L (ix3 b n c) :=
    funext fun c => congrArg L (funext fun a => Fin.ext (by
      match a with
      | ⟨0, _⟩ => rfl
      | ⟨1, _⟩ => rfl
      | ⟨2, _⟩ => rfl))
  rw [e]
  rfl

/-- The sum over the clusters at (b, n): the sum of row (b, n, ·). -/
theorem rowsum_apply (L : FVec Ideal S32x64x128 .f32) (hr : S32x64x128.Reduces [2] S32x64) (hφ : FKind.Formats .f32)
    (hacc : (0x00000000#32 : BitVec 32) = 0x00000000#32) (b : Fin 32) (n : Fin 64) :
    multiReduction (F := Ideal) .add [2] S32x64 L 0x00000000#32 hr hφ hacc (ix2 b n)
      = ∑ c : Fin 128, L (ix3 b n c) := by
  refine (Ideal.multiReduction_add_single L 0x00000000#32 hr hφ hacc (ix2 b n)).trans ?_
  refine Finset.sum_congr rfl fun c _ => congrArg L (funext fun a => Fin.ext ?_)
  match a with
  | ⟨0, _⟩ => rfl
  | ⟨1, _⟩ => rfl
  | ⟨2, _⟩ => rfl

/-- The join along the last axis at (b, n, k): the 100 features of the first piece, then the 50 of the second. -/
theorem cat_apply (u : FVec Ideal S32x64x100 .f32) (w : FVec Ideal S32x64x50 .f32)
    (h : Shape.Concatenates [S32x64x100, S32x64x50] S32x64x150 2) (b : Fin 32) (n : Fin 64) (k : Fin 150) :
    concatenate S32x64x150 2 [⟨S32x64x100, u⟩, ⟨S32x64x50, w⟩] h (ix3 b n k)
      = Cert.Spec.cat (A := 100) (B := 50) (N := 150) rfl (fun j => u (ix3 b n j)) (fun j => w (ix3 b n j)) k := by
  unfold Cert.Spec.cat
  by_cases hk : k.val < 100
  · rw [dif_pos hk]
    exact concatenate_pair_apply_left 2 u w h (ix3 b n k) rfl (ix3 b n ⟨k.val, hk⟩)
      (fun a => match a with | ⟨0, _⟩ => rfl | ⟨1, _⟩ => rfl | ⟨2, _⟩ => rfl)
  · rw [dif_neg hk]
    exact concatenate_pair_apply_right 2 u w h (ix3 b n k) rfl rfl (ix3 b n ⟨k.val - 100, by omega⟩)
      (fun a ha => match a, ha with
        | ⟨0, _⟩, _ => rfl
        | ⟨1, _⟩, _ => rfl
        | ⟨2, _⟩, ha => absurd rfl ha)
      (by show k.val - 100 + 100 = k.val; omega)

/-- The exponential at a place. -/
theorem exp_apply {s : Shape} {φ : FTy} (a : FVec Ideal s φ) (i : s.Idx) : exp a i = Ideal.exp (a i) := rfl

/-! ## The three products at coordinates -/

/-! ### The first layer's product, [2048, 256] × [256, 100] -/

theorem lhs_mmAA_0 (i : S2048x100.Idx) (q : dot_S2048x256_S256x100_S2048x100_1_0_0_1_n_n.contr.Idx) :
    (dot_S2048x256_S256x100_S2048x100_1_0_0_1_n_n.lhsIdx i q 0).val = (i 0).val := by
  unfold DotDims.lhsIdx
  rw [dif_neg (show ¬(0 : Fin S2048x256.rank) ∈ dot_S2048x256_S256x100_S2048x100_1_0_0_1_n_n.lhsBatch by decide), dif_pos (show (0 : Fin S2048x256.rank) ∈ dot_S2048x256_S256x100_S2048x100_1_0_0_1_n_n.lhsNonContracting by decide)]
  rfl
theorem lhs_mmAA_1 (i : S2048x100.Idx) (q : dot_S2048x256_S256x100_S2048x100_1_0_0_1_n_n.contr.Idx) :
    (dot_S2048x256_S256x100_S2048x100_1_0_0_1_n_n.lhsIdx i q 1).val = (q ⟨0, by decide⟩).val :=
  dot_S2048x256_S256x100_S2048x100_1_0_0_1_n_n.lhsIdx_val_of_single rfl i q
theorem rhs_mmAA_0 (i : S2048x100.Idx) (q : dot_S2048x256_S256x100_S2048x100_1_0_0_1_n_n.contr.Idx) :
    (dot_S2048x256_S256x100_S2048x100_1_0_0_1_n_n.rhsIdx i q 0).val = (q ⟨0, by decide⟩).val :=
  dot_S2048x256_S256x100_S2048x100_1_0_0_1_n_n.rhsIdx_val_of_single rfl i q
theorem rhs_mmAA_1 (i : S2048x100.Idx) (q : dot_S2048x256_S256x100_S2048x100_1_0_0_1_n_n.contr.Idx) :
    (dot_S2048x256_S256x100_S2048x100_1_0_0_1_n_n.rhsIdx i q 1).val = (i 1).val := by
  unfold DotDims.rhsIdx
  rw [dif_neg (show ¬(1 : Fin S256x100.rank) ∈ dot_S2048x256_S256x100_S2048x100_1_0_0_1_n_n.rhsBatch by decide), dif_pos (show (1 : Fin S256x100.rank) ∈ dot_S2048x256_S256x100_S2048x100_1_0_0_1_n_n.rhsNonContracting by decide)]
  rfl

/-- The product into the zero accumulator at (r, j): the sum over the 256 contracted places of row r of the left operand
    times column j of the right one. -/
theorem mmAA_apply (A : FVec Ideal S2048x256 .bf16) (W : FVec Ideal S256x100 .bf16) (r : Fin 2048) (j : Fin 100) :
    matmul dot_S2048x256_S256x100_S2048x100_1_0_0_1_n_n none A W (constant S2048x100 .f32 0x00000000#32) (ix2 r j)
      = ∑ k : Fin 256, A (ix2 r k) * W (ix2 k j) := by
  refine (Ideal.matmul_constant_zero_apply dot_S2048x256_S256x100_S2048x100_1_0_0_1_n_n none A W (ix2 r j)).trans ?_
  rw [← Equiv.sum_comp (contrEquiv1 dot_S2048x256_S256x100_S2048x100_1_0_0_1_n_n 256 rfl rfl).symm]
  refine Finset.sum_congr rfl fun k _ => ?_
  have hk := contrEquiv1_symm_val dot_S2048x256_S256x100_S2048x100_1_0_0_1_n_n 256 rfl rfl k
  have el : dot_S2048x256_S256x100_S2048x100_1_0_0_1_n_n.lhsIdx (ix2 r j) ((contrEquiv1 dot_S2048x256_S256x100_S2048x100_1_0_0_1_n_n 256 rfl rfl).symm k) = ix2 r k := funext fun a => Fin.ext (by
    match a with
    | ⟨0, _⟩ => exact lhs_mmAA_0 _ _
    | ⟨1, _⟩ => exact (lhs_mmAA_1 _ _).trans hk)
  have er : dot_S2048x256_S256x100_S2048x100_1_0_0_1_n_n.rhsIdx (ix2 r j) ((contrEquiv1 dot_S2048x256_S256x100_S2048x100_1_0_0_1_n_n 256 rfl rfl).symm k) = ix2 k j := funext fun a => Fin.ext (by
    match a with
    | ⟨0, _⟩ => exact (rhs_mmAA_0 _ _).trans hk
    | ⟨1, _⟩ => exact rhs_mmAA_1 _ _)
  rw [el, er]

/-! ### The second layer's product, [2048, 150] × [150, 128] -/

theorem lhs_mmAO_0 (i : S2048x128.Idx) (q : dot_S2048x150_S150x128_S2048x128_1_0_0_1_n_n.contr.Idx) :
    (dot_S2048x150_S150x128_S2048x128_1_0_0_1_n_n.lhsIdx i q 0).val = (i 0).val := by
  unfold DotDims.lhsIdx
  rw [dif_neg (show ¬(0 : Fin S2048x150.rank) ∈ dot_S2048x150_S150x128_S2048x128_1_0_0_1_n_n.lhsBatch by decide), dif_pos (show (0 : Fin S2048x150.rank) ∈ dot_S2048x150_S150x128_S2048x128_1_0_0_1_n_n.lhsNonContracting by decide)]
  rfl
theorem lhs_mmAO_1 (i : S2048x128.Idx) (q : dot_S2048x150_S150x128_S2048x128_1_0_0_1_n_n.contr.Idx) :
    (dot_S2048x150_S150x128_S2048x128_1_0_0_1_n_n.lhsIdx i q 1).val = (q ⟨0, by decide⟩).val :=
  dot_S2048x150_S150x128_S2048x128_1_0_0_1_n_n.lhsIdx_val_of_single rfl i q
theorem rhs_mmAO_0 (i : S2048x128.Idx) (q : dot_S2048x150_S150x128_S2048x128_1_0_0_1_n_n.contr.Idx) :
    (dot_S2048x150_S150x128_S2048x128_1_0_0_1_n_n.rhsIdx i q 0).val = (q ⟨0, by decide⟩).val :=
  dot_S2048x150_S150x128_S2048x128_1_0_0_1_n_n.rhsIdx_val_of_single rfl i q
theorem rhs_mmAO_1 (i : S2048x128.Idx) (q : dot_S2048x150_S150x128_S2048x128_1_0_0_1_n_n.contr.Idx) :
    (dot_S2048x150_S150x128_S2048x128_1_0_0_1_n_n.rhsIdx i q 1).val = (i 1).val := by
  unfold DotDims.rhsIdx
  rw [dif_neg (show ¬(1 : Fin S150x128.rank) ∈ dot_S2048x150_S150x128_S2048x128_1_0_0_1_n_n.rhsBatch by decide), dif_pos (show (1 : Fin S150x128.rank) ∈ dot_S2048x150_S150x128_S2048x128_1_0_0_1_n_n.rhsNonContracting by decide)]
  rfl

/-- The product into the zero accumulator at (r, j): the sum over the 150 contracted places of row r of the left operand
    times column j of the right one. -/
theorem mmAO_apply (A : FVec Ideal S2048x150 .bf16) (W : FVec Ideal S150x128 .bf16) (r : Fin 2048) (j : Fin 128) :
    matmul dot_S2048x150_S150x128_S2048x128_1_0_0_1_n_n none A W (constant S2048x128 .f32 0x00000000#32) (ix2 r j)
      = ∑ k : Fin 150, A (ix2 r k) * W (ix2 k j) := by
  refine (Ideal.matmul_constant_zero_apply dot_S2048x150_S150x128_S2048x128_1_0_0_1_n_n none A W (ix2 r j)).trans ?_
  rw [← Equiv.sum_comp (contrEquiv1 dot_S2048x150_S150x128_S2048x128_1_0_0_1_n_n 150 rfl rfl).symm]
  refine Finset.sum_congr rfl fun k _ => ?_
  have hk := contrEquiv1_symm_val dot_S2048x150_S150x128_S2048x128_1_0_0_1_n_n 150 rfl rfl k
  have el : dot_S2048x150_S150x128_S2048x128_1_0_0_1_n_n.lhsIdx (ix2 r j) ((contrEquiv1 dot_S2048x150_S150x128_S2048x128_1_0_0_1_n_n 150 rfl rfl).symm k) = ix2 r k := funext fun a => Fin.ext (by
    match a with
    | ⟨0, _⟩ => exact lhs_mmAO_0 _ _
    | ⟨1, _⟩ => exact (lhs_mmAO_1 _ _).trans hk)
  have er : dot_S2048x150_S150x128_S2048x128_1_0_0_1_n_n.rhsIdx (ix2 r j) ((contrEquiv1 dot_S2048x150_S150x128_S2048x128_1_0_0_1_n_n 150 rfl rfl).symm k) = ix2 k j := funext fun a => Fin.ext (by
    match a with
    | ⟨0, _⟩ => exact (rhs_mmAO_0 _ _).trans hk
    | ⟨1, _⟩ => exact rhs_mmAO_1 _ _)
  rw [el, er]

/-! ### The pooling product, batched over the 32 molecules and contracting the 64 atoms -/

theorem lhs_mmPool_0 (i : S32x128x256.Idx) (q : dot_S32x64x128_S32x64x256_S32x128x256_1_1_2_2_0_0.contr.Idx) :
    (dot_S32x64x128_S32x64x256_S32x128x256_1_1_2_2_0_0.lhsIdx i q 0).val = (i 0).val := by
  unfold DotDims.lhsIdx
  rw [dif_pos (show (0 : Fin S32x64x128.rank) ∈ dot_S32x64x128_S32x64x256_S32x128x256_1_1_2_2_0_0.lhsBatch by decide)]
  rfl
theorem lhs_mmPool_1 (i : S32x128x256.Idx) (q : dot_S32x64x128_S32x64x256_S32x128x256_1_1_2_2_0_0.contr.Idx) :
    (dot_S32x64x128_S32x64x256_S32x128x256_1_1_2_2_0_0.lhsIdx i q 1).val = (q ⟨0, by decide⟩).val :=
  dot_S32x64x128_S32x64x256_S32x128x256_1_1_2_2_0_0.lhsIdx_val_of_single rfl i q
theorem lhs_mmPool_2 (i : S32x128x256.Idx) (q : dot_S32x64x128_S32x64x256_S32x128x256_1_1_2_2_0_0.contr.Idx) :
    (dot_S32x64x128_S32x64x256_S32x128x256_1_1_2_2_0_0.lhsIdx i q 2).val = (i 1).val := by
  unfold DotDims.lhsIdx
  rw [dif_neg (show ¬(2 : Fin S32x64x128.rank) ∈ dot_S32x64x128_S32x64x256_S32x128x256_1_1_2_2_0_0.lhsBatch by decide), dif_pos (show (2 : Fin S32x64x128.rank) ∈ dot_S32x64x128_S32x64x256_S32x128x256_1_1_2_2_0_0.lhsNonContracting by decide)]
  rfl
theorem rhs_mmPool_0 (i : S32x128x256.Idx) (q : dot_S32x64x128_S32x64x256_S32x128x256_1_1_2_2_0_0.contr.Idx) :
    (dot_S32x64x128_S32x64x256_S32x128x256_1_1_2_2_0_0.rhsIdx i q 0).val = (i 0).val := by
  unfold DotDims.rhsIdx
  rw [dif_pos (show (0 : Fin S32x64x256.rank) ∈ dot_S32x64x128_S32x64x256_S32x128x256_1_1_2_2_0_0.rhsBatch by decide)]
  rfl
theorem rhs_mmPool_1 (i : S32x128x256.Idx) (q : dot_S32x64x128_S32x64x256_S32x128x256_1_1_2_2_0_0.contr.Idx) :
    (dot_S32x64x128_S32x64x256_S32x128x256_1_1_2_2_0_0.rhsIdx i q 1).val = (q ⟨0, by decide⟩).val :=
  dot_S32x64x128_S32x64x256_S32x128x256_1_1_2_2_0_0.rhsIdx_val_of_single rfl i q
theorem rhs_mmPool_2 (i : S32x128x256.Idx) (q : dot_S32x64x128_S32x64x256_S32x128x256_1_1_2_2_0_0.contr.Idx) :
    (dot_S32x64x128_S32x64x256_S32x128x256_1_1_2_2_0_0.rhsIdx i q 2).val = (i 2).val := by
  unfold DotDims.rhsIdx
  rw [dif_neg (show ¬(2 : Fin S32x64x256.rank) ∈ dot_S32x64x128_S32x64x256_S32x128x256_1_1_2_2_0_0.rhsBatch by decide), dif_pos (show (2 : Fin S32x64x256.rank) ∈ dot_S32x64x128_S32x64x256_S32x128x256_1_1_2_2_0_0.rhsNonContracting by decide)]
  rfl

/-- The batched product into the zero accumulator at (b, cc, d): the sum over molecule b's 64 atoms of the left operand
    at (b, n, cc) times the right one at (b, n, d). -/
theorem mmPool_apply (P : FVec Ideal S32x64x128 .bf16) (X : FVec Ideal S32x64x256 .bf16) (b : Fin 32) (cc : Fin 128) (d : Fin 256) :
    matmul dot_S32x64x128_S32x64x256_S32x128x256_1_1_2_2_0_0 none P X (constant S32x128x256 .f32 0x00000000#32) (ix3 b cc d)
      = ∑ n : Fin 64, P (ix3 b n cc) * X (ix3 b n d) := by
  refine (Ideal.matmul_constant_zero_apply dot_S32x64x128_S32x64x256_S32x128x256_1_1_2_2_0_0 none P X (ix3 b cc d)).trans ?_
  rw [← Equiv.sum_comp (contrEquiv1 dot_S32x64x128_S32x64x256_S32x128x256_1_1_2_2_0_0 64 rfl rfl).symm]
  refine Finset.sum_congr rfl fun n _ => ?_
  have hk := contrEquiv1_symm_val dot_S32x64x128_S32x64x256_S32x128x256_1_1_2_2_0_0 64 rfl rfl n
  have el : dot_S32x64x128_S32x64x256_S32x128x256_1_1_2_2_0_0.lhsIdx (ix3 b cc d) ((contrEquiv1 dot_S32x64x128_S32x64x256_S32x128x256_1_1_2_2_0_0 64 rfl rfl).symm n) = ix3 b n cc := funext fun a => Fin.ext (by
    match a with
    | ⟨0, _⟩ => exact lhs_mmPool_0 _ _
    | ⟨1, _⟩ => exact (lhs_mmPool_1 _ _).trans hk
    | ⟨2, _⟩ => exact lhs_mmPool_2 _ _)
  have er : dot_S32x64x128_S32x64x256_S32x128x256_1_1_2_2_0_0.rhsIdx (ix3 b cc d) ((contrEquiv1 dot_S32x64x128_S32x64x256_S32x128x256_1_1_2_2_0_0 64 rfl rfl).symm n) = ix3 b n d := funext fun a => Fin.ext (by
    match a with
    | ⟨0, _⟩ => exact rhs_mmPool_0 _ _
    | ⟨1, _⟩ => exact (rhs_mmPool_1 _ _).trans hk
    | ⟨2, _⟩ => exact rhs_mmPool_2 _ _)
  rw [el, er]

/-! ## The two dense layers in flat form -/

/-- The first layer in flat form at (r, j): the dense layer of row r of the input. -/
theorem denseAA_apply (A : FVec Ideal S2048x256 .bf16) (W : Vec Ideal S256x100 .f32) (bias : Vec Ideal S100 .f32)
    (hb : FTy.bits .bf16 < FTy.bits .f32) (h1 : S100.ShapeCasts S1x100) (h2 : S1x100.Broadcasts S2048x100) (r : Fin 2048) (j : Fin 100) :
    maximumf (addf (matmul dot_S2048x256_S256x100_S2048x100_1_0_0_1_n_n none A (truncf .bf16 W hb) (constant S2048x100 .f32 0x00000000#32))
        (broadcastTo S2048x100 (shapeCast S1x100 bias h1) h2)) (broadcast S2048x100 (Scalar.ofBits (F := Ideal) .f32 0x00000000#32)) (ix2 r j)
      = Cert.Spec.dense (fun k => A (ix2 r k)) W bias j := by
  rw [maximumf_apply, addf_apply, broadcast_apply, mmAA_apply, biasRow_apply]
  simp only [truncf_apply]
  show max _ (Ideal.ofBits .f32 0x00000000#32) = _
  rw [Ideal.ofBits_zero_f32]
  rfl

/-- The second layer in flat form at (r, j): the dense layer of row r of the input. -/
theorem denseAO_apply (A : FVec Ideal S2048x150 .bf16) (W : Vec Ideal S150x128 .f32) (bias : Vec Ideal S128 .f32)
    (hb : FTy.bits .bf16 < FTy.bits .f32) (h1 : S128.ShapeCasts S1x128) (h2 : S1x128.Broadcasts S2048x128) (r : Fin 2048) (j : Fin 128) :
    maximumf (addf (matmul dot_S2048x150_S150x128_S2048x128_1_0_0_1_n_n none A (truncf .bf16 W hb) (constant S2048x128 .f32 0x00000000#32))
        (broadcastTo S2048x128 (shapeCast S1x128 bias h1) h2)) (broadcast S2048x128 (Scalar.ofBits (F := Ideal) .f32 0x00000000#32)) (ix2 r j)
      = Cert.Spec.dense (fun k => A (ix2 r k)) W bias j := by
  rw [maximumf_apply, addf_apply, broadcast_apply, mmAO_apply, biasRow_apply]
  simp only [truncf_apply]
  show max _ (Ideal.ofBits .f32 0x00000000#32) = _
  rw [Ideal.ofBits_zero_f32]
  rfl

/-! ## The body's values -/

/-- The atom rows as the products take them: the format change is the identity on extended reals. -/
theorem pay2_apply (x0 : Vec Ideal S32x64x256 .f32) (i : S32x64x256.Idx) : k1_pay2 x0 i = x0 i := by
  unfold k1_pay2
  simp only [truncf_apply, shapeCast_self]

/-- The assignment weights at (b, n, c): the softmax of atom (b, n)'s logits, which are the two dense layers of its
    feature row joined with its summed pair row. -/
theorem pay3_apply (x0 : Vec Ideal S32x64x256 .f32) (x1 : Vec Ideal S32x64x50 .f32) (x2 : Vec Ideal S256x100 .f32) (x3 : Vec Ideal S100 .f32)
    (x4 : Vec Ideal S150x128 .f32) (x5 : Vec Ideal S128 .f32) (b : Fin 32) (n : Fin 64) (c : Fin 128) :
    k1_pay3 x0 x2 x3 x1 x4 x5 (ix3 b n c)
      = Cert.Spec.softmax (Cert.Spec.logitRow (fun k => x0 (ix3 b n k)) (fun h => x1 (ix3 b n h)) x2 x3 x4 x5) c := by
  unfold k1_pay3
  simp only [divf_apply, exp_apply, subf_apply, keep_apply, maximumf_apply, broadcast_apply]
  rw [rowsum_apply]
  simp only [exp_apply, subf_apply, keep_apply, maximumf_apply, broadcast_apply]
  rw [rowmax_apply]
  simp only [unflat_apply, denseAO_apply, flat_apply, truncf_apply, cat_apply, denseAA_apply, pay2_apply, shapeCast_self]
  rfl

end Cert.KernelIdeal.Reg1Pay

namespace Cert.KernelIdeal.Val

open Cert.KernelIdeal Cert.KernelIdeal.Gen Cert.KernelIdeal.Reg1Pay

/-- The pooled block at (b, cc, d): molecule b's pooling of its 64 atoms. -/
theorem out1_6_apply (x0 : Vec Ideal S32x64x256 .f32) (x1 : Vec Ideal S32x64x50 .f32) (x2 : Vec Ideal S256x100 .f32) (x3 : Vec Ideal S100 .f32)
    (x4 : Vec Ideal S150x128 .f32) (x5 : Vec Ideal S128 .f32) (b : Fin 32) (cc : Fin 128) (d : Fin 256) :
    out1_6 x0 x1 x2 x3 x4 x5 (ix3 b cc d)
      = Cert.Spec.poolAt (fun n k => x0 (ix3 b n k)) (fun n h => x1 (ix3 b n h)) x2 x3 x4 x5 cc d := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  unfold out1_6
  rw [View.canon_unit_zero hz3]
  simp only [View.ld_unit_zero (S := S32x64x256) hz3, View.ld_unit_zero (S := S32x64x50) hz3,
    View.ld_unit_zero (S := S256x100) hz2, View.ld_unit_zero (S := S150x128) hz2,
    View.ld_unit_zero (S := S100) hz1, View.ld_unit_zero (S := S128) hz1]
  unfold k1_pay1
  refine (mmPool_apply _ _ b cc d).trans ?_
  unfold Cert.Spec.poolAt
  refine Finset.sum_congr rfl fun n _ => ?_
  rw [truncf_apply, pay3_apply, pay2_apply]

end Cert.KernelIdeal.Val

end
-- ==== Proof.Reg1Arr.lean ====
/-
  From the atom-pool kernel's blocks to its output array: grid point `t` writes molecules `32·t … 32·t + 31`, each a
  function of the same molecule's atom rows and summed pair rows, and the 8 points cover all 256 molecules.
-/
import proofs.«412404_j85959475462402_1_alg».proof.Proof.Reg1Pay
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

namespace AtomPool

/-! ## The arrays the region reads, each under its literal type -/

/-- The atom features, molecule by molecule: `[256, 64, 256]`. -/
abbrev atomsArr (c : Dev nD) : FVec Ideal S256x64x256 .f32 := V c main_v10
/-- The per-atom summed pair rows, molecule by molecule: `[256, 64, 50]`. -/
abbrev pairSumArr (c : Dev nD) : FVec Ideal S256x64x50 .f32 := V c main_v11
/-- The weight of the atom-to-atom layer. -/
abbrev waaArr (c : Dev nD) : FVec Ideal S256x100 .f32 := V c main_arg5
/-- Its bias. -/
abbrev baaArr (c : Dev nD) : FVec Ideal S100 .f32 := V c main_arg6
/-- The weight of the assignment layer. -/
abbrev waoArr (c : Dev nD) : FVec Ideal S150x128 .f32 := V c main_arg9
/-- Its bias. -/
abbrev baoArr (c : Dev nD) : FVec Ideal S128 .f32 := V c main_arg10

/-- The pooled array: every molecule's pooling of its 64 atoms. -/
abbrev pooledArr (c : Dev nD) : FVec Ideal S256x128x256 .f32 :=
  Cert.Spec.pooled3 (atomsArr V c) (pairSumArr V c) (waaArr V c) (baaArr V c) (waoArr V c) (baoArr V c)

/-! ## A block of 32 molecules is 32 molecules of the whole -/

/-- If the two moving blocks are molecules `32·T … 32·T + 31` of the atom rows and of the summed pair rows, and the
    four weight blocks are the whole weights, the body's block at `(b, cc, d)` is the pooled array at molecule
    `32·T + b`: the pooling of a molecule reads that molecule's rows only. -/
theorem pool_block (X : FVec Ideal S256x64x256 .f32) (P : FVec Ideal S256x64x50 .f32)
    (W2 : FVec Ideal S256x100 .f32) (W3 : FVec Ideal S100 .f32) (W4 : FVec Ideal S150x128 .f32) (W5 : FVec Ideal S128 .f32)
    (x0 : Vec Ideal S32x64x256 .f32) (x1 : Vec Ideal S32x64x50 .f32) (x2 : Vec Ideal S256x100 .f32) (x3 : Vec Ideal S100 .f32)
    (x4 : Vec Ideal S150x128 .f32) (x5 : Vec Ideal S128 .f32) (T : Nat) (hT : T < 8)
    (h0 : ∀ (b : Fin 32) (n : Fin 64) (k : Fin 256), x0 (ix3 b n k) = X (ix3 (⟨T * 32 + b.val, by omega⟩ : Fin 256) n k))
    (h1 : ∀ (b : Fin 32) (n : Fin 64) (h : Fin 50), x1 (ix3 b n h) = P (ix3 (⟨T * 32 + b.val, by omega⟩ : Fin 256) n h))
    (h2 : x2 = W2) (h3 : x3 = W3) (h4 : x4 = W4) (h5 : x5 = W5)
    (b : Fin 32) (cc : Fin 128) (d : Fin 256) :
    out1_6 x0 x1 x2 x3 x4 x5 (ix3 b cc d)
      = Cert.Spec.pooled3 X P W2 W3 W4 W5 (ix3 (⟨T * 32 + b.val, by omega⟩ : Fin 256) cc d) := by
  subst h2 h3 h4 h5
  rw [out1_6_apply]
  show Cert.Spec.poolAt _ _ x2 x3 x4 x5 cc d = Cert.Spec.poolAt _ _ x2 x3 x4 x5 cc d
  congr 1
  · funext n k; exact h0 b n k
  · funext n h; exact h1 b n h

/-! ## The index maps over the grid -/

/-- The three moving windows (atom rows, summed pair rows, output) sit at block `t` along the molecules and at block 0
    along the other two axes; the four weight windows sit at block 0 on every axis. Decided over the 8 points. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 3) = t.val ∧ win1_6.index t (1 : Fin 3) = 0 ∧ win1_6.index t (2 : Fin 3) = 0) :=
  (by decide +kernel : ∀ t : Fin grid1.N, _)

/-- A point's number is below 8. -/
theorem point_lt (t : Fin cfg1.N) : t.val < 8 := by
  have hN : cfg1.N = 8 := N_1
  have := t.isLt
  omega

/-! ## Each input block, read off its array -/

/-- The atom-row block at point `t` is molecules `32·t … 32·t + 31` of the atom rows. -/
theorem iblk_atoms (c : Dev nD) (t : Fin cfg1.N) (b : Fin 32) (n : Fin 64) (k : Fin 256) :
    (iblk1 V c 0 t : Vec Ideal S32x64x256 .f32) (ix3 b n k)
      = atomsArr V c (ix3 (⟨t.val * 32 + b.val, by have := point_lt t; omega⟩ : Fin 256) n k) := by
  obtain ⟨⟨e0, e1, e2⟩, -⟩ := idx_facts t
  unfold iblk1
  rw [View.read_apply]
  show V c main_v10 _ = V c main_v10 _
  congr 1
  funext a
  apply Fin.ext
  match a with
  | ⟨0, _⟩ => show win1_0.index t (0 : Fin 3) * 32 + 1 * b.val = t.val * 32 + b.val; omega
  | ⟨1, _⟩ => show win1_0.index t (1 : Fin 3) * 64 + 1 * n.val = n.val; omega
  | ⟨2, _⟩ => show win1_0.index t (2 : Fin 3) * 256 + 1 * k.val = k.val; omega

/-- The pair-sum block at point `t` is molecules `32·t … 32·t + 31` of the summed pair rows. -/
theorem iblk_pairSum (c : Dev nD) (t : Fin cfg1.N) (b : Fin 32) (n : Fin 64) (h : Fin 50) :
    (iblk1 V c 1 t : Vec Ideal S32x64x50 .f32) (ix3 b n h)
      = pairSumArr V c (ix3 (⟨t.val * 32 + b.val, by have := point_lt t; omega⟩ : Fin 256) n h) := by
  obtain ⟨-, ⟨e0, e1, e2⟩, -⟩ := idx_facts t
  unfold iblk1
  rw [View.read_apply]
  show V c main_v11 _ = V c main_v11 _
  congr 1
  funext a
  apply Fin.ext
  match a with
  | ⟨0, _⟩ => show win1_1.index t (0 : Fin 3) * 32 + 1 * b.val = t.val * 32 + b.val; omega
  | ⟨1, _⟩ => show win1_1.index t (1 : Fin 3) * 64 + 1 * n.val = n.val; omega
  | ⟨2, _⟩ => show win1_1.index t (2 : Fin 3) * 50 + 1 * h.val = h.val; omega

/-- The block of the atom-to-atom weight is the whole weight at every point. -/
theorem iblk_waa (c : Dev nD) (t : Fin cfg1.N) : (iblk1 V c 2 t : Vec Ideal S256x100 .f32) = waaArr V c := by
  obtain ⟨-, -, ⟨e0, e1⟩, -⟩ := idx_facts t
  funext y
  obtain ⟨p, q, rfl⟩ : ∃ (p : Fin 256) (q : Fin 100), y = ix2 p q := ⟨y 0, y 1, eq_ix2 y⟩
  unfold iblk1
  rw [View.read_apply]
  show V c main_arg5 _ = V c main_arg5 _
  congr 1
  funext a
  apply Fin.ext
  match a with
  | ⟨0, _⟩ => show win1_2.index t (0 : Fin 2) * 256 + 1 * p.val = p.val; omega
  | ⟨1, _⟩ => show win1_2.index t (1 : Fin 2) * 100 + 1 * q.val = q.val; omega

/-- The block of its bias is the whole bias at every point. -/
theorem iblk_baa (c : Dev nD) (t : Fin cfg1.N) : (iblk1 V c 3 t : Vec Ideal S100 .f32) = baaArr V c := by
  obtain ⟨-, -, -, e0, -⟩ := idx_facts t
  funext y
  obtain ⟨p, rfl⟩ : ∃ (p : Fin 100), y = ix1 p := ⟨y 0, eq_ix1 y⟩
  unfold iblk1
  rw [View.read_apply]
  show V c main_arg6 _ = V c main_arg6 _
  congr 1
  funext a
  apply Fin.ext
  match a with
  | ⟨0, _⟩ => show win1_3.index t (0 : Fin 1) * 100 + 1 * p.val = p.val; omega

/-- The block of the assignment weight is the whole weight at every point. -/
theorem iblk_wao (c : Dev nD) (t : Fin cfg1.N) : (iblk1 V c 4 t : Vec Ideal S150x128 .f32) = waoArr V c := by
  obtain ⟨-, -, -, -, ⟨e0, e1⟩, -⟩ := idx_facts t
  funext y
  obtain ⟨p, q, rfl⟩ : ∃ (p : Fin 150) (q : Fin 128), y = ix2 p q := ⟨y 0, y 1, eq_ix2 y⟩
  unfold iblk1
  rw [View.read_apply]
  show V c main_arg9 _ = V c main_arg9 _
  congr 1
  funext a
  apply Fin.ext
  match a with
  | ⟨0, _⟩ => show win1_4.index t (0 : Fin 2) * 150 + 1 * p.val = p.val; omega
  | ⟨1, _⟩ => show win1_4.index t (1 : Fin 2) * 128 + 1 * q.val = q.val; omega

/-- The block of its bias is the whole bias at every point. -/
theorem iblk_bao (c : Dev nD) (t : Fin cfg1.N) : (iblk1 V c 5 t : Vec Ideal S128 .f32) = baoArr V c := by
  obtain ⟨-, -, -, -, -, e0, -⟩ := idx_facts t
  funext y
  obtain ⟨p, rfl⟩ : ∃ (p : Fin 128), y = ix1 p := ⟨y 0, eq_ix1 y⟩
  unfold iblk1
  rw [View.read_apply]
  show V c main_arg10 _ = V c main_arg10 _
  congr 1
  funext a
  apply Fin.ext
  match a with
  | ⟨0, _⟩ => show win1_5.index t (0 : Fin 1) * 128 + 1 * p.val = p.val; omega

/-! ## What a point writes back -/

/-- Point `t` writes back block `t` of the pooled array. -/
theorem flushed_eq (c : Dev nD) (t : Fin cfg1.N) :
    (dat1 V c).flushed 6 t = ((cfg1.win 6).blk t).view.read (Elt Ideal) (pooledArr V c) := by
  show (cfg1.win 6).cut (grid1.coords t) ((dat1 V c).after 6 t) = _
  rw [after1_6]
  obtain ⟨-, -, -, -, -, -, ⟨e0, e1, e2⟩⟩ := idx_facts t
  have ht : t.val < 8 := point_lt t
  funext j
  obtain ⟨b, cc, d, rfl⟩ : ∃ (b : Fin 32) (cc : Fin 128) (d : Fin 256), j = ix3 b cc d := ⟨j 0, j 1, j 2, eq_ix3 j⟩
  rw [View.read_apply]
  have hemb : ((cfg1.win 6).blk t).view.emb (ix3 b cc d) = (ix3 (⟨t.val * 32 + b.val, by omega⟩ : Fin 256) cc d : S256x128x256.Idx) := by
    funext a
    apply Fin.ext
    match a with
    | ⟨0, _⟩ => show win1_6.index t (0 : Fin 3) * 32 + 1 * b.val = t.val * 32 + b.val; omega
    | ⟨1, _⟩ => show win1_6.index t (1 : Fin 3) * 128 + 1 * cc.val = cc.val; omega
    | ⟨2, _⟩ => show win1_6.index t (2 : Fin 3) * 256 + 1 * d.val = d.val; omega
  rw [hemb]
  exact pool_block (atomsArr V c) (pairSumArr V c) (waaArr V c) (baaArr V c) (waoArr V c) (baoArr V c)
    (iblk1 V c 0 t) (iblk1 V c 1 t) (iblk1 V c 2 t) (iblk1 V c 3 t) (iblk1 V c 4 t) (iblk1 V c 5 t) t.val ht
    (fun b n k => iblk_atoms V c t b n k) (fun b n h => iblk_pairSum V c t b n h)
    (iblk_waa V c t) (iblk_baa V c t) (iblk_wao V c t) (iblk_bao V c t) b cc d

/-! ## The blocks cover the array -/

/-- An index of the output array is in point `t`'s block iff each coordinate is in the block's range on its axis. -/
theorem mem_blk (t : Fin cfg1.N) (i : S256x128x256.Idx) :
    i ∈ ((cfg1.win 6).blk t).view.set
      ↔ ∀ a : Fin 3, win1_6.index t a * S32x128x256.size a ≤ (i a).val
          ∧ (i a).val < win1_6.index t a * S32x128x256.size a + S32x128x256.size a := by
  show i ∈ ((View.whole main_v12).slice (win1_6.rect t)).set ↔ _
  rw [View.set_slice_whole, Rect.mem_set_unit]
  exact Iff.rfl

/-- Molecule `m` is in the block of point `m / 32`, which is written back. -/
theorem cover (i : S256x128x256.Idx) :
    ∃ t : Fin cfg1.N, (cfg1.win 6).flush t = true ∧ i ∈ ((cfg1.win 6).blk t).view.set := by
  have hi0 : (i 0).val < 256 := (i 0).isLt
  have hi1 : (i 1).val < 128 := (i 1).isLt
  have hi2 : (i 2).val < 256 := (i 2).isLt
  have hN : cfg1.N = 8 := N_1
  obtain ⟨t, ht⟩ : ∃ t : Fin cfg1.N, t.val = (i 0).val / 32 := ⟨⟨(i 0).val / 32, by rw [hN]; omega⟩, rfl⟩
  obtain ⟨-, -, -, -, -, -, ⟨e0, e1, e2⟩⟩ := idx_facts t
  refine ⟨t, flush1_6 t, ?_⟩
  rw [mem_blk]
  intro a
  match a with
  | ⟨0, _⟩ => show win1_6.index t (0 : Fin 3) * 32 ≤ (i 0).val ∧ (i 0).val < win1_6.index t (0 : Fin 3) * 32 + 32; omega
  | ⟨1, _⟩ => show win1_6.index t (1 : Fin 3) * 128 ≤ (i 1).val ∧ (i 1).val < win1_6.index t (1 : Fin 3) * 128 + 128; omega
  | ⟨2, _⟩ => show win1_6.index t (2 : Fin 3) * 256 ≤ (i 2).val ∧ (i 2).val < win1_6.index t (2 : Fin 3) * 256 + 256; omega

end AtomPool

/-! ## The array after the region -/

/-- The pooled array after the region, whatever contents `V` the region is entered from. -/
theorem arr1_6 (c : Dev nD) :
    (dat1 V c).arrAt 6 cfg1.N
      = Cert.Spec.pooled3 (V c main_v10) (V c main_v11) (V c main_arg5) (V c main_arg6) (V c main_arg9) (V c main_arg10) :=
  (dat1 V c).arrAt_eq_of_cover 6 (AtomPool.pooledArr V c) (fun t _ => AtomPool.flushed_eq V c t) AtomPool.cover

end Cert.KernelIdeal.Val

end
-- ==== Proof.KernelValue.lean ====
/-
  The idealized kernel's two results as functions of its arguments: the pair output is the pair row function of every
  pair's two selected atom rows and own row; the pooled array pools, molecule by molecule, the softmax of the atom
  logits, whose summed pair rows are the scatter-add of the `PA` rows at `pair_split`. Needed of the arguments: every atom
  number of every pair in range, so that the kernel's gather never fills a row with the not-a-number word.
-/
import proofs.«412404_j85959475462402_1_alg».proof.Proof.KernelRun
import proofs.«412404_j85959475462402_1_alg».proof.Proof.KHost
import proofs.«412404_j85959475462402_1_alg».proof.Proof.KTake
import proofs.«412404_j85959475462402_1_alg».proof.Proof.Reg0Arr
import proofs.«412404_j85959475462402_1_alg».proof.Proof.Reg1Arr

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The per-atom sums of the `PA` rows, from the arguments: their scatter-add into zeros at `pair_split`. -/
def paAtomsOf (ps : IVec S131072 32) (pf : FVec Ideal S131072x64 .f32) (Wpa : FVec Ideal S64x50 .f32) (bpa : FVec Ideal S50 .f32) :
    FVec Ideal S16384x50 .f32 :=
  Host.scatterAdd scatter_S16384x50_S131072x1_S131072x50_1_0_0_1
    (broadcastInDim S16384x50 ![] bcast_S_S16384x50 (constant S_ .f32 0x00000000#32))
    (broadcastInDim S131072x1 ![0] bcast_S131072_S131072x1_0 ps)
    (Cert.Spec.paRaw pf Wpa bpa)

variable (m : (ℓ : Loc nD τ sig) → Buf (Elt Ideal) ℓ) (ρ : Dev nD → PrngReg)

/-- The `PA` rows region 0 leaves, from the arguments. -/
theorem arr12_eq (c : Dev nD) :
    (dat0 (V3 m ρ) c).arrAt 12 cfg0.N = Cert.Spec.paRaw (m ((c : Thread nD τ).loc main_arg1)) (m ((c : Thread nD τ).loc main_arg7)) (m ((c : Thread nD τ).loc main_arg8)) := by
  rw [arr0_12, V3_arg1, V3_arg7, V3_arg8]

/-- The per-atom sums between the regions, from the arguments. -/
theorem paAtoms_eq (c : Dev nD) :
    paAtoms m ρ c = paAtomsOf (m ((c : Thread nD τ).loc main_arg2)) (m ((c : Thread nD τ).loc main_arg1)) (m ((c : Thread nD τ).loc main_arg7)) (m ((c : Thread nD τ).loc main_arg8)) := by
  unfold paAtoms paAtomsOf
  rw [arr12_eq]

/-- The pair output at the end, from the arguments. -/
theorem W6_pairOut (c : Dev nD) (h : Cert.Spec.InRange (m ((c : Thread nD τ).loc main_arg3))) :
    W6 m ρ c (Proc.devRef .tc main_v6_0)
      = Cert.Spec.pairOut (m ((c : Thread nD τ).loc main_arg0)) (m ((c : Thread nD τ).loc main_arg3)) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W6_v6_0, arr0_11, V3_v4 m ρ c h, V3_v5 m ρ c h, V3_arg1, V3_arg11, V3_arg12, V3_arg13, V3_arg14, V3_arg15, V3_arg16]
  rfl

/-- The pooled array at the end, from the arguments. -/
theorem W6_pooled (c : Dev nD) :
    W6 m ρ c (Proc.devRef .tc main_v12)
      = Cert.Spec.pooled (m ((c : Thread nD τ).loc main_arg0)) (paAtomsOf (m ((c : Thread nD τ).loc main_arg2)) (m ((c : Thread nD τ).loc main_arg1)) (m ((c : Thread nD τ).loc main_arg7)) (m ((c : Thread nD τ).loc main_arg8))) (m ((c : Thread nD τ).loc main_arg5)) (m ((c : Thread nD τ).loc main_arg6)) (m ((c : Thread nD τ).loc main_arg9)) (m ((c : Thread nD τ).loc main_arg10)) := by
  rw [W6_v12, arr1_6, V5_v10, V5_v11, V5_arg5, V5_arg6, V5_arg9, V5_arg10, pooled3_reshape, paAtoms_eq]

/-- The idealized kernel's run with both results as functions of the arguments. -/
theorem kernel_run (h : ∀ c : Dev nD, Cert.Spec.InRange (m ((c : Thread nD τ).loc main_arg3))) :
    θ_run defs (onTc (τ := τ) (main (F := Ideal))) ⟨m, fun _ => 0, ρ⟩ (fun r => ∀ c : Dev nD,
      r.2.mem ((c.tc : Thread nD τ).loc main_v12)
        = Cert.Spec.pooled (m ((c : Thread nD τ).loc main_arg0)) (paAtomsOf (m ((c : Thread nD τ).loc main_arg2)) (m ((c : Thread nD τ).loc main_arg1)) (m ((c : Thread nD τ).loc main_arg7)) (m ((c : Thread nD τ).loc main_arg8))) (m ((c : Thread nD τ).loc main_arg5)) (m ((c : Thread nD τ).loc main_arg6)) (m ((c : Thread nD τ).loc main_arg9)) (m ((c : Thread nD τ).loc main_arg10))
      ∧ r.2.mem ((c.tc : Thread nD τ).loc main_v6_0)
        = Cert.Spec.pairOut (m ((c : Thread nD τ).loc main_arg0)) (m ((c : Thread nD τ).loc main_arg3)) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono
    (fun r hr c => ⟨(hr c).1.trans (W6_pooled m ρ c), (hr c).2.1.trans (W6_pairOut m ρ c (h c)), (hr c).2.2⟩)
    (Cert.KernelIdeal.Named.run_named (F := Ideal) m ρ)

end Cert.KernelIdeal.Val

end
-- ==== Proof.PreRange.lean ====
/-
  The precondition's last conjunct read back: where the printed predicate is all ones, every atom number of every pair
  lies between -16384 and 16383.
-/
import proofs.«412404_j85959475462402_1_alg».proof.Pre_finite_inputs
import proofs.«412404_j85959475462402_1_alg».proof.Proof.Gen.Pre_finite_inputs
import proofs.«412404_j85959475462402_1_alg».proof.Proof.Spec
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Pre_finite_inputs.Range

open Cert.Pre_finite_inputs

variable [Cert.Pre_finite_inputs.Facts]

/-- The rank-zero shape has one index. -/
instance : Subsingleton S_.Idx := ⟨fun a b => funext fun d => d.elim0⟩

/-- The last part of the printed predicate, one at its one place, puts every atom number in range: its last conjunct
    is the conjunction over all places of `-16384 ≤ a3` and `a3 < 16384`, both compared signed. -/
theorem inRange_of_part4 (a3 : IVec S131072x2 32) (v63 v67 : IVec S_ 1)
    (h : fn_part4 (F := Ideal) a3 v63 v67 ix0 = 1#1) : Cert.Spec.InRange a3 := by
  intro i
  unfold fn_part4 at h
  have h1 := (IntOp.andi_eq_one.1 h).2
  have h2 := Host.reduce_andi_all _ _ _ _ _ h1 i
  obtain ⟨hge, hlt⟩ := IntOp.andi_eq_one.1 h2
  have hge' : (4294950912#32 : BitVec 32).toInt ≤ (a3 i).toInt := IntOp.cmpi_sge.1 hge
  have hlt' : (a3 i).toInt < (16384#32 : BitVec 32).toInt := IntOp.cmpi_slt.1 hlt
  rw [show (4294950912#32 : BitVec 32).toInt = -16384 from by decide] at hge'
  rw [show (16384#32 : BitVec 32).toInt = 16384 from by decide] at hlt'
  exact ⟨hge', hlt'⟩

/-- The printed precondition, all ones, puts every atom number in range. -/
theorem inRange_of_pre (a0 : FVec Ideal S16384x256 .f32) (a1 : FVec Ideal S131072x64 .f32) (a2 : IVec S131072 32) (a3 : IVec S131072x2 32) (a4 : IVec S256 32)
    (a5 : FVec Ideal S256x100 .f32) (a6 : FVec Ideal S100 .f32) (a7 : FVec Ideal S64x50 .f32) (a8 : FVec Ideal S50 .f32) (a9 : FVec Ideal S150x128 .f32)
    (a10 : FVec Ideal S128 .f32) (a11 : FVec Ideal S512x50 .f32) (a12 : FVec Ideal S50 .f32) (a13 : FVec Ideal S64x50 .f32) (a14 : FVec Ideal S50 .f32)
    (a15 : FVec Ideal S100x64 .f32) (a16 : FVec Ideal S64 .f32)
    (h : Cert.Pre_finite_inputs.fn (F := Ideal) a0 a1 a2 a3 a4 a5 a6 a7 a8 a9 a10 a11 a12 a13 a14 a15 a16 = fun _ => 1#1) :
    Cert.Spec.InRange a3 := by
  have h0 := congrFun h ix0
  unfold fn fn_part1 fn_part2 fn_part3 at h0
  exact inRange_of_part4 a3 _ _ h0

end Cert.Pre_finite_inputs.Range

end
-- ==== Proof.RefPair.lean ====
/-
  The reference's pair output read back: for pair `r` it gathers the two atoms' rows (a negative atom number counted from
  the end, the number clamped into the table), lays them end to end in both orders, and applies the dense layers; at every
  place that is the pair row function.
-/
import proofs.«412404_j85959475462402_1_alg».proof.Proof.Gen.ReferenceIdeal.Run
import proofs.«412404_j85959475462402_1_alg».proof.Proof.Gen.ReferenceIdeal.Read
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-! ## A gather of rows by pairs of atom numbers, and a reversal of the two columns, read at an index -/

/-- The dimension numbers of a gather of rows by pairs: operand `[N, C]`, start indices `[n, 2, 1]`, result `[n, 2, C]`. -/
abbrev pairGatherDims (N C n : Nat)
    (wf : GatherDims.WF ⟨2, ![N, C]⟩ ⟨3, ![n, 2, 1]⟩ ⟨3, ![n, 2, C]⟩ [2] [0] [] [0] [] 2 ![1, C]) :
    GatherDims ⟨2, ![N, C]⟩ ⟨3, ![n, 2, 1]⟩ ⟨3, ![n, 2, C]⟩ where
  offsetDims := [2]
  collapsedSliceDims := [0]
  operandBatchingDims := []
  startIndicesBatchingDims := []
  startIndexMap := [0]
  indexVectorDim := 2
  sliceSizes := ![1, C]
  wf := wf

/-- The gather by pairs read at `(t, c, k)`: the operand's row at the clamped start word of pair `t`, column `c`, place `k`. -/
theorem gather_pairs_apply {α : Type} {N C n : Nat} (hN : 0 < N)
    (wf : GatherDims.WF ⟨2, ![N, C]⟩ ⟨3, ![n, 2, 1]⟩ ⟨3, ![n, 2, C]⟩ [2] [0] [] [0] [] 2 ![1, C])
    (x : (⟨2, ![N, C]⟩ : Shape).Idx → α) (idx : IVec ⟨3, ![n, 2, 1]⟩ 32) (t : Fin n) (c : Fin 2) (k : Fin C) :
    Host.gather (pairGatherDims N C n wf) x idx (ix3 t c k) = x (ix2 (Cert.Lib.clampRow N hN (idx (ix3 t c 0))) k) := by
  unfold Host.gather
  congr 1
  -- operand axis 0 is collapsed and start-indexed: the clamped start word, no batching and no offset coordinate
  have h0 : (pairGatherDims N C n wf).start (ix3 t c k) idx (0 : Fin 2) + (pairGatherDims N C n wf).batchCoord (ix3 t c k) (0 : Fin 2)
      + (pairGatherDims N C n wf).offCoord (ix3 t c k) (0 : Fin 2) = (Cert.Lib.clampRow N hN (idx (ix3 t c 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairGatherDims N C n wf).startIndexMap from List.mem_singleton.mpr rfl)]
    -- the start word is read at the result's two batch coordinates, component 0 of the index vector
    have hsi : (pairGatherDims N C n wf).siIdx (ix3 t c k) ⟨List.idxOf (0 : Fin 2) (pairGatherDims N C n wf).startIndexMap,
        List.idxOf_lt_length_iff.2 (List.mem_singleton.mpr rfl)⟩ = ix3 t c 0 := by
      funext b; refine Fin.ext ?_
      match b with
      | ⟨0, _⟩ => rfl
      | ⟨1, _⟩ => rfl
      | ⟨2, _⟩ => rfl
    rw [hsi]
    rfl
  -- operand axis 1 is kept and not start-indexed: start 0, and the offset coordinate is the result's third coordinate
  have h1 : (pairGatherDims N C n wf).start (ix3 t c k) idx (1 : Fin 2) + (pairGatherDims N C n wf).batchCoord (ix3 t c k) (1 : Fin 2)
      + (pairGatherDims N C n wf).offCoord (ix3 t c k) (1 : Fin 2) = k.val := by
    rw [GatherDims.batchCoord_eq_zero _ _ _ List.not_mem_nil]
    have hnot : (1 : Fin 2) ∉ (pairGatherDims N C n wf).startIndexMap := by
      show (1 : Fin 2) ∉ ([0] : List (Fin 2))
      decide
    have hk : (1 : Fin 2) ∈ (pairGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- Reversing an `[n, 2]` array along its second axis swaps the two columns. -/
theorem reverse_cols_apply {α : Type} {n : Nat} (x : (⟨2, ![n, 2]⟩ : Shape).Idx → α) (t : Fin n) (c : Fin 2) :
    Host.reverse (s := ⟨2, ![n, 2]⟩) [1] x (ix2 t c) = x (ix2 t c.rev) := by
  unfold Host.reverse
  congr 1
  funext a
  match a with
  | ⟨0, _⟩ => rfl
  | ⟨1, _⟩ => rfl

/-! ## The atom numbers as the two gathers read them -/

/-- The first gather's start word for pair `r`, column `c`: the atom number, a negative one counted from the end. -/
theorem wrap_read (x3 : (⟨S131072x2, .i32⟩ : BufTy).Contents (Elt Ideal)) (i : S131072x2.Idx) :
    val_main_v23 (F := Ideal) x3 i = Cert.Lib.normIdx 16384#32 (x3 i) := by
  rw [val_main_v23_apply, val_main_v20_apply, val_main_v22_apply, val_main_v19_apply, val_main_v21_apply,
    val_main_c_apply, val_main_c_0_apply]
  rfl

/-- The second gather's start word for pair `r`, column `c`: the OTHER column's atom number, a negative one counted
    from the end — the columns were swapped first. -/
theorem wrapRev_read (x3 : (⟨S131072x2, .i32⟩ : BufTy).Contents (Elt Ideal)) (r : Fin 131072) (c : Fin 2) :
    val_main_v32 (F := Ideal) x3 (ix2 r c) = Cert.Lib.normIdx 16384#32 (x3 (ix2 r c.rev)) := by
  have hrev : val_main_v27 (F := Ideal) x3 (ix2 r c) = x3 (ix2 r c.rev) := by
    unfold val_main_v27
    exact reverse_cols_apply x3 r c
  rw [val_main_v32_apply, val_main_v29_apply, val_main_v31_apply, val_main_v28_apply, val_main_v30_apply,
    val_main_c_1_apply, val_main_c_2_apply, hrev]
  rfl

/-- The start-index array of either gather is the wrapped atom numbers with a unit axis appended. -/
theorem idx24 (r : Fin 131072) (c : Fin 2) : idx_main_v24 (ix3 r c (0 : Fin 1)) = ix2 r c :=
  funext fun a => Fin.ext (by match a with | ⟨0, _⟩ => rfl | ⟨1, _⟩ => rfl)
theorem idx33 (r : Fin 131072) (c : Fin 2) : idx_main_v33 (ix3 r c (0 : Fin 1)) = ix2 r c :=
  funext fun a => Fin.ext (by match a with | ⟨0, _⟩ => rfl | ⟨1, _⟩ => rfl)

/-- The first gather at `(r, c, k)`: place `k` of the row of atom `c` of pair `r`. -/
theorem gatherA_read (x0 : (⟨S16384x256, .f32⟩ : BufTy).Contents (Elt Ideal)) (x3 : (⟨S131072x2, .i32⟩ : BufTy).Contents (Elt Ideal)) (r : Fin 131072) (c : Fin 2) (k : Fin 256) :
    val_main_v25 (F := Ideal) x0 x3 (ix3 r c k) = Cert.Spec.rowSel x0 x3 c (ix2 r k) := by
  unfold val_main_v25
  refine (gather_pairs_apply (N := 16384) (C := 256) (n := 131072) (by decide)
    Cert.ReferenceIdeal.Gen.gather_S16384x256_S131072x2x1_S131072x2x256_2_0_n_n_0_2_1256_wf x0 (val_main_v24 (F := Ideal) x3) r c k).trans ?_
  rw [val_main_v24_apply, idx24, wrap_read]
  rfl

/-- The second gather at `(r, c, k)`: place `k` of the row of the OTHER atom of pair `r`. -/
theorem gatherB_read (x0 : (⟨S16384x256, .f32⟩ : BufTy).Contents (Elt Ideal)) (x3 : (⟨S131072x2, .i32⟩ : BufTy).Contents (Elt Ideal)) (r : Fin 131072) (c : Fin 2) (k : Fin 256) :
    val_main_v34 (F := Ideal) x0 x3 (ix3 r c k) = Cert.Spec.rowSel x0 x3 c.rev (ix2 r k) := by
  unfold val_main_v34
  refine (gather_pairs_apply (N := 16384) (C := 256) (n := 131072) (by decide)
    Cert.ReferenceIdeal.Gen.gather_S16384x256_S131072x2x1_S131072x2x256_2_0_n_n_0_2_1256_wf x0 (val_main_v33 (F := Ideal) x3) r c k).trans ?_
  rw [val_main_v33_apply, idx33, wrapRev_read]
  rfl

/-! ## The two gathered rows laid end to end -/

/-- Place `k` of row `r` of the `[131072, 512]` array is place `k % 256` of atom `k / 256` of the `[131072, 2, 256]` one. -/
theorem idx26_lo (r : Fin 131072) (k : Fin 512) (h : k.val < 256) :
    idx_main_v26 (ix2 r k) = ix3 r (0 : Fin 2) (⟨k.val, h⟩ : Fin 256) := by
  have hk := k.isLt
  exact funext fun a => Fin.ext (by
    match a with
    | ⟨0, _⟩ => show (r.val * 512 + k.val) / 512 = r.val; omega
    | ⟨1, _⟩ => show (r.val * 512 + k.val) / 256 % 2 = 0; omega
    | ⟨2, _⟩ => show (r.val * 512 + k.val) % 256 = k.val; omega)
theorem idx26_hi (r : Fin 131072) (k : Fin 512) (h : ¬ k.val < 256) :
    idx_main_v26 (ix2 r k) = ix3 r (1 : Fin 2) (⟨k.val - 256, by have := k.isLt; omega⟩ : Fin 256) := by
  have hk := k.isLt
  exact funext fun a => Fin.ext (by
    match a with
    | ⟨0, _⟩ => show (r.val * 512 + k.val) / 512 = r.val; omega
    | ⟨1, _⟩ => show (r.val * 512 + k.val) / 256 % 2 = 1; omega
    | ⟨2, _⟩ => show (r.val * 512 + k.val) % 256 = k.val - 256; omega)
theorem idx35_lo (r : Fin 131072) (k : Fin 512) (h : k.val < 256) :
    idx_main_v35 (ix2 r k) = ix3 r (0 : Fin 2) (⟨k.val, h⟩ : Fin 256) := idx26_lo r k h
theorem idx35_hi (r : Fin 131072) (k : Fin 512) (h : ¬ k.val < 256) :
    idx_main_v35 (ix2 r k) = ix3 r (1 : Fin 2) (⟨k.val - 256, by have := k.isLt; omega⟩ : Fin 256) := idx26_hi r k h

/-- Row `r` of the first 512-wide array: the first atom's row, then the second's. -/
theorem rowsUV_read (x0 : (⟨S16384x256, .f32⟩ : BufTy).Contents (Elt Ideal)) (x3 : (⟨S131072x2, .i32⟩ : BufTy).Contents (Elt Ideal)) (r : Fin 131072) (k : Fin 512) :
    val_main_v26 (F := Ideal) x0 x3 (ix2 r k) = Cert.Spec.cat (A := 256) (B := 256) (N := 512) rfl (fun k : Fin 256 => Cert.Spec.rowSel x0 x3 0 (ix2 r k)) (fun k : Fin 256 => Cert.Spec.rowSel x0 x3 1 (ix2 r k)) k := by
  rw [val_main_v26_apply]
  unfold Cert.Spec.cat
  by_cases h : k.val < 256
  · rw [dif_pos h, idx26_lo r k h, gatherA_read]
  · rw [dif_neg h, idx26_hi r k h, gatherA_read]

/-- Row `r` of the second 512-wide array: the second atom's row, then the first's. -/
theorem rowsVU_read (x0 : (⟨S16384x256, .f32⟩ : BufTy).Contents (Elt Ideal)) (x3 : (⟨S131072x2, .i32⟩ : BufTy).Contents (Elt Ideal)) (r : Fin 131072) (k : Fin 512) :
    val_main_v35 (F := Ideal) x0 x3 (ix2 r k) = Cert.Spec.cat (A := 256) (B := 256) (N := 512) rfl (fun k : Fin 256 => Cert.Spec.rowSel x0 x3 1 (ix2 r k)) (fun k : Fin 256 => Cert.Spec.rowSel x0 x3 0 (ix2 r k)) k := by
  rw [val_main_v35_apply]
  unfold Cert.Spec.cat
  by_cases h : k.val < 256
  · rw [dif_pos h, idx35_lo r k h, gatherB_read]
    rfl
  · rw [dif_neg h, idx35_hi r k h, gatherB_read]
    rfl

/-! ## The dense layers -/

/-- A dense layer recognised from its parts: a sum of products whose factors are, place by place, the input row and the
    weight column, a bias that is the bias vector's entry, and a floor that is zero. -/
theorem dense_of {K H : Nat} (u : Fin K → EReal) (W : Cert.Spec.Arr ⟨2, ![K, H]⟩) (b : Cert.Spec.Arr ⟨1, ![H]⟩) (h : Fin H)
    (a w : Fin K → EReal) (β z : EReal)
    (ha : ∀ k, a k = u k) (hw : ∀ k, w k = W (ix2 k h)) (hβ : β = b (ix1 h)) (hz : z = 0) :
    max (∑ k : Fin K, a k * w k + β) z = Cert.Spec.dense u W b h := by
  subst hβ hz
  have hs : ∑ k : Fin K, a k * w k = ∑ k : Fin K, u k * W (ix2 k h) :=
    Finset.sum_congr rfl fun k _ => by rw [ha k, hw k]
  unfold Cert.Spec.dense Cert.Spec.relu
  rw [hs]

theorem lidx36 (r : Fin 131072) (h : Fin 50) (k : Fin 512) : lidx_main_v36 (ix2 r h) k = ix2 r k :=
  funext fun a => Fin.ext (by match a with | ⟨0, _⟩ => rfl | ⟨1, _⟩ => rfl)
theorem ridx36 (r : Fin 131072) (h : Fin 50) (k : Fin 512) : ridx_main_v36 (ix2 r h) k = ix2 k h :=
  funext fun a => Fin.ext (by match a with | ⟨0, _⟩ => rfl | ⟨1, _⟩ => rfl)
theorem bidx38 (r : Fin 131072) (h : Fin 50) : idx_main_v37 (idx_main_v38 (ix2 r h)) = ix1 h :=
  funext fun a => Fin.ext (by match a with | ⟨0, _⟩ => rfl)
theorem lidx41 (r : Fin 131072) (h : Fin 50) (k : Fin 512) : lidx_main_v41 (ix2 r h) k = ix2 r k :=
  funext fun a => Fin.ext (by match a with | ⟨0, _⟩ => rfl | ⟨1, _⟩ => rfl)
theorem ridx41 (r : Fin 131072) (h : Fin 50) (k : Fin 512) : ridx_main_v41 (ix2 r h) k = ix2 k h :=
  funext fun a => Fin.ext (by match a with | ⟨0, _⟩ => rfl | ⟨1, _⟩ => rfl)
theorem bidx43 (r : Fin 131072) (h : Fin 50) : idx_main_v42 (idx_main_v43 (ix2 r h)) = ix1 h :=
  funext fun a => Fin.ext (by match a with | ⟨0, _⟩ => rfl)
theorem lidx47 (r : Fin 131072) (h : Fin 50) (k : Fin 64) : lidx_main_v47 (ix2 r h) k = ix2 r k :=
  funext fun a => Fin.ext (by match a with | ⟨0, _⟩ => rfl | ⟨1, _⟩ => rfl)
theorem ridx47 (r : Fin 131072) (h : Fin 50) (k : Fin 64) : ridx_main_v47 (ix2 r h) k = ix2 k h :=
  funext fun a => Fin.ext (by match a with | ⟨0, _⟩ => rfl | ⟨1, _⟩ => rfl)
theorem bidx49 (r : Fin 131072) (h : Fin 50) : idx_main_v48 (idx_main_v49 (ix2 r h)) = ix1 h :=
  funext fun a => Fin.ext (by match a with | ⟨0, _⟩ => rfl)
theorem lidx53 (r : Fin 131072) (j : Fin 64) (k : Fin 100) : lidx_main_v53 (ix2 r j) k = ix2 r k :=
  funext fun a => Fin.ext (by match a with | ⟨0, _⟩ => rfl | ⟨1, _⟩ => rfl)
theorem ridx53 (r : Fin 131072) (j : Fin 64) (k : Fin 100) : ridx_main_v53 (ix2 r j) k = ix2 k j :=
  funext fun a => Fin.ext (by match a with | ⟨0, _⟩ => rfl | ⟨1, _⟩ => rfl)
theorem bidx55 (r : Fin 131072) (j : Fin 64) : idx_main_v54 (idx_main_v55 (ix2 r j)) = ix1 j :=
  funext fun a => Fin.ext (by match a with | ⟨0, _⟩ => rfl)

/-- The atom-pair layer on the rows in the order first atom, second atom. -/
theorem apUV_read (x0 : (⟨S16384x256, .f32⟩ : BufTy).Contents (Elt Ideal)) (x3 : (⟨S131072x2, .i32⟩ : BufTy).Contents (Elt Ideal)) (x11 : (⟨S512x50, .f32⟩ : BufTy).Contents (Elt Ideal)) (x12 : (⟨S50, .f32⟩ : BufTy).Contents (Elt Ideal)) (r : Fin 131072) (h : Fin 50) :
    val_main_v40 (F := Ideal) x0 x3 x11 x12 (ix2 r h) = Cert.Spec.dense (Cert.Spec.cat (A := 256) (B := 256) (N := 512) rfl (fun k : Fin 256 => Cert.Spec.rowSel x0 x3 0 (ix2 r k)) (fun k : Fin 256 => Cert.Spec.rowSel x0 x3 1 (ix2 r k))) x11 x12 h := by
  rw [val_main_v40_apply, val_main_v39_apply, val_main_v36_apply, val_main_v38_apply, val_main_v37_apply,
    val_main_call3_v0_apply, val_main_call3_cst_apply]
  simp only [Ideal.maximumf_def, Ideal.addf_def, Ideal.ofBits_def]
  exact dense_of _ x11 x12 h (fun k => val_main_v26 (F := Ideal) x0 x3 (lidx_main_v36 (ix2 r h) k))
    (fun k => x11 (ridx_main_v36 (ix2 r h) k)) _ _
    (fun k => (congrArg (val_main_v26 (F := Ideal) x0 x3) (lidx36 r h k)).trans (rowsUV_read x0 x3 r k))
    (fun k => congrArg x11 (ridx36 r h k)) (congrArg x12 (bidx38 r h)) Ideal.ofBits_zero_f32

/-- The atom-pair layer on the rows in the order second atom, first atom. -/
theorem apVU_read (x0 : (⟨S16384x256, .f32⟩ : BufTy).Contents (Elt Ideal)) (x3 : (⟨S131072x2, .i32⟩ : BufTy).Contents (Elt Ideal)) (x11 : (⟨S512x50, .f32⟩ : BufTy).Contents (Elt Ideal)) (x12 : (⟨S50, .f32⟩ : BufTy).Contents (Elt Ideal)) (r : Fin 131072) (h : Fin 50) :
    val_main_v45 (F := Ideal) x0 x3 x11 x12 (ix2 r h) = Cert.Spec.dense (Cert.Spec.cat (A := 256) (B := 256) (N := 512) rfl (fun k : Fin 256 => Cert.Spec.rowSel x0 x3 1 (ix2 r k)) (fun k : Fin 256 => Cert.Spec.rowSel x0 x3 0 (ix2 r k))) x11 x12 h := by
  rw [val_main_v45_apply, val_main_v44_apply, val_main_v41_apply, val_main_v43_apply, val_main_v42_apply,
    val_main_call4_v0_apply, val_main_call4_cst_apply]
  simp only [Ideal.maximumf_def, Ideal.addf_def, Ideal.ofBits_def]
  exact dense_of _ x11 x12 h (fun k => val_main_v35 (F := Ideal) x0 x3 (lidx_main_v41 (ix2 r h) k))
    (fun k => x11 (ridx_main_v41 (ix2 r h) k)) _ _
    (fun k => (congrArg (val_main_v35 (F := Ideal) x0 x3) (lidx41 r h k)).trans (rowsVU_read x0 x3 r k))
    (fun k => congrArg x11 (ridx41 r h k)) (congrArg x12 (bidx43 r h)) Ideal.ofBits_zero_f32

/-- The pair-pair layer on the pair's own feature row. -/
theorem pp_read (x1 : (⟨S131072x64, .f32⟩ : BufTy).Contents (Elt Ideal)) (x13 : (⟨S64x50, .f32⟩ : BufTy).Contents (Elt Ideal)) (x14 : (⟨S50, .f32⟩ : BufTy).Contents (Elt Ideal)) (r : Fin 131072) (h : Fin 50) :
    val_main_v51 (F := Ideal) x1 x13 x14 (ix2 r h) = Cert.Spec.dense (fun k : Fin 64 => x1 (ix2 r k)) x13 x14 h := by
  rw [val_main_v51_apply, val_main_v50_apply, val_main_v47_apply, val_main_v49_apply, val_main_v48_apply,
    val_main_call5_v0_apply, val_main_call5_cst_apply]
  simp only [Ideal.maximumf_def, Ideal.addf_def, Ideal.ofBits_def]
  exact dense_of _ x13 x14 h (fun k => x1 (lidx_main_v47 (ix2 r h) k))
    (fun k => x13 (ridx_main_v47 (ix2 r h) k)) _ _
    (fun k => congrArg x1 (lidx47 r h k))
    (fun k => congrArg x13 (ridx47 r h k)) (congrArg x14 (bidx49 r h)) Ideal.ofBits_zero_f32

/-- The sum of the two atom-pair layers. -/
theorem ap_read (x0 : (⟨S16384x256, .f32⟩ : BufTy).Contents (Elt Ideal)) (x3 : (⟨S131072x2, .i32⟩ : BufTy).Contents (Elt Ideal)) (x11 : (⟨S512x50, .f32⟩ : BufTy).Contents (Elt Ideal)) (x12 : (⟨S50, .f32⟩ : BufTy).Contents (Elt Ideal)) (r : Fin 131072) (h : Fin 50) :
    val_main_v46 (F := Ideal) x0 x3 x11 x12 (ix2 r h)
      = Cert.Spec.dense (Cert.Spec.cat (A := 256) (B := 256) (N := 512) rfl (fun k : Fin 256 => Cert.Spec.rowSel x0 x3 0 (ix2 r k)) (fun k : Fin 256 => Cert.Spec.rowSel x0 x3 1 (ix2 r k))) x11 x12 h + Cert.Spec.dense (Cert.Spec.cat (A := 256) (B := 256) (N := 512) rfl (fun k : Fin 256 => Cert.Spec.rowSel x0 x3 1 (ix2 r k)) (fun k : Fin 256 => Cert.Spec.rowSel x0 x3 0 (ix2 r k))) x11 x12 h := by
  rw [val_main_v46_apply, apUV_read, apVU_read, Ideal.addf_def]

/-! ## The two 50-wide layers laid end to end, and the output layer -/

/-- Row `r` of the 100-wide array: the atom-pair sum, then the pair-pair layer. -/
theorem apPP_read (x0 : (⟨S16384x256, .f32⟩ : BufTy).Contents (Elt Ideal)) (x1 : (⟨S131072x64, .f32⟩ : BufTy).Contents (Elt Ideal)) (x3 : (⟨S131072x2, .i32⟩ : BufTy).Contents (Elt Ideal)) (x11 : (⟨S512x50, .f32⟩ : BufTy).Contents (Elt Ideal)) (x12 : (⟨S50, .f32⟩ : BufTy).Contents (Elt Ideal)) (x13 : (⟨S64x50, .f32⟩ : BufTy).Contents (Elt Ideal)) (x14 : (⟨S50, .f32⟩ : BufTy).Contents (Elt Ideal))
    (r : Fin 131072) (c : Fin 100) :
    val_main_v52 (F := Ideal) x0 x1 x3 x11 x12 x13 x14 (ix2 r c)
      = Cert.Spec.cat (A := 50) (B := 50) (N := 100) rfl
          (fun h : Fin 50 => Cert.Spec.dense (Cert.Spec.cat (A := 256) (B := 256) (N := 512) rfl (fun k : Fin 256 => Cert.Spec.rowSel x0 x3 0 (ix2 r k)) (fun k : Fin 256 => Cert.Spec.rowSel x0 x3 1 (ix2 r k))) x11 x12 h + Cert.Spec.dense (Cert.Spec.cat (A := 256) (B := 256) (N := 512) rfl (fun k : Fin 256 => Cert.Spec.rowSel x0 x3 1 (ix2 r k)) (fun k : Fin 256 => Cert.Spec.rowSel x0 x3 0 (ix2 r k))) x11 x12 h)
          (fun h : Fin 50 => Cert.Spec.dense (fun k : Fin 64 => x1 (ix2 r k)) x13 x14 h) c := by
  have hc100 := c.isLt
  unfold val_main_v52 Cert.Spec.cat
  by_cases hc : c.val < 50
  · rw [dif_pos hc]
    refine (concatenate_pair_apply_left _ _ _ concatenates_S131072x50_S131072x50_S131072x100_d1 (ix2 r c) rfl
      (ix2 r (⟨c.val, hc⟩ : Fin 50)) (fun b => by match b with | ⟨0, _⟩ => rfl | ⟨1, _⟩ => rfl)).trans ?_
    exact ap_read x0 x3 x11 x12 r ⟨c.val, hc⟩
  · rw [dif_neg hc]
    refine (concatenate_pair_apply_right _ _ _ concatenates_S131072x50_S131072x50_S131072x100_d1 (ix2 r c) rfl rfl
      (ix2 r (⟨c.val - 50, by omega⟩ : Fin 50))
      (fun b hb => by
        match b, hb with
        | ⟨0, _⟩, _ => rfl
        | ⟨1, _⟩, hb => exact absurd rfl hb)
      (by show c.val - 50 + 50 = c.val; omega)).trans ?_
    exact pp_read x1 x13 x14 r ⟨c.val - 50, by omega⟩

/-- The reference's second result at `(r, j)`: the pair row function of pair `r`'s two atom rows and own row. -/
theorem pairRow_read (x0 : (⟨S16384x256, .f32⟩ : BufTy).Contents (Elt Ideal)) (x1 : (⟨S131072x64, .f32⟩ : BufTy).Contents (Elt Ideal)) (x3 : (⟨S131072x2, .i32⟩ : BufTy).Contents (Elt Ideal)) (x11 : (⟨S512x50, .f32⟩ : BufTy).Contents (Elt Ideal)) (x12 : (⟨S50, .f32⟩ : BufTy).Contents (Elt Ideal)) (x13 : (⟨S64x50, .f32⟩ : BufTy).Contents (Elt Ideal)) (x14 : (⟨S50, .f32⟩ : BufTy).Contents (Elt Ideal))
    (x15 : (⟨S100x64, .f32⟩ : BufTy).Contents (Elt Ideal)) (x16 : (⟨S64, .f32⟩ : BufTy).Contents (Elt Ideal)) (r : Fin 131072) (j : Fin 64) :
    val_main_v57 (F := Ideal) x0 x1 x3 x11 x12 x13 x14 x15 x16 (ix2 r j)
      = Cert.Spec.pairRow (fun k : Fin 256 => Cert.Spec.rowSel x0 x3 0 (ix2 r k)) (fun k : Fin 256 => Cert.Spec.rowSel x0 x3 1 (ix2 r k)) (fun k : Fin 64 => x1 (ix2 r k)) x11 x12 x13 x14 x15 x16 j := by
  rw [val_main_v57_apply, val_main_v56_apply, val_main_v53_apply, val_main_v55_apply, val_main_v54_apply,
    val_main_call6_v0_apply, val_main_call6_cst_apply]
  simp only [Ideal.maximumf_def, Ideal.addf_def, Ideal.ofBits_def]
  unfold Cert.Spec.pairRow
  exact dense_of _ x15 x16 j (fun k => val_main_v52 (F := Ideal) x0 x1 x3 x11 x12 x13 x14 (lidx_main_v53 (ix2 r j) k))
    (fun k => x15 (ridx_main_v53 (ix2 r j) k)) _ _
    (fun k => (congrArg (val_main_v52 (F := Ideal) x0 x1 x3 x11 x12 x13 x14) (lidx53 r j k)).trans
      (apPP_read x0 x1 x3 x11 x12 x13 x14 r k))
    (fun k => congrArg x15 (ridx53 r j k)) (congrArg x16 (bidx55 r j)) Ideal.ofBits_zero_f32

/-- The reference's second result is the pair output of the specification. -/
theorem pairOut_eq (x0 : (⟨S16384x256, .f32⟩ : BufTy).Contents (Elt Ideal)) (x1 : (⟨S131072x64, .f32⟩ : BufTy).Contents (Elt Ideal)) (x3 : (⟨S131072x2, .i32⟩ : BufTy).Contents (Elt Ideal))
    (x11 : (⟨S512x50, .f32⟩ : BufTy).Contents (Elt Ideal)) (x12 : (⟨S50, .f32⟩ : BufTy).Contents (Elt Ideal)) (x13 : (⟨S64x50, .f32⟩ : BufTy).Contents (Elt Ideal)) (x14 : (⟨S50, .f32⟩ : BufTy).Contents (Elt Ideal))
    (x15 : (⟨S100x64, .f32⟩ : BufTy).Contents (Elt Ideal)) (x16 : (⟨S64, .f32⟩ : BufTy).Contents (Elt Ideal)) :
    val_main_v57 (F := Ideal) x0 x1 x3 x11 x12 x13 x14 x15 x16 = Cert.Spec.pairOut x0 x3 x1 x11 x12 x13 x14 x15 x16 := by
  funext i
  obtain ⟨r, j, rfl⟩ : ∃ (r : Fin 131072) (j : Fin 64), i = ix2 r j := ⟨i 0, i 1, eq_ix2 i⟩
  rw [pairRow_read]
  rfl

end Cert.ReferenceIdeal.RefValue

end
-- ==== Proof.RefPool.lean ====
/-
  The reference's pooled array read back: atom logits from the atom's dense row and its summed pair row, a softmax over
  the clusters, and each molecule's 64 atoms pooled; the summed pair rows enter as the reference's own scatter-add.
-/
import proofs.«412404_j85959475462402_1_alg».proof.Proof.Gen.ReferenceIdeal.Run
import proofs.«412404_j85959475462402_1_alg».proof.Proof.Gen.ReferenceIdeal.Read
import proofs.«412404_j85959475462402_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

section Rows

variable (x0 : (⟨S16384x256, .f32⟩ : BufTy).Contents (Elt Ideal)) (x1 : (⟨S131072x64, .f32⟩ : BufTy).Contents (Elt Ideal))
  (x2 : (⟨S131072, .i32⟩ : BufTy).Contents (Elt Ideal)) (x5 : (⟨S256x100, .f32⟩ : BufTy).Contents (Elt Ideal))
  (x6 : (⟨S100, .f32⟩ : BufTy).Contents (Elt Ideal)) (x7 : (⟨S64x50, .f32⟩ : BufTy).Contents (Elt Ideal))
  (x8 : (⟨S50, .f32⟩ : BufTy).Contents (Elt Ideal)) (x9 : (⟨S150x128, .f32⟩ : BufTy).Contents (Elt Ideal))
  (x10 : (⟨S128, .f32⟩ : BufTy).Contents (Elt Ideal))

/-! ## The two dense layers that feed the logits -/

/-- The `PA` layer at pair `r`, place `h`: the dense layer of the pair's feature row. -/
theorem pa_at (r : Fin 131072) (h : Fin 50) :
    val_main_v9 (F := Ideal) x1 x7 x8 (ix2 r h)
      = Cert.Spec.dense (K := 64) (H := 50) (fun k => x1 (ix2 r k)) x7 x8 h := by
  have e1 : ∀ k : Fin 64, lidx_main_v5 (ix2 r h) k = ix2 r k := fun k => funext fun a => Fin.ext (by
    match a with
    | ⟨0, _⟩ => rfl
    | ⟨1, _⟩ => rfl)
  have e2 : ∀ k : Fin 64, ridx_main_v5 (ix2 r h) k = ix2 k h := fun k => funext fun a => Fin.ext (by
    match a with
    | ⟨0, _⟩ => rfl
    | ⟨1, _⟩ => rfl)
  have e3 : idx_main_v6 (idx_main_v7 (ix2 r h)) = ix1 h := funext fun a => Fin.ext (by
    match a with
    | ⟨0, _⟩ => rfl)
  rw [val_main_v9_apply, val_main_v8_apply, val_main_v5_apply, val_main_v7_apply, val_main_v6_apply,
    val_main_call1_v0_apply, val_main_call1_cst_apply]
  simp only [e1, e2, e3, Ideal.maximumf_def, Ideal.addf_def, Ideal.ofBits_def, Ideal.ofBits_zero_f32]
  rfl

/-- The `AA` layer at atom `r`, place `h`: the dense layer of the atom's feature row. -/
theorem aa_at (r : Fin 16384) (h : Fin 100) :
    val_main_v4 (F := Ideal) x0 x5 x6 (ix2 r h)
      = Cert.Spec.dense (K := 256) (H := 100) (fun k => x0 (ix2 r k)) x5 x6 h := by
  have e1 : ∀ k : Fin 256, lidx_main_v0 (ix2 r h) k = ix2 r k := fun k => funext fun a => Fin.ext (by
    match a with
    | ⟨0, _⟩ => rfl
    | ⟨1, _⟩ => rfl)
  have e2 : ∀ k : Fin 256, ridx_main_v0 (ix2 r h) k = ix2 k h := fun k => funext fun a => Fin.ext (by
    match a with
    | ⟨0, _⟩ => rfl
    | ⟨1, _⟩ => rfl)
  have e3 : idx_main_v1 (idx_main_v2 (ix2 r h)) = ix1 h := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-! ## The joined row and the logits -/

/-- Row `r` of the joined array is the atom's `AA` row followed by its summed pair row. -/
theorem cat_at (r : Fin 16384) (k : Fin 150) :
    val_main_v13 (F := Ideal) x0 x1 x2 x5 x6 x7 x8 (ix2 r k)
      = Cert.Spec.cat (A := 100) (B := 50) (N := 150) rfl
          (fun h : Fin 100 => Cert.Spec.dense (K := 256) (H := 100) (fun k' => x0 (ix2 r k')) x5 x6 h)
          (fun h : Fin 50 => val_main_v12 (F := Ideal) x1 x2 x7 x8 (ix2 r h)) k := by
  have hk150 : k.val < 150 := k.isLt
  by_cases hk : k.val < 100
  · simp only [Cert.Spec.cat, dif_pos hk]
    rw [← aa_at x0 x5 x6 r ⟨k.val, hk⟩]
    unfold val_main_v13
    generalize val_main_v4 (F := Ideal) x0 x5 x6 = ya
    generalize val_main_v12 (F := Ideal) x1 x2 x7 x8 = yp
    exact concatenate_pair_apply_left (t := S16384x150) (s₁ := S16384x100) (s₂ := S16384x50) (1 : Fin 2) ya yp
      concatenates_S16384x100_S16384x50_S16384x150_d1 (ix2 r k) rfl (ix2 r (⟨k.val, hk⟩ : Fin 100)) (by
        intro b
        match b with
        | ⟨0, _⟩ => rfl
        | ⟨1, _⟩ => rfl)
  · simp only [Cert.Spec.cat, dif_neg hk]
    unfold val_main_v13
    generalize val_main_v4 (F := Ideal) x0 x5 x6 = ya
    generalize val_main_v12 (F := Ideal) x1 x2 x7 x8 = yp
    exact concatenate_pair_apply_right (t := S16384x150) (s₁ := S16384x100) (s₂ := S16384x50) (1 : Fin 2) ya yp
      concatenates_S16384x100_S16384x50_S16384x150_d1 (ix2 r k) rfl rfl (ix2 r (⟨k.val - 100, by omega⟩ : Fin 50)) (by
        intro b hb
        match b with
        | ⟨0, _⟩ => rfl
        | ⟨1, _⟩ => exact absurd rfl hb) (by
        show k.val - 100 + 100 = k.val; omega)

/-- The logits of atom `r` are the specification's, over the atom's feature row and its summed pair row. -/
theorem logit_at (r : Fin 16384) (c : Fin 128) :
    val_main_v18 (F := Ideal) x0 x1 x2 x5 x6 x7 x8 x9 x10 (ix2 r c)
      = Cert.Spec.logitRow (fun k => x0 (ix2 r k)) (fun h => val_main_v12 (F := Ideal) x1 x2 x7 x8 (ix2 r h))
          x5 x6 x9 x10 c := by
  have e1 : ∀ k : Fin 150, lidx_main_v14 (ix2 r c) k = ix2 r k := fun k => funext fun a => Fin.ext (by
    match a with
    | ⟨0, _⟩ => rfl
    | ⟨1, _⟩ => rfl)
  have e2 : ∀ k : Fin 150, ridx_main_v14 (ix2 r c) k = ix2 k c := fun k => funext fun a => Fin.ext (by
    match a with
    | ⟨0, _⟩ => rfl
    | ⟨1, _⟩ => rfl)
  have e3 : idx_main_v15 (idx_main_v16 (ix2 r c)) = ix1 c := funext fun a => Fin.ext (by
    match a with
    | ⟨0, _⟩ => rfl)
  rw [val_main_v18_apply, val_main_v17_apply, val_main_v14_apply, val_main_v16_apply, val_main_v15_apply,
    val_main_call2_v0_apply, val_main_call2_cst_apply]
  simp only [e1, e2, e3, cat_at, Ideal.maximumf_def, Ideal.addf_def, Ideal.ofBits_def, Ideal.ofBits_zero_f32]
  rfl

/-! ## The softmax of a row -/

/-- The row maximum the reference subtracts is the specification's, over the row of logits. -/
theorem rowMax_at (r : Fin 16384) :
    val_main_v60 (F := Ideal) x0 x1 x2 x5 x6 x7 x8 x9 x10 (ix1 r)
      = Cert.Spec.rowMax (fun c : Fin 128 => val_main_v18 (F := Ideal) x0 x1 x2 x5 x6 x7 x8 x9 x10 (ix2 r c)) := by
  have h : S16384x128.Reduces [1] S16384 := by decide
  rw [val_main_v60_apply, val_main_v59_apply, val_main_cst_4_apply]
  unfold val_main_v58
  generalize val_main_v18 (F := Ideal) x0 x1 x2 x5 x6 x7 x8 x9 x10 = y
  have e := Host.reduce_eq_fold_single (FloatOps.maximumf (F := Ideal) (φ := .f32)) y (val_main_cst_3 (F := Ideal))
    reducesTo_S16384x128_S16384_d1 h h_S_ (ix1 r)
  rw [e, val_main_cst_3_apply]
  have hf : (y ∘ h.lift (ix1 r)) = fun c : Fin 128 => y (ix2 r c) := funext fun c => congrArg y (funext fun a => Fin.ext (by
    match a with
    | ⟨0, _⟩ => rfl
    | ⟨1, _⟩ => rfl))
  rw [hf]
  rfl

/-- The exponential the reference takes at `(r, c)`: of the logit less the row's maximum. -/
theorem exp_at (r : Fin 16384) (c : Fin 128) :
    val_main_v64 (F := Ideal) x0 x1 x2 x5 x6 x7 x8 x9 x10 (ix2 r c)
      = Ideal.exp (val_main_v18 (F := Ideal) x0 x1 x2 x5 x6 x7 x8 x9 x10 (ix2 r c)
          - Cert.Spec.rowMax (fun c' : Fin 128 => val_main_v18 (F := Ideal) x0 x1 x2 x5 x6 x7 x8 x9 x10 (ix2 r c'))) := by
  have e1 : idx_main_v61 (idx_main_v62 (ix2 r c)) = ix1 r := funext fun a => Fin.ext (by
    match a with
    | ⟨0, _⟩ => rfl)
  rw [val_main_v64_apply, val_main_v63_apply, val_main_v62_apply, val_main_v61_apply, e1, rowMax_at]
  simp only [Ideal.hostUnary_exp_def, Ideal.subf_def]

/-- The row sum the reference divides by: the sum of the row's exponentials. -/
theorem sum_at (r : Fin 16384) :
    val_main_v65 (F := Ideal) x0 x1 x2 x5 x6 x7 x8 x9 x10 (ix1 r)
      = ∑ c' : Fin 128, Ideal.exp (val_main_v18 (F := Ideal) x0 x1 x2 x5 x6 x7 x8 x9 x10 (ix2 r c')
          - Cert.Spec.rowMax (fun c'' : Fin 128 => val_main_v18 (F := Ideal) x0 x1 x2 x5 x6 x7 x8 x9 x10 (ix2 r c''))) := by
  have e1 : ∀ k : Fin 128, idx_main_v65 (ix1 r) k = ix2 r k := fun k => funext fun a => Fin.ext (by
    match a with
    | ⟨0, _⟩ => rfl
    | ⟨1, _⟩ => rfl)
  rw [val_main_v65_apply, val_main_cst_5_apply]
  simp only [e1, exp_at, Ideal.ofBits_def, Ideal.ofBits_zero_f32, zero_add]

/-- The reference's softmax at `(r, c)` is the specification's softmax of the row of logits. -/
theorem softmax_at (r : Fin 16384) (c : Fin 128) :
    val_main_v68 (F := Ideal) x0 x1 x2 x5 x6 x7 x8 x9 x10 (ix2 r c)
      = Cert.Spec.softmax (fun c' : Fin 128 => val_main_v18 (F := Ideal) x0 x1 x2 x5 x6 x7 x8 x9 x10 (ix2 r c')) c := by
  have e1 : idx_main_v66 (idx_main_v67 (ix2 r c)) = ix1 r := funext fun a => Fin.ext (by
    match a with
    | ⟨0, _⟩ => rfl)
  rw [val_main_v68_apply, val_main_v67_apply, val_main_v66_apply, e1, exp_at, sum_at]
  simp only [Ideal.hostDivf_def]
  rfl

end Rows

/-- The rows the reference sums per atom are the `PA` rows of the specification. -/
theorem paRaw_eq (x1 : (⟨S131072x64, .f32⟩ : BufTy).Contents (Elt Ideal)) (x7 : (⟨S64x50, .f32⟩ : BufTy).Contents (Elt Ideal)) (x8 : (⟨S50, .f32⟩ : BufTy).Contents (Elt Ideal)) :
    val_main_v9 (F := Ideal) x1 x7 x8 = Cert.Spec.paRaw x1 x7 x8 := by
  funext i
  obtain ⟨r, h, rfl⟩ : ∃ (r : Fin 131072) (h : Fin 50), i = ix2 r h := ⟨i 0, i 1, eq_ix2 i⟩
  exact pa_at x1 x7 x8 r h

/-- The reference's first result is the pooled array of the specification over its own per-atom sums. -/
theorem pooled_eq (x0 : (⟨S16384x256, .f32⟩ : BufTy).Contents (Elt Ideal)) (x1 : (⟨S131072x64, .f32⟩ : BufTy).Contents (Elt Ideal)) (x2 : (⟨S131072, .i32⟩ : BufTy).Contents (Elt Ideal))
    (x5 : (⟨S256x100, .f32⟩ : BufTy).Contents (Elt Ideal)) (x6 : (⟨S100, .f32⟩ : BufTy).Contents (Elt Ideal)) (x7 : (⟨S64x50, .f32⟩ : BufTy).Contents (Elt Ideal)) (x8 : (⟨S50, .f32⟩ : BufTy).Contents (Elt Ideal))
    (x9 : (⟨S150x128, .f32⟩ : BufTy).Contents (Elt Ideal)) (x10 : (⟨S128, .f32⟩ : BufTy).Contents (Elt Ideal)) :
    val_main_v71 (F := Ideal) x0 x1 x2 x5 x6 x7 x8 x9 x10
      = Cert.Spec.pooled x0 (val_main_v12 (F := Ideal) x1 x2 x7 x8) x5 x6 x9 x10 := by
  funext i
  obtain ⟨b, cc, d, rfl⟩ : ∃ (b : Fin 256) (cc : Fin 128) (d : Fin 256), i = ix3 b cc d := ⟨i 0, i 1, i 2, eq_ix3 i⟩
  -- the two reshapes: entry (b, n, ·) of a molecule-by-molecule array is row 64 b + n of the atom-by-atom one
  have e1 : ∀ n : Fin 64, idx_main_v69 (lidx_main_v71 (ix3 b cc d) n) = ix2 (Cert.Spec.atomOf b n) cc :=
    fun n => funext fun a => Fin.ext (by
      have hc : cc.val < 128 := cc.isLt
      match a with
      | ⟨0, _⟩ => show ((b.val * 64 + n.val) * 128 + cc.val) / 128 = b.val * 64 + n.val; omega
      | ⟨1, _⟩ => show ((b.val * 64 + n.val) * 128 + cc.val) % 128 = cc.val; omega)
  have e2 : ∀ n : Fin 64, idx_main_v70 (ridx_main_v71 (ix3 b cc d) n) = ix2 (Cert.Spec.atomOf b n) d :=
    fun n => funext fun a => Fin.ext (by
      have hd : d.val < 256 := d.isLt
      match a with
      | ⟨0, _⟩ => show ((b.val * 64 + n.val) * 256 + d.val) / 256 = b.val * 64 + n.val; omega
      | ⟨1, _⟩ => show ((b.val * 64 + n.val) * 256 + d.val) % 256 = d.val; omega)
  have el : ∀ n : Fin 64,
      (fun c' : Fin 128 => val_main_v18 (F := Ideal) x0 x1 x2 x5 x6 x7 x8 x9 x10 (ix2 (Cert.Spec.atomOf b n) c'))
        = Cert.Spec.logitRow (fun k => x0 (ix2 (Cert.Spec.atomOf b n) k))
            (fun h => val_main_v12 (F := Ideal) x1 x2 x7 x8 (ix2 (Cert.Spec.atomOf b n) h)) x5 x6 x9 x10 :=
    fun n => funext fun c' => logit_at x0 x1 x2 x5 x6 x7 x8 x9 x10 (Cert.Spec.atomOf b n) c'
  rw [val_main_v71_apply]
  simp only [val_main_v69_apply, val_main_v70_apply, e1, e2, softmax_at, el]
  rfl

end Cert.ReferenceIdeal.RefValue

end
-- ==== Proof.lean ====
/-
  Equivalence of a DiffPool / weave-layer kernel and its jnp reference over the extended reals.

  Both programs compute, from atom features `x` [16384, 256], pair features `p` [131072, 64], each pair's two atom numbers
  and its target atom (`pair_split`), and six dense layers:
  * the pair output `relu ((AP ++ PP) · W_po + b_po)` with `AP = relu ((u ++ v) · W_ap + b_ap) + relu ((v ++ u) · W_ap + b_ap)`
    over the pair's two atom rows `u`, `v`, and `PP = relu (p · W_pp + b_pp)`;
  * the pooled features `pooled[b, c, d] = ∑ n, softmax (A[64 b + n])[c] · x[64 b + n, d]` with the assignment logits
    `A = relu ((AA ++ PA) · W_ao + b_ao)`, `AA = relu (x · W_aa + b_aa)` and `PA` the per-atom sum of `relu (p · W_pa + b_pa)`.
  The kernel computes the dense layers in two tiled regions (2048 pairs, then 32 molecules at a time), with the 512-wide
  product of `AP` as two 256-wide products; its narrowings to bfloat16 are identities over the extended reals, and a sum
  of extended reals may be regrouped freely, so no finiteness is used. The two programs differ on one thing only: an atom
  number outside the table reads a clamped row in the reference and a not-a-number row in the kernel. The precondition
  therefore asks every atom number to lie in `[-16384, 16383]`, the range in which the reference's own indexing is
  defined; inside it the two gathers select the same rows.
-/
import proofs.«412404_j85959475462402_1_alg».proof.Defs
import proofs.«412404_j85959475462402_1_alg».proof.Proof.Gen.Kernel
import proofs.«412404_j85959475462402_1_alg».proof.Proof.Gen.Kernel.Frame
import proofs.«412404_j85959475462402_1_alg».proof.Proof.Gen.KernelIdeal
import proofs.«412404_j85959475462402_1_alg».proof.Proof.Gen.KernelIdeal.Frame
import proofs.«412404_j85959475462402_1_alg».proof.Proof.Gen.ReferenceIdeal
import proofs.«412404_j85959475462402_1_alg».proof.Proof.Gen.ReferenceIdeal.Run
import proofs.«412404_j85959475462402_1_alg».proof.Proof.Gen.ReferenceIdeal.Read
import proofs.«412404_j85959475462402_1_alg».proof.Proof.Gen.Pre_finite_inputs
import proofs.«412404_j85959475462402_1_alg».proof.Proof.KernelValue
import proofs.«412404_j85959475462402_1_alg».proof.Proof.PreRange
import proofs.«412404_j85959475462402_1_alg».proof.Proof.RefPair
import proofs.«412404_j85959475462402_1_alg».proof.Proof.RefPool
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's per-atom sums are the kernel's: the same scatter-add of the same rows at the same atom numbers. -/
theorem paAtoms_agree (ps : IVec Cert.KernelIdeal.S131072 32) (pf : FVec Ideal Cert.KernelIdeal.S131072x64 .f32) (Wpa : FVec Ideal Cert.KernelIdeal.S64x50 .f32)
    (bpa : FVec Ideal Cert.KernelIdeal.S50 .f32) :
    Cert.ReferenceIdeal.Read.val_main_v12 (F := Ideal) pf ps Wpa bpa = Cert.KernelIdeal.Val.paAtomsOf ps pf Wpa bpa := by
  unfold Cert.ReferenceIdeal.Read.val_main_v12 Cert.KernelIdeal.Val.paAtomsOf
  rw [Cert.ReferenceIdeal.RefValue.paRaw_eq]
  rfl

/-- Both programs end at the same two arrays: the pooled features and the pair output of the specification. -/
theorem algebraic : Cert.algebraic_KernelIdeal_ReferenceIdeal := by
  intro m ρ m' ρ' hpre hagree
  have hR : ∀ c : Dev Cert.KernelIdeal.nD, Cert.Spec.InRange (m ((c.tc : Thread Cert.KernelIdeal.nD Cert.KernelIdeal.τ).loc Cert.KernelIdeal.main_arg3)) := fun c =>
    Cert.Pre_finite_inputs.Range.inRange_of_pre _ _ _ _ _ _ _ _ _ _ _ _ _ _ _ _ _ (hpre c)
  refine ⟨_, _, Cert.KernelIdeal.Val.kernel_run m ρ hR, ?_⟩
  refine (θ_run Cert.ReferenceIdeal.defs _ _).mono (fun r h c => ⟨?_, ?_, (h c).2.2⟩) (Cert.ReferenceIdeal.Value.run (F := Ideal) m' ρ')
  · rw [(h c).1, Cert.ReferenceIdeal.Read.val_main_v71_eq, Cert.ReferenceIdeal.RefValue.pooled_eq, paAtoms_agree,
      (hagree c).1, (hagree c).2.1, (hagree c).2.2.1, (hagree c).2.2.2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2.1]
  · rw [(h c).2.1, Cert.ReferenceIdeal.Read.val_main_v57_eq, Cert.ReferenceIdeal.RefValue.pairOut_eq,
      (hagree c).1, (hagree c).2.1, (hagree c).2.2.2.1,
      (hagree c).2.2.2.2.2.2.2.2.2.2.2.1, (hagree c).2.2.2.2.2.2.2.2.2.2.2.2.1, (hagree c).2.2.2.2.2.2.2.2.2.2.2.2.2.1,
      (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
